-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S512x1024 : Shape := ⟨2, ![512, 1024]⟩
abbrev S16 : Shape := ⟨1, ![16]⟩
abbrev S16x1 : Shape := ⟨2, ![16, 1]⟩
abbrev S1x524288 : Shape := ⟨2, ![1, 524288]⟩
abbrev S16x524288 : Shape := ⟨2, ![16, 524288]⟩
abbrev S_ : Shape := ⟨0, ![]⟩

class Facts : Prop where
  bcast_S16_S16x1_0 : S16.BroadcastsInDim S16x1 (![0] : Fin 1 → Fin S16x1.rank)
  shapeCasts_S512x1024_S1x524288 : S512x1024.ShapeCasts S1x524288
  bcast_S16x1_S16x524288_0_1 : S16x1.BroadcastsInDim S16x524288 (![0, 1] : Fin 2 → Fin S16x524288.rank)
  bcast_S1x524288_S16x524288_0_1 : S1x524288.BroadcastsInDim S16x524288 (![0, 1] : Fin 2 → Fin S16x524288.rank)
  natLt_1_32 : 1 < 32
  reducesTo_S16x524288_S16_d1 : S16x524288.ReducesTo [1] S16
  h_S_ : 0 < S_.numel
  bcast_S_S32x512x1024 : S_.BroadcastsInDim S32x512x1024 (![] : Fin 0 → Fin S32x512x1024.rank)
  reducesTo_S32x512x1024_S_d0_1_2 : S32x512x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v7 : IVec S16 32) (main_v11 : IVec S_ 1) (main_v17 : IVec S_ 1) : IVec S_ 1 :=
  let main_v18 : IVec S_ 1 := andi main_v11 main_v17
  let main_c_4 : IVec S_ 32 := constantI S_ 32 1#32
  let main_v19 : IVec S16 32 := broadcastInDim S16 ![] bcast_S_S16 main_c_4
  let main_v20 : IVec S16 1 := cmpi .sge main_v7 main_v19
  let main_c_5 : IVec S_ 1 := constantI S_ 1 1#1
  let main_v21 : IVec S_ 1 := (fun x v => Host.reduce IntOp.andi x v reducesTo_S16_S_d0 h_S_) main_v20 main_c_5
  let main_v22 : IVec S_ 1 := andi main_v18 main_v21
  main_v22

def fn {F : FTy → Type} [FloatOps F] (main_arg0 : FVec F S32x512x1024 .f32) (main_arg1 : IVec S512x1024 32) : IVec S_ 1 :=
  let main_v0 : IVec S16 32 := iotaInDim S16 32 0
  let main_v1 : IVec S16x1 32 := broadcastInDim S16x1 ![0] bcast_S16_S16x1_0 main_v0
  let main_v2 : IVec S1x524288 32 := shapeCast S1x524288 main_arg1 shapeCasts_S512x1024_S1x524288
  let main_v3 : IVec S16x524288 32 := broadcastInDim S16x524288 ![0, 1] bcast_S16x1_S16x524288_0_1 main_v1
  let main_v4 : IVec S16x524288 32 := broadcastInDim S16x524288 ![0, 1] bcast_S1x524288_S16x524288_0_1 main_v2
  let main_v5 : IVec S16x524288 1 := cmpi .eq main_v3 main_v4
  let main_v6 : IVec S16x524288 32 := (extui 32 · natLt_1_32) main_v5
  let main_c : IVec S_ 32 := constantI S_ 32 0#32
  let main_v7 : IVec S16 32 := (fun x v => Host.reduce IntOp.addi x v reducesTo_S16x524288_S16_d1 h_S_) main_v6 main_c
  let main_v8 : FVec F S32x512x1024 .f32 := Host.absf main_arg0
  let main_cst : FVec F S_ .f32 := constant S_ .f32 0x7F800000#32
  let main_v9 : FVec F S32x512x1024 .f32 := broadcastInDim S32x512x1024 ![] bcast_S_S32x512x1024 main_cst
  let main_v10 : IVec S32x512x1024 1 := cmpf .olt main_v8 main_v9
  let main_c_0 : IVec S_ 1 := constantI S_ 1 1#1
  let main_v11 : IVec S_ 1 := (fun x v => Host.reduce IntOp.andi x v reducesTo_S32x512x1024_S_d0_1_2 h_S_) main_v10 main_c_0
  let main_c_1 : IVec S_ 32 := constantI S_ 32 0#32
  let main_v12 : IVec S512x1024 32 := broadcastInDim S512x1024 ![] bcast_S_S512x1024 main_c_1
  let main_v13 : IVec S512x1024 1 := cmpi .sge main_arg1 main_v12
  let main_c_2 : IVec S_ 32 := constantI S_ 32 16#32
  let main_v14 : IVec S512x1024 32 := broadcastInDim S512x1024 ![] bcast_S_S512x1024 main_c_2
  let main_v15 : IVec S512x1024 1 := cmpi .slt main_arg1 main_v14
  let main_v16 : IVec S512x1024 1 := andi main_v13 main_v15
  let main_c_3 : IVec S_ 1 := constantI S_ 1 1#1
  let main_v17 : IVec S_ 1 := (fun x v => Host.reduce IntOp.andi x v reducesTo_S512x1024_S_d0_1 h_S_) main_v16 main_c_3
  fn_part1 (F := F) main_v7 main_v11 main_v17
-- ==== Kernel.lean ====
abbrev S32x512x1024 : Shape := ⟨3, ![32, 512, 1024]⟩
abbrev S512x1024 : Shape := ⟨2, ![512, 1024]⟩
abbrev S32x524288 : Shape := ⟨2, ![32, 524288]⟩
abbrev S1x524288 : Shape := ⟨2, ![1, 524288]⟩
abbrev S2x32x16 : Shape := ⟨3, ![2, 32, 16]⟩
abbrev S2x1x16 : Shape := ⟨3, ![2, 1, 16]⟩
abbrev S32x32768 : Shape := ⟨2, ![32, 32768]⟩
abbrev S1x32768 : Shape := ⟨2, ![1, 32768]⟩
abbrev S1x32x16 : Shape := ⟨3, ![1, 32, 16]⟩
abbrev S1x1x16 : Shape := ⟨3, ![1, 1, 16]⟩
abbrev S32x16 : Shape := ⟨2, ![32, 16]⟩
abbrev S1x16 : Shape := ⟨2, ![1, 16]⟩
abbrev S16x32768 : Shape := ⟨2, ![16, 32768]⟩
abbrev S2x1x1 : Shape := ⟨3, ![2, 1, 1]⟩
abbrev S1x1x1 : Shape := ⟨3, ![1, 1, 1]⟩
abbrev S1x1 : Shape := ⟨2, ![1, 1]⟩
abbrev S32768 : Shape := ⟨1, ![32768]⟩
abbrev S1 : Shape := ⟨1, ![1]⟩
abbrev S_ : Shape := ⟨0, ![]⟩
abbrev S16x32 : Shape := ⟨2, ![16, 32]⟩
abbrev S16x1x32 : Shape := ⟨3, ![16, 1, 32]⟩
abbrev S1x16x32 : Shape := ⟨3, ![1, 16, 32]⟩
abbrev S16x16x32 : Shape := ⟨3, ![16, 16, 32]⟩
abbrev S16x16 : Shape := ⟨2, ![16, 16]⟩
abbrev S16 : Shape := ⟨1, ![16]⟩

abbrev nBuf : Space → Nat
  | .hbm => 71
  | .vmem => 17
  | .smem => 0
  | _ => 0

abbrev bufTy : (tb : Table) → Fin (tcTables nBuf tb) → BufTy
  | .hbm, ⟨0, _⟩ => ⟨S32x512x1024, .f32⟩
  | .hbm, ⟨1, _⟩ => ⟨S512x1024, .i32⟩
  | .hbm, ⟨2, _⟩ => ⟨S32x524288, .f32⟩
  | .hbm, ⟨3, _⟩ => ⟨S1x524288, .i32⟩
  | .hbm, ⟨4, _⟩ => ⟨S2x32x16, .f32⟩
  | .hbm, ⟨5, _⟩ => ⟨S2x1x16, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x16, .f32⟩
  | .hbm, ⟨13, _⟩ => ⟨S_, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S32x16, .f32⟩
  | .hbm, ⟨19, _⟩ => ⟨S32x16, .f32⟩
  | .hbm, ⟨20, _⟩ => ⟨S16x32, .f32⟩
  | .hbm, ⟨21, _⟩ => ⟨S16x1x32, .f32⟩
  | .hbm, ⟨22, _⟩ => ⟨S1x16x32, .f32⟩
  | .hbm, ⟨23, _⟩ => ⟨S16x16x32, .f32⟩
  | .hbm, ⟨24, _⟩ => ⟨S16x16x32, .f32⟩
  | .hbm, ⟨25, _⟩ => ⟨S16x16x32, .f32⟩
  | .hbm, ⟨26, _⟩ => ⟨S16x16x32, .f32⟩
  | .hbm, ⟨27, _⟩ => ⟨S_, .f32⟩
  | .hbm, ⟨28, _⟩ => ⟨S16x16, .f32⟩
  | .hbm, ⟨29, _⟩ => ⟨S16x16, .i32⟩
  | .hbm, ⟨30, _⟩ => ⟨S16x16, .i32⟩
  | .hbm, ⟨31, _⟩ => ⟨S_, .i32⟩
  | .hbm, ⟨32, _⟩ => ⟨S16x16, .i32⟩
  | .hbm, ⟨33, _⟩ => ⟨S16x16, .i32⟩
  | .hbm, ⟨34, _⟩ => ⟨S16x16, .i1⟩
  | .hbm, ⟨35, _⟩ => ⟨S_, .f32⟩
  | .hbm, ⟨36, _⟩ => ⟨S_, .f32⟩
  | .hbm, ⟨37, _⟩ => ⟨S16x16, .f32⟩
  | .hbm, ⟨38, _⟩ => ⟨S16x16, .f32⟩
  | .hbm, ⟨39, _⟩ => ⟨S16x16, .f32⟩
  | .hbm, ⟨40, _⟩ => ⟨S_, .f32⟩
  | .hbm, ⟨41, _⟩ => ⟨S16x16, .f32⟩
  | .hbm, ⟨42, _⟩ => ⟨S16x16, .f32⟩
  | .hbm, ⟨43, _⟩ => ⟨S_, .f32⟩
  | .hbm, ⟨44, _⟩ => ⟨S16x16, .f32⟩
  | .hbm, ⟨45, _⟩ => ⟨S16x16, .f32⟩
  | .hbm, ⟨46, _⟩ => ⟨S16x16, .f32⟩
  | .hbm, ⟨47, _⟩ => ⟨S_, .f32⟩
  | .hbm, ⟨48, _⟩ => ⟨S_, .f32⟩
  | .hbm, ⟨49, _⟩ => ⟨S16x16, .f32⟩
  | .hbm, ⟨50, _⟩ => ⟨S16x16, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x32, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S1x32768, .i32⟩
  | .local _ .vmem, ⟨3, _⟩ => ⟨S1x32768, .i32⟩
  | .local _ .vmem, ⟨4, _⟩ => ⟨S1x32x16, .f32⟩
  | .local _ .vmem, ⟨5, _⟩ => ⟨S1x32x16, .f32⟩
  | .local _ .vmem, ⟨6, _⟩ => ⟨S1x1x16, .f32⟩
  | .local _ .vmem, ⟨7, _⟩ => ⟨S1x1x16, .f32⟩
  | .local _ .vmem, ⟨8, _⟩ => ⟨S32x32768, .f32⟩
  | .local _ .vmem, ⟨9, _⟩ => ⟨S32x32768, .f32⟩
  | .local _ .vmem, ⟨10, _⟩ => ⟨S1x32768, .i32⟩
  | .local _ .vmem, ⟨11, _⟩ => ⟨S1x32768, .i32⟩
  | .local _ .vmem, ⟨12, _⟩ => ⟨S2x32x16, .f32⟩
  | .local _ .vmem, ⟨13, _⟩ => ⟨S2x1x16, .f32⟩
  | .local _ .vmem, ⟨14, _⟩ => ⟨S1x1x1, .f32⟩
  | .local _ .vmem, ⟨15, _⟩ => ⟨S1x1x1, .f32⟩
  | .local _ .vmem, ⟨16, _⟩ => ⟨S32x16, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩
abbrev main_cst_16 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32768 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2x1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S32x512x1024_S32x524288 : S32x512x1024.ShapeCasts S32x524288
  shapeCasts_S512x1024_S1x524288 : S512x1024.ShapeCasts S1x524288
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  iota_S16x32768_d0_w32 : S16x32768.Iotas .tc 32 [0]
  broadcasts_S1x32768_S16x32768 : S1x32768.Broadcasts S16x32768
  natLt_1_32 : 1 < 32
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2x32x16_S2x32x16_0_0_0 : ∀ a, (![0, 0, 0] : Fin 3 → Nat) a + S2x32x16.size a ≤ S2x32x16.size a
  h_S2x32x16 : 0 < S2x32x16.numel
  shapeCasts_S2x32x16_S2x32x16 : S2x32x16.ShapeCasts S2x32x16
  reduces_S2x32x16_S32x16 : S2x32x16.Reduces [0] S32x16
  inb_S2x1x16_S2x1x16_0_0_0 : ∀ a, (![0, 0, 0] : Fin 3 → Nat) a + S2x1x16.size a ≤ S2x1x16.size a
  h_S2x1x16 : 0 < S2x1x16.numel
  shapeCasts_S2x1x16_S2x1x16 : S2x1x16.ShapeCasts S2x1x16
  reduces_S2x1x16_S1x16 : S2x1x16.Reduces [0] S1x16
  broadcasts_S1x16_S32x16 : S1x16.Broadcasts S32x16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  reduces_S32x32768_S32768 : S32x32768.Reduces [0] S32768
  shapeCasts_S32768_S1x32768 : S32768.ShapeCasts S1x32768
  reduces_S1x32768_S1 : S1x32768.Reduces [1] S1
  shapeCasts_S1_S1x1 : S1.ShapeCasts S1x1
  reducesTo_S2x1x1_S_d0_1_2 : S2x1x1.ReducesTo [0, 1, 2] S_
  h_S_ : 0 < S_.numel
  reducesTo_S2x32x16_S32x16_d0 : S2x32x16.ReducesTo [0] S32x16
  reducesTo_S2x1x16_S1x16_d0 : S2x1x16.ReducesTo [0] S1x16
  bcast_S_S1x16 : S_.BroadcastsInDim S1x16 (![] : Fin 0 → Fin S1x16.rank)
  bcast_S1x16_S32x16_0_1 : S1x16.BroadcastsInDim S32x16 (![0, 1] : Fin 2 → Fin S32x16.rank)
  transposes_S32x16_S16x32_1_0 : S32x16.Transposes [1, 0] S16x32
  bcast_S16x32_S16x1x32_0_2 : S16x32.BroadcastsInDim S16x1x32 (![0, 2] : Fin 2 → Fin S16x1x32.rank)
  bcast_S16x32_S1x16x32_1_2 : S16x32.BroadcastsInDim S1x16x32 (![1, 2] : Fin 2 → Fin S1x16x32.rank)
  bcast_S16x1x32_S16x16x32_0_1_2 : S16x1x32.BroadcastsInDim S16x16x32 (![0, 1, 2] : Fin 3 → Fin S16x16x32.rank)
  bcast_S1x16x32_S16x16x32_0_1_2 : S1x16x32.BroadcastsInDim S16x16x32 (![0, 1, 2] : Fin 3 → Fin S16x16x32.rank)
  reducesTo_S16x16x32_S16x16_d2 : S16x16x32.ReducesTo [2] S16x16
  bcast_S_S16x16 : S_.BroadcastsInDim S16x16 (![] : Fin 0 → Fin S16x16.rank)
  reducesTo_S16x16_S_d0_1 : S16x16.ReducesTo [0, 1] S_
  reducesTo_S16x32_S16_d1 : S16x32.ReducesTo [1] S16
  reducesTo_S16_S_d0 : S16.ReducesTo [0] S_
  dot_S32x32768_S16x32768_S32x16_1_1_0_0_n_n_wf : DotDims.WF S32x32768 S16x32768 S32x16 [1] [1] [0] [0] [] []
  dot_S1x32768_S16x32768_S1x16_1_1_0_0_n_n_wf : DotDims.WF S1x32768 S16x32768 S1x16 [1] [1] [0] [0] [] []
  dot_S32x16_S16x32768_S32x32768_1_0_0_1_n_n_wf : DotDims.WF S32x16 S16x32768 S32x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S32x524288.size a
  hwx0_0 : ∀ i : grid0.Coords, EltTy.bits .f32 = 32 ∨ (Rect.block (s := S32x524288) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x524288.size a
  hwx0_1 : ∀ i : grid0.Coords, EltTy.bits .i32 = 32 ∨ (Rect.block (s := S1x524288) S1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S2x32x16.size a
  hwx0_2 : ∀ i : grid0.Coords, EltTy.bits .f32 = 32 ∨ (Rect.block (s := S2x32x16) S1x32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S2x1x16.size a
  hwx0_3 : ∀ i : grid0.Coords, EltTy.bits .f32 = 32 ∨ (Rect.block (s := S2x1x16) S1x1x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32768.size a ≤ S32x524288.size a
  hwx1_0 : ∀ i : grid1.Coords, EltTy.bits .f32 = 32 ∨ (Rect.block (s := S32x524288) S32x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32768.size a ≤ S1x524288.size a
  hwx1_1 : ∀ i : grid1.Coords, EltTy.bits .i32 = 32 ∨ (Rect.block (s := S1x524288) S1x32768.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x32x16.size a ≤ S2x32x16.size a
  hwx1_2 : ∀ i : grid1.Coords, EltTy.bits .f32 = 32 ∨ (Rect.block (s := S2x32x16) S2x32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1x16.size a ≤ S2x1x16.size a
  hwx1_3 : ∀ i : grid1.Coords, EltTy.bits .f32 = 32 ∨ (Rect.block (s := S2x1x16) S2x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

def dot_S32x32768_S16x32768_S32x16_1_1_0_0_n_n : DotDims S32x32768 S16x32768 S32x16 where
  lhsContracting := [1]
  rhsContracting := [1]
  lhsNonContracting := [0]
  rhsNonContracting := [0]
  lhsBatch := []
  rhsBatch := []
  wf := dot_S32x32768_S16x32768_S32x16_1_1_0_0_n_n_wf
def dot_S1x32768_S16x32768_S1x16_1_1_0_0_n_n : DotDims S1x32768 S16x32768 S1x16 where
  lhsContracting := [1]
  rhsContracting := [1]
  lhsNonContracting := [0]
  rhsNonContracting := [0]
  lhsBatch := []
  rhsBatch := []
  wf := dot_S1x32768_S16x32768_S1x16_1_1_0_0_n_n_wf
def dot_S32x16_S16x32768_S32x32768_1_0_0_1_n_n : DotDims S32x16 S16x32768 S32x32768 where
  lhsContracting := [1]
  rhsContracting := [0]
  lhsNonContracting := [0]
  rhsNonContracting := [1]
  lhsBatch := []
  rhsBatch := []
  wf := dot_S32x16_S16x32768_S32x32768_1_0_0_1_n_n_wf

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x32x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S32x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S2x32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S2x1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x512x1024 : Shape := ⟨3, ![32, 512, 1024]⟩
abbrev S512x1024 : Shape := ⟨2, ![512, 1024]⟩
abbrev S32x524288 : Shape := ⟨2, ![32, 524288]⟩
abbrev S524288x32 : Shape := ⟨2, ![524288, 32]⟩
abbrev S524288 : Shape := ⟨1, ![524288]⟩
abbrev S_ : Shape := ⟨0, ![]⟩
abbrev S16 : Shape := ⟨1, ![16]⟩
abbrev S524288x1 : Shape := ⟨2, ![524288, 1]⟩
abbrev S16x32 : Shape := ⟨2, ![16, 32]⟩
abbrev S16x1 : Shape := ⟨2, ![16, 1]⟩
abbrev S16x1x32 : Shape := ⟨3, ![16, 1, 32]⟩
abbrev S1x16x32 : Shape := ⟨3, ![1, 16, 32]⟩
abbrev S16x16x32 : Shape := ⟨3, ![16, 16, 32]⟩
abbrev S16x16 : Shape := ⟨2, ![16, 16]⟩

abbrev nBuf : Space → Nat
  | .hbm => 93
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S512x1024, .i32⟩
  | .hbm, ⟨2, _⟩ => ⟨S32x524288, .f32⟩
  | .hbm, ⟨3, _⟩ => ⟨S524288x32, .f32⟩
  | .hbm, ⟨4, _⟩ => ⟨S524288, .i32⟩
  | .hbm, ⟨5, _⟩ => ⟨S_, .f32⟩
  | .hbm, ⟨6, _⟩ => ⟨S524288, .f32⟩
  | .hbm, ⟨7, _⟩ => ⟨S_, .f32⟩
  | .hbm, ⟨8, _⟩ => ⟨S16, .f32⟩
  | .hbm, ⟨9, _⟩ => ⟨S524288x1, .i32⟩
  | .hbm, ⟨10, _⟩ => ⟨S16, .f32⟩
  | .hbm, ⟨11, _⟩ => ⟨S_, .f32⟩
  | .hbm, ⟨12, _⟩ => ⟨S16x32, .f32⟩
  | .hbm, ⟨13, _⟩ => ⟨S524288x1, .i32⟩
  | .hbm, ⟨14, _⟩ => ⟨S16x32, .f32⟩
  | .hbm, ⟨15, _⟩ => ⟨S16x1, .f32⟩
  | .hbm, ⟨16, _⟩ => ⟨S16x32, .f32⟩
  | .hbm, ⟨17, _⟩ => ⟨S16x32, .f32⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S524288, .i32⟩
  | .hbm, ⟨23, _⟩ => ⟨S524288, .i32⟩
  | .hbm, ⟨24, _⟩ => ⟨S524288, .i32⟩
  | .hbm, ⟨25, _⟩ => ⟨S524288x1, .i32⟩
  | .hbm, ⟨26, _⟩ => ⟨S524288x32, .f32⟩
  | .hbm, ⟨27, _⟩ => ⟨S524288x32, .f32⟩
  | .hbm, ⟨28, _⟩ => ⟨S524288x32, .f32⟩
  | .hbm, ⟨29, _⟩ => ⟨S_, .f32⟩
  | .hbm, ⟨30, _⟩ => ⟨S524288, .f32⟩
  | .hbm, ⟨31, _⟩ => ⟨S524288, .f32⟩
  | .hbm, ⟨32, _⟩ => ⟨S_, .f32⟩
  | .hbm, ⟨33, _⟩ => ⟨S524288, .f32⟩
  | .hbm, ⟨34, _⟩ => ⟨S524288, .f32⟩
  | .hbm, ⟨35, _⟩ => ⟨S_, .f32⟩
  | .hbm, ⟨36, _⟩ => ⟨S524288, .f32⟩
  | .hbm, ⟨37, _⟩ => ⟨S524288, .f32⟩
  | .hbm, ⟨38, _⟩ => ⟨S524288, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x1x32, .f32⟩
  | .hbm, ⟨44, _⟩ => ⟨S1x16x32, .f32⟩
  | .hbm, ⟨45, _⟩ => ⟨S16x16x32, .f32⟩
  | .hbm, ⟨46, _⟩ => ⟨S16x16x32, .f32⟩
  | .hbm, ⟨47, _⟩ => ⟨S16x16x32, .f32⟩
  | .hbm, ⟨48, _⟩ => ⟨S16x16x32, .f32⟩
  | .hbm, ⟨49, _⟩ => ⟨S_, .f32⟩
  | .hbm, ⟨50, _⟩ => ⟨S16x16, .f32⟩
  | .hbm, ⟨51, _⟩ => ⟨S16x16, .i32⟩
  | .hbm, ⟨52, _⟩ => ⟨S16x16, .i32⟩
  | .hbm, ⟨53, _⟩ => ⟨S_, .i32⟩
  | .hbm, ⟨54, _⟩ => ⟨S16x16, .i32⟩
  | .hbm, ⟨55, _⟩ => ⟨S16x16, .i32⟩
  | .hbm, ⟨56, _⟩ => ⟨S16x16, .i1⟩
  | .hbm, ⟨57, _⟩ => ⟨S_, .f32⟩
  | .hbm, ⟨58, _⟩ => ⟨S_, .f32⟩
  | .hbm, ⟨59, _⟩ => ⟨S16x16, .f32⟩
  | .hbm, ⟨60, _⟩ => ⟨S16x16, .f32⟩
  | .hbm, ⟨61, _⟩ => ⟨S16x16, .f32⟩
  | .hbm, ⟨62, _⟩ => ⟨S_, .f32⟩
  | .hbm, ⟨63, _⟩ => ⟨S16x16, .f32⟩
  | .hbm, ⟨64, _⟩ => ⟨S16x16, .f32⟩
  | .hbm, ⟨65, _⟩ => ⟨S_, .f32⟩
  | .hbm, ⟨66, _⟩ => ⟨S16x16, .f32⟩
  | .hbm, ⟨67, _⟩ => ⟨S16x16, .f32⟩
  | .hbm, ⟨68, _⟩ => ⟨S16x16, .f32⟩
  | .hbm, ⟨69, _⟩ => ⟨S_, .f32⟩
  | .hbm, ⟨70, _⟩ => ⟨S_, .f32⟩
  | .hbm, ⟨71, _⟩ => ⟨S16x16, .f32⟩
  | .hbm, ⟨72, _⟩ => ⟨S16x16, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16x32, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_call1_v0 : Ref sig .tc := ⟨.hbm, 70, rfl⟩
abbrev main_call1_v1 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_cst_19 : Ref sig .tc := ⟨.hbm, 85, rfl⟩
abbrev main_v58 : Ref sig .tc := ⟨.hbm, 86, rfl⟩
abbrev main_cst_20 : Ref sig .tc := ⟨.hbm, 87, rfl⟩
abbrev main_v59 : Ref sig .tc := ⟨.hbm, 88, rfl⟩
abbrev main_v60 : Ref sig .tc := ⟨.hbm, 89, rfl⟩
abbrev main_cst_21 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]

class Facts₀ : Prop where
  shapeCasts_S32x512x1024_S32x524288 : S32x512x1024.ShapeCasts S32x524288
  transposes_S32x524288_S524288x32_1_0 : S32x524288.Transposes [1, 0] S524288x32
  shapeCasts_S512x1024_S524288 : S512x1024.ShapeCasts S524288
  bcast_S_S524288 : S_.BroadcastsInDim S524288 (![] : Fin 0 → Fin S524288.rank)
  bcast_S_S16 : S_.BroadcastsInDim S16 (![] : Fin 0 → Fin S16.rank)
  bcast_S524288_S524288x1_0 : S524288.BroadcastsInDim S524288x1 (![0] : Fin 1 → Fin S524288x1.rank)
  bcast_S_S16x32 : S_.BroadcastsInDim S16x32 (![] : Fin 0 → Fin S16x32.rank)
  bcast_S16_S16x1_0 : S16.BroadcastsInDim S16x1 (![0] : Fin 1 → Fin S16x1.rank)
  bcast_S16x1_S16x32_0_1 : S16x1.BroadcastsInDim S16x32 (![0, 1] : Fin 2 → Fin S16x32.rank)
  reducesTo_S524288x32_S524288_d1 : S524288x32.ReducesTo [1] S524288
  h_S_ : 0 < S_.numel
  reducesTo_S524288_S_d0 : S524288.ReducesTo [0] S_
  bcast_S16x32_S16x1x32_0_2 : S16x32.BroadcastsInDim S16x1x32 (![0, 2] : Fin 2 → Fin S16x1x32.rank)
  bcast_S16x32_S1x16x32_1_2 : S16x32.BroadcastsInDim S1x16x32 (![1, 2] : Fin 2 → Fin S1x16x32.rank)
  bcast_S16x1x32_S16x16x32_0_1_2 : S16x1x32.BroadcastsInDim S16x16x32 (![0, 1, 2] : Fin 3 → Fin S16x16x32.rank)
  bcast_S1x16x32_S16x16x32_0_1_2 : S1x16x32.BroadcastsInDim S16x16x32 (![0, 1, 2] : Fin 3 → Fin S16x16x32.rank)
  reducesTo_S16x16x32_S16x16_d2 : S16x16x32.ReducesTo [2] S16x16
  bcast_S_S16x16 : S_.BroadcastsInDim S16x16 (![] : Fin 0 → Fin S16x16.rank)
  reducesTo_S16x16_S_d0_1 : S16x16.ReducesTo [0, 1] S_
  reducesTo_S16x32_S16_d1 : S16x32.ReducesTo [1] S16
  reducesTo_S16_S_d0 : S16.ReducesTo [0] S_
  scatter_S16_S524288x1_S524288_n_0_0_1_wf : ScatterDims.WF S16 S524288x1 S524288 [] [0] [0] 1
  scatter_S16x32_S524288x1_S524288x32_1_0_0_1_wf : ScatterDims.WF S16x32 S524288x1 S524288x32 [1] [0] [0] 1
  gather_S16x32_S524288x1_S524288x32_1_0_n_n_0_1_132_wf : GatherDims.WF S16x32 S524288x1 S524288x32 [1] [0] [] [0] [] 1 ![1, 32]

variable [Facts₀]

def scatter_S16_S524288x1_S524288_n_0_0_1 : ScatterDims S16 S524288x1 S524288 where
  updateWindowDims := []
  insertedWindowDims := [0]
  scatterDimsToOperandDims := [0]
  indexVectorDim := 1
  wf := scatter_S16_S524288x1_S524288_n_0_0_1_wf
def scatter_S16x32_S524288x1_S524288x32_1_0_0_1 : ScatterDims S16x32 S524288x1 S524288x32 where
  updateWindowDims := [1]
  insertedWindowDims := [0]
  scatterDimsToOperandDims := [0]
  indexVectorDim := 1
  wf := scatter_S16x32_S524288x1_S524288x32_1_0_0_1_wf
def gather_S16x32_S524288x1_S524288x32_1_0_n_n_0_1_132 : GatherDims S16x32 S524288x1 S524288x32 where
  offsetDims := [1]
  collapsedSliceDims := [0]
  operandBatchingDims := []
  startIndicesBatchingDims := []
  startIndexMap := [0]
  indexVectorDim := 1
  sliceSizes := ![1, 32]
  wf := gather_S16x32_S524288x1_S524288x32_1_0_n_n_0_1_132_wf

class Facts : Prop extends Facts₀ where

variable [Facts]
-- ==== Proof.KbR0Runs.lean ====
/- REGION 0, the first kernel (the per-cluster sums and counts), on ONE grid point.

   The body at a point of the 2 x 8 grid: when the step coordinate is 0 it stores the zero block into both
   accumulators (the sums block [1,32,16] and the counts block [1,1,16]); then, at every point, it loads the
   data block and the label block, loads the accumulators back, and stores
     sums   := sums   + data · onehot(labels)ᵀ        (the payload k0_pay4)
     counts := counts + 1 · onehot(labels)ᵀ           (the payload k0_pay5).
   Two control cases: the FIRST point of a core (step = 0, both stores of the zero block happen first) and
   every NEXT point (only the update, over what the point before left in the two accumulators).
   This module: the windows' blocks at the region's entry contents, the closed form of the condition, and
   the body's triple in each of the two cases, each with the list of pieces its stores leave. -/
import proofs.«429783_j3401614098830_3_alg».proof.Proof.Gen.Kernel.Launch
import proofs.«429783_j3401614098830_3_alg».proof.Proof.Gen.Kernel.Skeleton
import proofs.«429783_j3401614098830_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long lane axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The data window (0) is fetched at every point: its current staging buffer holds its block, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The label window (1), likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch condition -/

/-- The condition of the body's one conditional: the step coordinate is 0 (the scalar chain substituted). -/
abbrev cond0_0 (i : grid0.Coords) : Prop := (Scalar.cmpi .ne (Scalar.extui (Scalar.cmpi .eq (BitVec.ofNat 32 (i 1).val) 0#32)) 0#32) = 1#1
/-- It holds exactly at the first point of each core: the points 0 and 8 of the 16, i.e. t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of each accumulator window, through which its contents are stated (the choice does not matter). -/
abbrev VO0_2 : View sig .tc .vmem S1x32x16 .f32 := (Memref.whole cc0_stg2_0 : Memref sig .tc .vmem S1x32x16 .f32).view
abbrev VO0_3 : View sig .tc .vmem S1x1x16 .f32 := (Memref.whole cc0_stg3_0 : Memref sig .tc .vmem S1x1x16 .f32).view
/-- Each window's current staging memref at point `t`, and its wholeness. -/
abbrev ms0_0 (t : Fin cfg0.N) : Memref sig .tc .vmem S32x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x16 .f32 := win0_3.stage (cfg0.slots t 3)
abbrev hs0_3 (t : Fin cfg0.N) : (ms0_3 t).IsWhole := hstage0_3 ((cfg0.slots t 3).cast nbuf0_3)

/-! ## The body's triple, case by case -/

set_option maxHeartbeats 2000000 in
/-- THE FIRST POINT OF A CORE (step = 0). On whole staging memrefs — the data and label buffers at their
    contents `x0`, `x1`, the two accumulators at anything — the body runs to the continuation holding the
    inputs as they were and each accumulator with its pieces written (last first): the zero block, then
    the update of what is read back. The pieces are the witness the symbolic run finds. -/
noncomputable def kernelRun0_A (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) :
    Σ' (L2 : List (View.Piece (Elt F) S1x32x16 .f32)), { L3 : List (View.Piece (Elt F) S1x1x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__centers_kernel i arg2 harg2 arg3 harg3 arg4 harg4 arg5 harg5) K } := by
  refine ⟨?_, ?_, fun E K => ?run⟩
  case run =>
    simp only [cc0__centers_kernel_eq_skeleton]; unfold cc0__centers_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 2000000 in
/-- EVERY NEXT POINT (step ≠ 0). The two accumulators now at the running contents `xo2`, `xo3` the point before
    left; the body stores only the update of what it loads back. -/
noncomputable def kernelRun0_B (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) :
    Σ' (L2 : List (View.Piece (Elt F) S1x32x16 .f32)), { L3 : List (View.Piece (Elt F) S1x1x16 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__centers_kernel i arg2 harg2 arg3 harg3 arg4 harg4 arg5 harg5) K } := by
  refine ⟨?_, ?_, fun E K => ?run⟩
  case run =>
    simp only [cc0__centers_kernel_eq_skeleton]; unfold cc0__centers_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.KbR0.lean ====
/- REGION 0, the first kernel (the per-cluster sums and counts), over its whole grid.

   What the two accumulators (the sums block [1,32,16] and the counts block [1,1,16] of the current core) hold
   after the body at each of the 16 grid points, by recursion on the point: at the first point of a core
   (t ≡ 0 mod 8) the update of the zero block, at every next point the update of what the point before left —
   the staging buffer of an accumulator is written back only at the last point of a core (t ≡ 7 mod 8) and is
   kept in between. Then the pipeline's proof data at the region's entry contents, the body obligation at a
   generic point, and the two accumulators read back as the payloads of the kernel's arithmetic:
     first point:  (k0_pay4 data labels 0,           k0_pay5 labels 0)
     next point:   (k0_pay4 data labels sums_before, k0_pay5 labels counts_before). -/
import proofs.«429783_j3401614098830_3_alg».proof.Proof.KbR0Runs
import Idealize.ShloMosaic.Lib.Pipeline.Value

-- membership in a rectangle of the long lane axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the two accumulators -/

/-- The first-point pieces for the sums block tile it (the zero store, then the update store), so they cover it. -/
theorem cover0_A_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) (y : S1x32x16.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x32x16.size (by sl_kernel_rfl) y

/-- What the first point leaves in the sums block's staging buffer: its pieces read back. -/
def out0_A_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) : Vec F S1x32x16 .f32 :=
  VO0_2.read (Elt F) (VO0_2.writes (Elt F) VO0_2.junk (kernelRun0_A c i arg2 harg2 arg3 harg3 arg4 harg4 arg5 harg5 hc0 x0 x1).1)

/-- The first-point pieces for the counts block cover it. -/
theorem cover0_A_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) (y : S1x1x16.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x16.size (by sl_kernel_rfl) y

/-- What the first point leaves in the counts block's staging buffer. -/
def out0_A_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) : Vec F S1x1x16 .f32 :=
  VO0_3.read (Elt F) (VO0_3.writes (Elt F) VO0_3.junk (kernelRun0_A c i arg2 harg2 arg3 harg3 arg4 harg4 arg5 harg5 hc0 x0 x1).2.1)

/-- A next point's one piece for the sums block (the update store) covers it. -/
theorem cover0_B_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) (y : S1x32x16.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x32x16.size (by sl_kernel_rfl) y

/-- What a next point leaves in the sums block's staging buffer, over the running contents `xo2`, `xo3`. -/
def out0_B_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) : Vec F S1x32x16 .f32 :=
  VO0_2.read (Elt F) (VO0_2.writes (Elt F) VO0_2.junk (kernelRun0_B c i arg2 harg2 arg3 harg3 arg4 harg4 arg5 harg5 hc0 x0 x1 xo2 xo3).1)

/-- A next point's one piece for the counts block covers it. -/
theorem cover0_B_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) (y : S1x1x16.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x16.size (by sl_kernel_rfl) y

/-- What a next point leaves in the counts block's staging buffer. -/
def out0_B_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) : Vec F S1x1x16 .f32 :=
  VO0_3.read (Elt F) (VO0_3.writes (Elt F) VO0_3.junk (kernelRun0_B c i arg2 harg2 arg3 harg3 arg4 harg4 arg5 harg5 hc0 x0 x1 xo2 xo3).2.1)

section Regions
-- the TensorCore's buffer contents when the region is entered
variable (V : (c : Dev nD) → (b : Ref sig .tc) → Buf (Elt F) ((c : Thread nD τ).loc b))

/-! ## What the accumulators hold after each point -/

/-- THE ACCUMULATION: (sums block, counts block) in the staging buffers after the body at position `n` —
    the case the closed form selects at `n`, run at the point's memrefs and input blocks; a next point over what
    this leaves at `n - 1`. -/
def outsAt0 (c : Dev nD) : (n : ℕ) → n < cfg0.N → Vec F S1x32x16 .f32 × Vec F S1x1x16 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- `outsAt0` at a first point: that case's contents. -/
theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

/-- `outsAt0` at a next point: that case's contents, over what the point before left. -/
theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them; after the body at point `t`
    each input's buffer at its block and the two accumulators at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a next point the sums block's current staging buffer holds what the body left at the point before: the
    point is not the first of its core, so the buffer was not written back in between (write-backs happen at
    t ≡ 7 mod 8 only), and the window is live and uncut. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]
/-- The counts block, likewise. -/
theorem before0_3_B (c : Dev nD) (t : Fin cfg0.N) (h0 : ¬t.val % 8 = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' memrefs hold their blocks; the closed form says which case the point is
    in; at a next point each accumulator holds what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 8 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_2_B V c t h0, before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

/-! ## The accumulators as the payloads of the kernel's arithmetic -/

/-- The zero offsets of a whole-buffer access, of rank 3 and of rank 2, however spelt. -/
theorem zeroOff0_3 : (![0, 0, 0] : Fin 3 → Nat) = fun _ => 0 := funext fun a => by fin_cases a <;> rfl
theorem zeroOff0_2 : (![0, 0] : Fin 2 → Nat) = fun _ => 0 := funext fun a => by fin_cases a <;> rfl

/-- First point, sums block: the update (k0_pay4) of the zero block (k0_pay1) — the zero store read back by
    the load, the update store covering the block. -/
theorem out0_A_2_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) :
    out0_A_2 c i arg2 harg2 arg3 harg3 arg4 harg4 arg5 harg5 hc0 x0 x1 = k0_pay4 x0 x1 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x32x16) zeroOff0_3, View.readCov_unit_zero (S := S1x32x16) _ zeroOff0_3]
  simp only [View.readAt_eq_ld, harg2.read_unread, harg3.read_unread, View.ld_unit_zero (S := S32x32768) zeroOff0_2, View.ld_unit_zero (S := S1x32768) zeroOff0_2]

/-- First point, counts block: the update (k0_pay5) of the zero block (k0_pay2). -/
theorem out0_A_3_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) :
    out0_A_3 c i arg2 harg2 arg3 harg3 arg4 harg4 arg5 harg5 hc0 x0 x1 = k0_pay5 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x16) zeroOff0_3, View.readCov_unit_zero (S := S1x1x16) _ zeroOff0_3]
  simp only [View.readAt_eq_ld, harg3.read_unread, View.ld_unit_zero (S := S1x32768) zeroOff0_2]

/-- Next point, sums block: the update of the running contents. -/
theorem out0_B_2_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero (S := S1x32x16) zeroOff0_3]
  simp only [View.readAt_eq_ld, harg2.read_unread, harg3.read_unread, harg4.read_unread, View.ld_unit_zero (S := S32x32768) zeroOff0_2, View.ld_unit_zero (S := S1x32768) zeroOff0_2, View.ld_unit_zero (S := S1x32x16) zeroOff0_3]

/-- Next point, counts block: the update of the running contents. -/
theorem out0_B_3_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero (S := S1x1x16) zeroOff0_3]
  simp only [View.readAt_eq_ld, harg3.read_unread, harg5.read_unread, View.ld_unit_zero (S := S1x32768) zeroOff0_2, View.ld_unit_zero (S := S1x1x16) zeroOff0_3]

section Regions
variable (V : (c : Dev nD) → (b : Ref sig .tc) → Buf (Elt F) ((c : Thread nD τ).loc b))

/-- The accumulators after the FIRST point of a core: the update of zero by the point's data and labels. -/
theorem outsAt0_first (c : Dev nD) (t : Fin cfg0.N) (h : t.val % 8 = 0) :
    outsAt0 V c t.val t.isLt = (k0_pay4 (iblk0 V c 0 t) (iblk0 V c 1 t) k0_pay1, k0_pay5 (iblk0 V c 1 t) k0_pay2) := by
  rw [outsAt0_A V c t h]
  rw [out0_A_2_eq c (grid0.coords t) (ms0_0 t) (hs0_0 t) (ms0_1 t) (hs0_1 t) (ms0_2 t) (hs0_2 t) (ms0_3 t) (hs0_3 t) ((hcond0_0 t).mpr h) (iblk0 V c 0 t) (iblk0 V c 1 t),
    out0_A_3_eq c (grid0.coords t) (ms0_0 t) (hs0_0 t) (ms0_1 t) (hs0_1 t) (ms0_2 t) (hs0_2 t) (ms0_3 t) (hs0_3 t) ((hcond0_0 t).mpr h) (iblk0 V c 0 t) (iblk0 V c 1 t)]

/-- The accumulators after a NEXT point: the update, by the point's data and labels, of what the point before left. -/
theorem outsAt0_next (c : Dev nD) (t : Fin cfg0.N) (h : ¬ t.val % 8 = 0) :
    outsAt0 V c t.val t.isLt = (k0_pay4 (iblk0 V c 0 t) (iblk0 V c 1 t) (outsAt0 V c (t.val - 1) (Nat.lt_of_le_of_lt (Nat.sub_le _ _) t.isLt)).1, k0_pay5 (iblk0 V c 1 t) (outsAt0 V c (t.val - 1) (Nat.lt_of_le_of_lt (Nat.sub_le _ _) t.isLt)).2) := by
  rw [outsAt0_B V c t h]
  rw [out0_B_2_eq c (grid0.coords t) (ms0_0 t) (hs0_0 t) (ms0_1 t) (hs0_1 t) (ms0_2 t) (hs0_2 t) (ms0_3 t) (hs0_3 t) (fun h' => h ((hcond0_0 t).mp h')) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
    out0_B_3_eq c (grid0.coords t) (ms0_0 t) (hs0_0 t) (ms0_1 t) (hs0_1 t) (ms0_2 t) (hs0_2 t) (ms0_3 t) (hs0_3 t) (fun h' => h ((hcond0_0 t).mp h')) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2]

end Regions

end Cert.Kernel.Hand

end
-- ==== Proof.KbR1Runs.lean ====
/-
  The second grid (the summed hinge), one point of it: what the body does to the memory it is handed.
  The grid is 2 cores x 8 steps, 16 points t = 8*core + step run in order.  The body is handed the data block
  and the label block of the point, the whole table of per-core sums and the whole table of per-core counts,
  the core's one-cell output block, and a 32 x 16 table of its own that lives from point to point.
  At a core's first step it sets the output cell to zero and writes the centre table (sums added over the
  cores, divided by the counts added over the cores and guarded below by one) into its own table; at every
  step it then adds the block's summed hinge, computed against the table, to the output cell.
  Here: each window's block read off the array the region finds, why an input's buffer holds its block at
  every point, the step test in closed form, and the two runs of the body (first step / later step) as
  separation-logic triples whose witnesses are the pieces the stores leave.
-/
import proofs.«429783_j3401614098830_3_alg».proof.Proof.Gen.Kernel.Launch
import proofs.«429783_j3401614098830_3_alg».proof.Proof.Gen.Kernel.Skeleton
import proofs.«429783_j3401614098830_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the second grid is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data block's buffer holds the block of the point, at every point: it is fetched at every point, and a body
    that leaves it in place leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the label block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The table of per-core sums is fetched once, at the first point; its block index never moves, so its buffer
    holds the whole table at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for the table of per-core counts. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The step test -/

/-- The body's test "this is the core's first step", from the grid coordinates. -/
abbrev cond1_0 (i : grid1.Coords) : Prop := (Scalar.cmpi .ne (Scalar.extui (Scalar.cmpi .eq (BitVec.ofNat 32 (i 1).val) 0#32)) 0#32) = 1#1
/-- It holds exactly at the points t = 0 and t = 8: t mod 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- No window of the second grid is ever idle. -/
theorem liveAt1 : ∀ (w : Fin cfg1.W) (t : Fin cfg1.N), cfg1.idle w (grid1.coords t) = false := fun _ _ => rfl

/-! ## The memory the body is handed -/

/-- One buffer of the output cell, through which its contents are stated. -/
abbrev VO1_4 : View sig .tc .vmem S1x1x1 .f32 := (Memref.whole cc1_stg4_0 : Memref sig .tc .vmem S1x1x1 .f32).view
/-- Each window's current buffer at point `t`, and its wholeness. -/
abbrev ms1_0 (t : Fin cfg1.N) : Memref sig .tc .vmem S32x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32768 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x32x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x1x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
/-- The body's own 32 x 16 table, which lives from point to point. -/
abbrev scM1 : Memref sig .tc .vmem S32x16 .f32 := Memref.whole cc1_scratch0
/-- The same as a view: what it holds is stated through it. -/
abbrev VS1 : View sig .tc .vmem S32x16 .f32 := scM1.view

/-- The core's scoped buffers that are neither this grid's buffers nor the body's own table: the first grid's
    eight buffers, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- What the region is entered with, the body's own table split out: the first grid's buffers, the table at
    some contents, the generator register at some state. -/
theorem PhiA1_split (c : Dev nD) :
    (Pipeline.ΦA spec1 c : sProp 𝕄) ⊢ iprop(iprop(others1 (F := F) c ∗ (∃ d, owns (c : Thread nD τ) scM1 fullShare d)) ∗ (∃ r, prngReg c r)) := by
  unfold Pipeline.ΦA others1; rw [scopedRest1_eq]; simp only [scM1, owns_whole]
  iintro ⟨⟨R0, R1, R2, R3, R4, R5, R6, R7, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    · iexact HS
  · iexact Hg

/-- And back: the table's contents forgotten. -/
theorem PhiA1_join (c : Dev nD) :
    iprop(iprop(others1 (F := F) c ∗ (∃ d, owns (c : Thread nD τ) scM1 fullShare d)) ∗ (∃ r, prngReg c r)) ⊢ (Pipeline.ΦA spec1 c : sProp 𝕄) := by
  unfold Pipeline.ΦA others1; rw [scopedRest1_eq]; simp only [scM1, owns_whole]
  iintro ⟨⟨⟨R0, R1, R2, R3, R4, R5, R6, R7⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  · iexact Hg

/-- The two together, as an equation. -/
theorem PhiA1_eq (c : Dev nD) :
    (Pipeline.ΦA spec1 c : sProp 𝕄) = iprop(iprop(others1 (F := F) c ∗ (∃ d, owns (c : Thread nD τ) scM1 fullShare d)) ∗ (∃ r, prngReg c r)) :=
  (PhiA1_split c).antisymm (PhiA1_join c)

/-! ## The two runs of the body -/

set_option maxHeartbeats 1000000 in
/-- THE FIRST STEP of a core.  On whole memrefs — the data block at `x0`, the label block at `x1`, the table of
    per-core sums at `x2`, the table of per-core counts at `x3`, the output cell and the body's own table at
    anything — the body runs to the continuation holding the four inputs as they were, the output cell with the
    pieces `L4` written and the body's table with the pieces `LS` written.  The pieces are the witness. -/
noncomputable def kernelRun1_A (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) :
    Σ' (L4 : List (View.Piece (Elt F) S1x1x1 .f32)), { LS : List (View.Piece (Elt F) S32x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__var_kernel i arg2 harg2 arg3 harg3 arg4 harg4 arg5 harg5 arg6 harg6 arg7 harg7) K } := by
  refine ⟨?_, ?_, fun E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

set_option maxHeartbeats 1000000 in
/-- A LATER STEP of a core.  On whole memrefs — the inputs as above, the output cell at its running contents
    `xo`, the body's table at the contents `xs` the step before left — the body runs to the continuation
    holding the inputs and the table as they were and the output cell with the pieces `L4` written. -/
noncomputable def kernelRun1_B (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) :
    { L4 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc1__var_kernel i arg2 harg2 arg3 harg3 arg4 harg4 arg5 harg5 arg6 harg6 arg7 harg7) K } := by
  refine ⟨?_, fun E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

end Cert.Kernel.Hand

end
-- ==== Proof.KbR1.lean ====
/-
  The second grid (the summed hinge) as a whole: what the output cell and the body's own table hold after
  each of the 16 points, and the proof data of the grid.
  After a core's first step the table holds the centre table (a function of the two tables of per-core sums
  and counts alone) and the output cell holds the block's summed hinge added to zero; after a later step the
  table is what it was and the output cell holds the block's summed hinge added to what the step before left.
  The region invariant names the table's contents from the second point on; when the region is left they are
  forgotten again.
-/
import proofs.«429783_j3401614098830_3_alg».proof.Proof.KbR1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the second grid is entered
variable (V : (c : Dev nD) → (b : Ref sig .tc) → Buf (Elt F) ((c : Thread nD τ).loc b))

/-! ## What a run leaves, read back -/

/-- A first step's pieces for the output cell cover it. -/
theorem cover1_A_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) (y : S1x1x1.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x1x1.size (by sl_kernel_rfl) y

/-- What a first step leaves in the output cell: its pieces read back. -/
def out1_A_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) : Vec F S1x1x1 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- A first step's pieces for the body's own table cover it. -/
theorem scover1_A (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) (y : S32x16.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S32x16.size (by sl_kernel_rfl) y

/-- What a first step leaves in the body's own table: its pieces read back. -/
def sout1_A (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) : Vec F S32x16 .f32 :=
  VS1.read (Elt F) (VS1.writes (Elt F) VS1.junk (kernelRun1_A c i arg2 harg2 arg3 harg3 arg4 harg4 arg5 harg5 arg6 harg6 arg7 harg7 hc0 x0 x1 x2 x3).2.1)

/-- A later step's pieces for the output cell cover it. -/
theorem cover1_B_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) (y : S1x1x1.Idx) :
    ∃ pc ∈ (kernelRun1_B c i arg2 harg2 arg3 harg3 arg4 harg4 arg5 harg5 arg6 harg6 arg7 harg7 hc0 x0 x1 x2 x3 xo xs).1, y ∈ pc.1.set :=
  View.cover_of_tiledL (kernelRun1_B c i arg2 harg2 arg3 harg3 arg4 harg4 arg5 harg5 arg6 harg6 arg7 harg7 hc0 x0 x1 x2 x3 xo xs).1 S1x1x1.size (by sl_kernel_rfl) y

/-- What a later step leaves in the output cell: its pieces read back. -/
def out1_B_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) : Vec F S1x1x1 .f32 :=
  VO1_4.read (Elt F) (VO1_4.writes (Elt F) VO1_4.junk (kernelRun1_B c i arg2 harg2 arg3 harg3 arg4 harg4 arg5 harg5 arg6 harg6 arg7 harg7 hc0 x0 x1 x2 x3 xo xs).1)

/-! ## What the output cell and the table hold after each point -/

/-- THE ACCUMULATION.  The pair (output cell, table) after the body at position `n`: at a core's first step the
    first run's, at a later step the later run's over what position `n - 1` left (the table unchanged). -/
def outsAt1 (c : Dev nD) : (n : ℕ) → n < cfg1.N → Vec F S1x1x1 .f32 × Vec F S32x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
        (outsAt1 c n (Nat.lt_of_succ_lt hn)).2)

/-- `outsAt1` at a core's first step. -/
theorem outsAt1_A (c : Dev nD) (t : Fin cfg1.N) (h0 : t.val % 8 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t) (iblk1 V c 3 t),
      sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a later step: over what the point before left. -/
theorem outsAt1_B (c : Dev nD) (t : Fin cfg1.N) (h0 : ¬t.val % 8 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: before the first point what the region is entered with (the table at anything); later
    the first grid's buffers, the table at what position `n - 1` left in it, the generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1 fullShare ((outsAt1 V c (n - 1) (by omega)).2)) ∗ (∃ r, prngReg c r)) := by
  cases n with
  | zero => exact absurd rfl hz
  | succ n => rfl

/-! ## The grid's proof data -/

/-- The arrays as the region finds them; after the body at point `t` each input's buffer at its block and the
    output cell's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later step the output cell's current buffer holds what the body left at the point before: the point is
    not the first and the cell was not written back between (it is written back after a core's last step only). -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 16 := lt_of_lt_of_eq t.isLt (show cfg1.N = 16 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' buffers hold their blocks; the step test says which run applies; at a later
    step the output cell holds what the point before left, and the invariant hands over the table at what the
    point before left; the invariant takes the table back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 16 := lt_of_lt_of_eq t.isLt (show cfg1.N = 16 from N_1)
  by_cases h0 : t.val % 8 = 0
  · rw [outsAt1_A V c t h0]
    unfold out1_A_4 sout1_A; (try dsimp only)
    by_cases hz : t.val = 0
    · -- the grid's first point: the table at anything
      rw [PhiS1_castSucc V c t, PhiS1_zero V c _ _ hz, PhiA1_eq]
      iintro ⟨⟨⟨HR, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HR HS Hg]
      · isplitr [Hg]
        · isplitl [HR]; · iexact HR
          unfold owns; iexists _; isplitr
          swap; · iexact HS
          ipureintro; exact View.read_writes_of_cover _ _ _ _ _ (scover1_A c _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · -- the second core's first step: the table at what the first core's last step left, overwritten
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HR HS Hg]
      · isplitr [Hg]
        · isplitl [HR]; · iexact HR
          unfold owns; iexists _; isplitr
          swap; · iexact HS
          ipureintro; exact View.read_writes_of_cover _ _ _ _ _ (scover1_A c _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    simp only [before1_4_B V c t h0]
    unfold out1_B_4; (try dsimp only)
    have hz : t.val ≠ 0 := by omega
    rw [PhiS1_castSucc V c t, PhiS1_pos V c _ _ hz]
    iintro ⟨⟨⟨HR, HS⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, HS⟩
    isplitl [HR HS Hg]
    · isplitr [Hg]
      · isplitl [HR]; · iexact HR
        iexact HS
      · iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the region is entered with. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After the last point the invariant gives it back: the table's contents are forgotten. -/
theorem Phi1_last (c : Dev nD) : (dat1 V c).Φ (Fin.last _) ⊢ Pipeline.ΦA spec1 c := by
  rw [show (dat1 V c).Φ (Fin.last _) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HR, HS⟩, Hg⟩
  isplitr [Hg]
  · isplitl [HR]; · iexact HR
    iexists _; iexact HS
  · iexact Hg

end Region1

/-! ## The pieces, as the body's values -/

/-- The origin of a rank-3 (rank-2) shape, as the constant function zero. -/
theorem zeroOff1_3 : (![0, 0, 0] : Fin 3 → Nat) = fun _ => 0 := funext fun a => by fin_cases a <;> rfl
theorem zeroOff1_2 : (![0, 0] : Fin 2 → Nat) = fun _ => 0 := funext fun a => by fin_cases a <;> rfl

/-- A first step leaves in the table the centre table of the two tables it was handed. -/
theorem sout1_A_eq (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) :
    sout1_A c i arg2 harg2 arg3 harg3 arg4 harg4 arg5 harg5 arg6 harg6 arg7 harg7 hc0 x0 x1 x2 x3 = k1_pay2 x2 x3 := by
  unfold sout1_A
  rw [View.read_writes_eq_canon _ _ _ (scover1_A c i arg2 harg2 arg3 harg3 arg4 harg4 arg5 harg5 arg6 harg6 arg7 harg7 hc0 x0 x1 x2 x3)]
  unfold kernelRun1_A
  dsimp only
  sl_unfold_words
  rw [View.canon_unit_zero (S := S32x16) zeroOff1_2]
  simp only [View.readAt_eq_ld, harg4.read_unread, harg5.read_unread, View.ld_unit_zero (S := S2x32x16) zeroOff1_3, View.ld_unit_zero (S := S2x1x16) zeroOff1_3]

/-- A first step leaves in the output cell the block's summed hinge against that centre table, added to zero. -/
theorem out1_A_4_eq (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) :
    out1_A_4 c i arg2 harg2 arg3 harg3 arg4 harg4 arg5 harg5 arg6 harg6 arg7 harg7 hc0 x0 x1 x2 x3 = k1_pay3 x0 x1 (k1_pay2 x2 x3) k1_pay1 := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S1x1x1) zeroOff1_3, View.readCov_unit_zero (S := S1x1x1) _ zeroOff1_3, View.readCov_unit_zero (S := S32x16) _ zeroOff1_2]
  simp only [View.readAt_eq_ld, harg2.read_unread, harg3.read_unread, harg4.read_unread, harg5.read_unread, View.ld_unit_zero (S := S32x32768) zeroOff1_2, View.ld_unit_zero (S := S1x32768) zeroOff1_2, View.ld_unit_zero (S := S2x32x16) zeroOff1_3, View.ld_unit_zero (S := S2x1x16) zeroOff1_3]

/-- A later step leaves in the output cell the block's summed hinge against the table, added to what it held. -/
theorem out1_B_4_eq (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) :
    out1_B_4 c i arg2 harg2 arg3 harg3 arg4 harg4 arg5 harg5 arg6 harg6 arg7 harg7 hc0 x0 x1 x2 x3 xo xs = k1_pay3 x0 x1 xs xo := by
  unfold out1_B_4
  rw [View.read_writes_eq_canon _ _ _ (cover1_B_4 c i arg2 harg2 arg3 harg3 arg4 harg4 arg5 harg5 arg6 harg6 arg7 harg7 hc0 x0 x1 x2 x3 xo xs)]
  unfold kernelRun1_B
  dsimp only
  sl_unfold_words
  rw [View.canon_unit_zero (S := S1x1x1) zeroOff1_3]
  simp only [View.readAt_eq_ld, harg2.read_unread, harg3.read_unread, harg6.read_unread, harg7.read_unread, View.ld_unit_zero (S := S32x32768) zeroOff1_2, View.ld_unit_zero (S := S1x32768) zeroOff1_2, View.ld_unit_zero (S := S32x16) zeroOff1_2, View.ld_unit_zero (S := S1x1x1) zeroOff1_3]

section Region1
variable (V : (c : Dev nD) → (b : Ref sig .tc) → Buf (Elt F) ((c : Thread nD τ).loc b))

/-- After a core's first step: the centre table in the table, the block's summed hinge added to zero in the cell. -/
theorem outsAt1_first (c : Dev nD) (t : Fin cfg1.N) (h : t.val % 8 = 0) :
    outsAt1 V c t.val t.isLt = (k1_pay3 (iblk1 V c 0 t) (iblk1 V c 1 t) (k1_pay2 (iblk1 V c 2 t) (iblk1 V c 3 t)) k1_pay1, k1_pay2 (iblk1 V c 2 t) (iblk1 V c 3 t)) := by
  rw [outsAt1_A V c t h,
    out1_A_4_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h) (iblk1 V c 0 t) (iblk1 V c 1 t) (iblk1 V c 2 t) (iblk1 V c 3 t),
    sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h) (iblk1 V c 0 t) (iblk1 V c 1 t) (iblk1 V c 2 t) (iblk1 V c 3 t)]

/-- After a later step: the table unchanged, the block's summed hinge added to what the cell held. -/
theorem outsAt1_next (c : Dev nD) (t : Fin cfg1.N) (h : ¬ t.val % 8 = 0) :
    outsAt1 V c t.val t.isLt = (k1_pay3 (iblk1 V c 0 t) (iblk1 V c 1 t) (outsAt1 V c (t.val - 1) (Nat.lt_of_le_of_lt (Nat.sub_le _ _) t.isLt)).2 (outsAt1 V c (t.val - 1) (Nat.lt_of_le_of_lt (Nat.sub_le _ _) t.isLt)).1, (outsAt1 V c (t.val - 1) (Nat.lt_of_le_of_lt (Nat.sub_le _ _) t.isLt)).2) := by
  rw [outsAt1_B V c t h,
    out1_B_4_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h' => h ((hcond1_0 t).mp h')) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2]

end Region1

end Cert.Kernel.Hand

end
-- ==== Proof.KbRun.lean ====
/- THE RUN OF @main on the kernel side. @main is eight items in order on each core: the two reshapes of the arguments,
   the two kernel regions (the per-cluster sums and counts; then the summed hinge, whose centres live in a scratch
   carried from point to point), and five stretches of host operations that finish the loss. Between two items a core
   holds every unscoped buffer whole at named contents: the launch memory, then each host stretch's result over the
   contents before it, and at a region's exit the region's arrays at what its write-backs leave after the last grid
   point with every other buffer as the region found it. Beside the buffers ride the core's generator register and the
   fact that it owes nothing. The two regions are entered from and left at these states; the items chain; and the
   final memory is read at every unscoped buffer against the last contents. Hence every execution terminates with
   each unscoped buffer at the last contents, and in particular with both arguments as launched, since no host
   operation writes an argument and neither region has one among its arrays. -/
import proofs.«429783_j3401614098830_3_alg».proof.Proof.Gen.Kernel.Launch
import proofs.«429783_j3401614098830_3_alg».proof.Proof.Gen.Kernel.Regions
import proofs.«429783_j3401614098830_3_alg».proof.Proof.KbR0
import proofs.«429783_j3401614098830_3_alg».proof.Proof.KbR1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two kernel regions among the host stretches

## The buffer contents at each boundary between two items, a fold from the launch memory -/

/-- The state @main is launched on: memory `m`, every counter at zero, the generator registers `ρ`. -/
abbrev launchSt : MemSt nD τ sig (Elt F) := ⟨m, fun _ => 0, ρ⟩

/-- Core `c`'s buffers at launch. -/
abbrev Wb0 : Dev nD → Valuation τ sig (Elt F) := fun c b => (launchSt m ρ).mem ((c : Dev nD), b)
/-- After the two reshapes of the arguments: what region 0 is entered from. -/
abbrev Wb1 : Dev nD → Valuation τ sig (Elt F) := fun c => StableHlo.after hostOps0 (Wb0 m ρ c)
/-- The same read at the TensorCore's references. -/
abbrev Vb1 : (c : Dev nD) → (b : Ref sig .tc) → Buf (Elt F) ((c : Thread nD τ).loc b) := fun c b => Wb1 m ρ c b
/-- At region 0's exit: each of its arrays at what the pipeline's write-backs leave after the last point, every other
    buffer as entered. There is no host operation between the two regions, so region 1 is entered from the same. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
/-- The same read at the TensorCore's references. -/
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- At region 1's exit: its arrays at what its pipeline leaves, every other buffer as entered. -/
def Wb3 (c : Dev nD) : Valuation τ sig (Elt F) :=
  Pipeline.withArrays spec1 c (Wb2 m ρ c) fun w => (dat1 (Vb2 m ρ) c).arrAt w cfg1.N
theorem Wb3_arr (c : Dev nD) (w : Fin cfg1.W) :
    Wb3 m ρ c (Proc.devRef .tc (Pipeline.arrRef spec1 w)) = (dat1 (Vb2 m ρ) c).arrAt w cfg1.N := by
  unfold Wb3; exact Pipeline.withArrays_arr spec1 launch1.win.arr_inj c _ _ w
theorem Wb3_of_ne (c : Dev nD) (b : Ref sig .tc) (hb : ∀ w, Pipeline.arrRef spec1 w ≠ b) :
    Wb3 m ρ c (Proc.devRef .tc b) = Wb2 m ρ c (Proc.devRef .tc b) := by
  unfold Wb3; exact Pipeline.withArrays_of_ne spec1 c _ _ b hb
/-- The same read at the TensorCore's references. -/
abbrev Vb3 : (c : Dev nD) → (b : Ref sig .tc) → Buf (Elt F) ((c : Thread nD τ).loc b) := fun c b => Wb3 m ρ c b
theorem hF1 (c : Dev nD) (w : Fin cfg1.W) : (dat1 (Vb2 m ρ) c).arrAt w cfg1.N = Vb3 m ρ c (Pipeline.arrRef spec1 w) :=
  (Wb3_arr m ρ c w).symm
theorem hrest1 (c : Dev nD) : ∀ b, b ∉ Finset.univ.image (Pipeline.arrRef spec1) → Vb3 m ρ c b = Vb2 m ρ c b :=
  fun b hb => Wb3_of_ne m ρ c b fun w e => hb (Finset.mem_image.mpr ⟨w, Finset.mem_univ _, e⟩)

/-- After each of the five host stretches that follow the regions; `Wb8` is the end of @main. -/
abbrev Wb4 : Dev nD → Valuation τ sig (Elt F) := fun c => StableHlo.after hostOps2 (Wb3 m ρ c)
abbrev Wb5 : Dev nD → Valuation τ sig (Elt F) := fun c => StableHlo.after hostOps2_1 (Wb4 m ρ c)
abbrev Wb6 : Dev nD → Valuation τ sig (Elt F) := fun c => StableHlo.after hostOps2_2 (Wb5 m ρ c)
abbrev Wb7 : Dev nD → Valuation τ sig (Elt F) := fun c => StableHlo.after hostOps2_3 (Wb6 m ρ c)
abbrev Wb8 : Dev nD → Valuation τ sig (Elt F) := fun c => StableHlo.after hostOps2_4 (Wb7 m ρ c)

/-! ### What each host stretch leaves unchanged: every buffer none of its operations writes -/

theorem Wb1_of (c : Dev nD) (r : Ref sig .tc) (h : r ∉ hostOps0_W) : Wb1 m ρ c r = Wb0 m ρ c r :=
  StableHlo.after_of_writes_sub hostOps0 _ hostOps0_writes h
theorem Wb4_of (c : Dev nD) (r : Ref sig .tc) (h : r ∉ hostOps2_W) : Wb4 m ρ c r = Wb3 m ρ c r :=
  StableHlo.after_of_writes_sub hostOps2 _ hostOps2_writes h
theorem Wb5_of (c : Dev nD) (r : Ref sig .tc) (h : r ∉ hostOps2_1_W) : Wb5 m ρ c r = Wb4 m ρ c r :=
  StableHlo.after_of_writes_sub hostOps2_1 _ hostOps2_1_writes h
theorem Wb6_of (c : Dev nD) (r : Ref sig .tc) (h : r ∉ hostOps2_2_W) : Wb6 m ρ c r = Wb5 m ρ c r :=
  StableHlo.after_of_writes_sub hostOps2_2 _ hostOps2_2_writes h
theorem Wb7_of (c : Dev nD) (r : Ref sig .tc) (h : r ∉ hostOps2_3_W) : Wb7 m ρ c r = Wb6 m ρ c r :=
  StableHlo.after_of_writes_sub hostOps2_3 _ hostOps2_3_writes h
theorem Wb8_of (c : Dev nD) (r : Ref sig .tc) (h : r ∉ hostOps2_4_W) : Wb8 m ρ c r = Wb7 m ρ c r :=
  StableHlo.after_of_writes_sub hostOps2_4 _ hostOps2_4_writes h

/-! ### The arguments end as launched: no host operation writes one and neither region has one among its arrays, so
    the fold at an argument's buffer walks back to the launch memory -/

theorem Wb8_main_arg0 (c : Dev nD) : Wb8 m ρ c (Proc.devRef .tc main_arg0) = m ((c : Thread nD τ).loc main_arg0) :=
  (Wb8_of m ρ c main_arg0 (by decide)).trans <| (Wb7_of m ρ c main_arg0 (by decide)).trans <|
  (Wb6_of m ρ c main_arg0 (by decide)).trans <| (Wb5_of m ρ c main_arg0 (by decide)).trans <|
  (Wb4_of m ρ c main_arg0 (by decide)).trans <| (Wb3_of_ne m ρ c main_arg0 (by decide)).trans <|
  (Wb2_of_ne m ρ c main_arg0 (by decide)).trans <| (Wb1_of m ρ c main_arg0 (by decide)).trans rfl
theorem Wb8_main_arg1 (c : Dev nD) : Wb8 m ρ c (Proc.devRef .tc main_arg1) = m ((c : Thread nD τ).loc main_arg1) :=
  (Wb8_of m ρ c main_arg1 (by decide)).trans <| (Wb7_of m ρ c main_arg1 (by decide)).trans <|
  (Wb6_of m ρ c main_arg1 (by decide)).trans <| (Wb5_of m ρ c main_arg1 (by decide)).trans <|
  (Wb4_of m ρ c main_arg1 (by decide)).trans <| (Wb3_of_ne m ρ c main_arg1 (by decide)).trans <|
  (Wb2_of_ne m ρ c main_arg1 (by decide)).trans <| (Wb1_of m ρ c main_arg1 (by decide)).trans rfl

/-! ## The proof data family and the thread state -/

/-- Every pipeline's proof data, each at its region's entry contents. -/
def pdatsRun : (p : Fin 2) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb2 m ρ) c
/-- No core owes another anything: no pair carries a level. -/
abbrev noPairs : GSem nD τ sig → Finset Unit := fun _ => ∅
abbrev noLevel : GSem nD τ sig → Unit → ℕ := fun _ _ => 0
/-- What rides beside the buffers through every item: the core's generator register at some state (a region's
    invariant takes it in and gives it back) and the core owing nothing. -/
abbrev Ride (c : Dev nD) : sProp 𝕄 := iprop((∃ r, prngReg c r) ∗ ∃ W, owes (c : Thread nD τ) (0 : CellTallies nD τ sig Unit) W)
/-- A host stretch as a segment: from every unscoped buffer at the contents `W` to the same at the stretch's result over
    `W`, `Ride` beside. -/
abbrev hsegRun (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the end's contents, the generator register at
    some state. -/
abbrev Tend (c : Dev nD) : sProp 𝕄 := iprop(StableHlo.held (c : Thread nD τ) (Pipeline.ucRefs τ sig) (Wb8 m ρ c) ∗ ∃ r, prngReg c r)

/-- The last host stretch's exit is the last thread state beside the core owing nothing (the same three parts, regrouped). -/
theorem ride_end (c : Dev nD) :
    iprop(StableHlo.held (c : Thread nD τ) (Pipeline.ucRefs τ sig) (Wb8 m ρ c) ∗ Ride (F := F) c)
      ⊢ iprop(Tend m ρ c ∗ ∃ W, owes (c : Thread nD τ) (0 : CellTallies nD τ sig Unit) W) := by
  iintro ⟨Hbufs, Hreg, Howes⟩
  isplitl [Hbufs Hreg]
  · isplitl [Hbufs] <;> iassumption
  iexact Howes

/-! ## The regions as segments -/

set_option backward.isDefEq.respectTransparency.types false in
/-- REGION 0 over the thread state: entered from every unscoped buffer at `Wb1`, left at `Wb2`. Its arrays are
    split out of the unscoped buffers on entry and put back at their exit contents; the generator register goes into the
    region's invariant, which is the scoped rest beside the register at every point, and comes back from it;
    nothing is owed; the kernel has no semaphore of its own. -/
def regRun0 : Pipeline.RegionSeg (pcfgs (F := F)) adm (pdatsRun m ρ) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ noPairs noLevel 0 fun _ _ => rfl
  pre c := iprop(StableHlo.held (c : Thread nD τ) (Pipeline.ucRefs τ sig) (Wb1 m ρ c) ∗ Ride c)
  post c := iprop(StableHlo.held (c : Thread nD τ) (Pipeline.ucRefs τ sig) (Wb2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdatsRun m ρ) launch0.win launch0.arr_whole c
      ((pdatsRun m ρ 0 c).share_full fun _ => rfl) (Vb1 m ρ c) fun w => A_eq0 (Vb1 m ρ) c w
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsRun m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdatsRun m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdatsRun m ρ) ((pdatsRun m ρ 0 c).share_full fun _ => rfl)
      (Vb1 m ρ c) (Vb2 m ρ c) ((pdatsRun m ρ 0 c).arrAt · cfg0.N) (hF0 m ρ c) (hrest0 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- REGION 1 over the thread state: entered from every unscoped buffer at `Wb2`, left at `Wb3`. Its arrays are
    split out of the unscoped buffers on entry and put back at their exit contents; the generator register goes into the
    region's invariant at the first point, where it is the scoped rest beside the register, and comes back after the
    last point, where the invariant (which from the second point on also names the scratch's contents) gives that back;
    nothing is owed; the kernel has no semaphore of its own. -/
def regRun1 : Pipeline.RegionSeg (pcfgs (F := F)) adm (pdatsRun m ρ) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (Vb2 m ρ) c).loose
  hwaits := Pipeline.hwaits_of_owed_zero _ _ _ _ noPairs noLevel 1 fun _ _ => rfl
  pre c := iprop(StableHlo.held (c : Thread nD τ) (Pipeline.ucRefs τ sig) (Wb2 m ρ c) ∗ Ride c)
  post c := iprop(StableHlo.held (c : Thread nD τ) (Pipeline.ucRefs τ sig) (Wb3 m ρ c) ∗ Ride c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := Pipeline.arrays_of_unscopedBufs (p := 1) (pcfgs (F := F)) adm (pdatsRun m ρ) launch1.win launch1.arr_whole c
      ((pdatsRun m ρ 1 c).share_full fun _ => rfl) (Vb2 m ρ c) fun w => A_eq1 (Vb2 m ρ) c w
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsRun m ρ 1 c).Φ 0 = Pipeline.ΦA spec1 c from Phi1_zero (Vb2 m ρ) c]; unfold Pipeline.ΦA
    iintro ⟨Hreg, -, Hscoped⟩
    isplitl [Hscoped]; · iexact Hscoped
    iexact Hreg
  hout c := by
    rw [Pipeline.ownSems0_none]
    refine (show (pdatsRun m ρ 1 c).Φ (Fin.last _) ⊢ Pipeline.ΦA spec1 c from Phi1_last (Vb2 m ρ) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdatsRun m ρ) ((pdatsRun m ρ 1 c).share_full fun _ => rfl)
      (Vb2 m ρ c) (Vb3 m ρ c) ((pdatsRun m ρ 1 c).arrAt · cfg1.N) (hF1 m ρ c) (hrest1 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## @main as segments, and the launch -/

/-- @main's eight items in order: the reshapes, the two regions, the five host stretches. -/
abbrev runSegs : List (Pipeline.Seg (pcfgs (F := F)) adm (pdatsRun m ρ) () defs₀ Variants.none noPairs noLevel) :=
  [ .host (hsegRun hostOps0 hostOps0_sub hostOps0_fresh (Wb0 m ρ)),
    .region (regRun0 m ρ),
    .region (regRun1 m ρ),
    .host (hsegRun hostOps2 hostOps2_sub hostOps2_fresh (Wb3 m ρ)),
    .host (hsegRun hostOps2_1 hostOps2_1_sub hostOps2_1_fresh (Wb4 m ρ)),
    .host (hsegRun hostOps2_2 hostOps2_2_sub hostOps2_2_fresh (Wb5 m ρ)),
    .host (hsegRun hostOps2_3 hostOps2_3_sub hostOps2_3_fresh (Wb6 m ρ)),
    .host (hsegRun hostOps2_4 hostOps2_4_sub hostOps2_4_fresh (Wb7 m ρ)) ]

set_option backward.isDefEq.respectTransparency.types false in
/-- THE RUN. From any memory with zero counters every weakly fair execution of @main terminates, and every final
    memory holds each unscoped buffer of each core at the end's contents `Wb8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Wb8 m ρ c b) := by
  refine Pipeline.θ_run_regions_kit_dev (pcfgs (F := F)) adm (pdatsRun m ρ) () cellOf_inj emb₁ defs₀ Variants.none noPairs noLevel m ρ main
    (fun _ => runSegs m ρ)
    (fun c Q => by
      rewrite [main_chain c, Pipeline.Seg.run_eq_chain,
        show (runSegs m ρ).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Wb0 m ρ c) ∗ Ride c)) (Tₙ := Tend m ρ)
    (hch := fun c => ⟨.rfl, .rfl, .rfl, .rfl, .rfl, .rfl, .rfl, .rfl, ride_end m ρ c⟩)
    (hinit := ?_)
    (QY := fun c s => ∀ b ∈ Pipeline.ucRefs τ sig, s.mem ((c : Thread nD τ).1, b) = Wb8 m ρ c b)
    (hfin := fun c s' => ?_) (hQ := fun _ h => h)
  · -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers are held at the launch memory; the register at `ρ c`; nothing owed
    refine Pipeline.initEach noPairs noLevel fun c => ?_
    rw [show unscopedBufs c (fun b => m ((c : Thread nD τ).loc b)) = StableHlo.held (c : Thread nD τ) (Pipeline.ucRefs τ sig) (Wb0 m ρ c)
      from Pipeline.unscopedBufs_held c (Wb0 m ρ c)]
    iintro ⟨⟨Hbufs, -, Howes, -, Hreg, -⟩, -⟩
    imodintro
    isplitl [Hbufs]; · iexact Hbufs
    isplitl [Hreg]; · iexists _; iexact Hreg
    iexists ∅; iexact Howes
  · -- the final memory, read at every unscoped buffer against the last thread state
    iintro ⟨⟨Hbufs, -⟩, HSI⟩
    unfold StableHlo.held
    imodintro
    iapply (pointsTo_read_all (Pipeline.ucRefs τ sig) (fun b => (((c : Thread nD τ)).1, b)) (Wb8 m ρ c) s')
    isplitl [Hbufs] <;> iassumption

/-- THE FRAME: every final memory holds both argument arrays as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs (onTc (τ := τ) (main (F := F))) ⟨m, fun _ => 0, ρ⟩).mono (fun r h c => ?_) (run_all m ρ)
  exact ⟨(h c _ (mem_uc main_arg0 (by decide))).trans (Wb8_main_arg0 m ρ c),
    (h c _ (mem_uc main_arg1 (by decide))).trans (Wb8_main_arg1 m ρ c)⟩

end Cert.Kernel.Hand

end
-- ==== Proof.RefRead.lean ====
/-
  The reference's host program read back at the extended reals: its generated run and the generated
  read-at-an-index lemmas, gathered under one import for the modules that compare it with the kernel.
-/
import proofs.«429783_j3401614098830_3_alg».proof.Proof.Gen.ReferenceIdeal.Run
import proofs.«429783_j3401614098830_3_alg».proof.Proof.Gen.ReferenceIdeal.Read
-- ==== Proof.Spec.lean ====
/-
  The quantities both programs compute, as functions of the two argument arrays, on the extended reals.
  N = 524288 points of dimension D = 32, each carrying a label; K = 16 clusters.  A cluster's centre is the
  sum of its points divided by its size; the result combines (i) the mean over clusters of the summed squared
  hinge of each point's distance to its own centre, (ii) a hinge on the pairwise distances of the centres and
  (iii) the mean norm of the centres.  (ii) and (iii) are functions of the centres alone and are carried as
  one shared function of the centre table elsewhere; here are the centre table and the summed hinge, in the
  two arrangements the programs use: the kernel sums over the points in 2 x 8 blocks of 32768 lanes and
  selects a centre by a one-hot product; the reference sums flat and selects by index.
-/
import Idealize.ShloMosaic.PureOps.Ideal
import Idealize.ShloMosaic.Lib.ValueIdx

noncomputable section

namespace Cert.Hand.Spec

open Idealize.ShloMosaic Idealize.ShloMosaic.ValueIdx

/-- Point `n` as (row, column) of the 512 x 1024 image. -/
def rowOf (n : Fin 524288) : Fin 512 := ⟨n.val / 1024, by have := n.isLt; omega⟩
def colOf (n : Fin 524288) : Fin 1024 := ⟨n.val % 1024, Nat.mod_lt _ (by norm_num)⟩

/-- Coordinate `d` of point `n`, read off the [32, 512, 1024] argument. -/
def pt (a0 : (⟨3, ![32, 512, 1024]⟩ : Shape).Idx → EReal) (d : Fin 32) (n : Fin 524288) : EReal :=
  a0 (ix3 d (rowOf n) (colOf n))
/-- The label of point `n`, read off the [512, 1024] argument. -/
def lab (a1 : (⟨2, ![512, 1024]⟩ : Shape).Idx → BitVec 32) (n : Fin 524288) : BitVec 32 :=
  a1 (ix2 (rowOf n) (colOf n))

/-- Lane `j` of step `i` on core `c`: the blocks of 32768 consecutive points, eight to a core. -/
def pos (c : Fin 2) (i : Fin 8) (j : Fin 32768) : Fin 524288 :=
  ⟨(c.val * 8 + i.val) * 32768 + j.val, by have := c.isLt; have := i.isLt; have := j.isLt; omega⟩

section
variable (x : Fin 32 → Fin 524288 → EReal) (l : Fin 524288 → BitVec 32)

/-- The one-hot entry (cluster `k`, point `n`): 1 where the point carries label `k`, else 0. -/
def hot (k : Fin 16) (n : Fin 524288) : EReal := if BitVec.ofNat 32 k.val = l n then 1 else 0

/-! ### The kernel's arrangement -/

/-- Core `c`'s partial sum of coordinate `d` over cluster `k`. -/
def sumsPC (c : Fin 2) (d : Fin 32) (k : Fin 16) : EReal :=
  ∑ i : Fin 8, ∑ j : Fin 32768, x d (pos c i j) * hot l k (pos c i j)
/-- Core `c`'s partial size of cluster `k`. -/
def cntsPC (c : Fin 2) (k : Fin 16) : EReal :=
  ∑ i : Fin 8, ∑ j : Fin 32768, hot l k (pos c i j)
/-- The kernel's centre table: the cores' partial sums added, over the size guarded below by one. -/
def ctrK (d : Fin 32) (k : Fin 16) : EReal :=
  Ideal.div (∑ c : Fin 2, sumsPC x l c d k) (max (∑ c : Fin 2, cntsPC l c k) 1)
/-- The kernel's centre of point `n`: the one-hot product with the centre table. -/
def ownK (d : Fin 32) (n : Fin 524288) : EReal := ∑ k : Fin 16, ctrK x l d k * hot l k n

/-- The squared hinge of a point's distance to a given centre `ctr`:
    max(sqrt(sum_d (ctr_d - x_d)^2) - 1/2, 0)^2, the literal 1/2 kept as its f32 word. -/
def hinge (ctr : Fin 32 → EReal) (n : Fin 524288) : EReal :=
  (max (Ideal.sqrt (∑ d : Fin 32, (ctr d - x d n) * (ctr d - x d n)) - Ideal.ofBits .f32 0x3F000000#32) 0)
    * (max (Ideal.sqrt (∑ d : Fin 32, (ctr d - x d n) * (ctr d - x d n)) - Ideal.ofBits .f32 0x3F000000#32) 0)

/-- Core `c`'s partial sum of the squared hinges. -/
def varPC (c : Fin 2) : EReal :=
  ∑ i : Fin 8, ∑ j : Fin 32768, hinge x (fun d => ownK x l d (pos c i j)) (pos c i j)
/-- The kernel's summed hinge. -/
def varSumK : EReal := ∑ c : Fin 2, varPC x l c

/-! ### The reference's arrangement -/

/-- The size of cluster `k`. -/
def cntR (k : Fin 16) : EReal := ∑ n : Fin 524288, if l n = BitVec.ofNat 32 k.val then (1 : EReal) else 0
/-- The sum of coordinate `d` over cluster `k`. -/
def sumR (k : Fin 16) (d : Fin 32) : EReal := ∑ n : Fin 524288, if l n = BitVec.ofNat 32 k.val then x d n else 0
/-- The reference's centre table. -/
def ctrR (k : Fin 16) (d : Fin 32) : EReal := Ideal.div (sumR x l k d) (cntR l k)
/-- The cluster a label names, for a label in range. -/
def clusterOf (n : Fin 524288) : Fin 16 := ⟨(l n).toNat % 16, Nat.mod_lt _ (by norm_num)⟩
/-- The reference's summed hinge. -/
def varSumR : EReal := ∑ n : Fin 524288, hinge x (fun d => ctrR x l (clusterOf l n) d) n

/-! ### The two facts about the labels the statement's precondition gives -/

/-- Every label names a cluster. -/
def InRange : Prop := ∀ n : Fin 524288, (l n).toNat < 16
/-- Every cluster has a point. -/
def AllPresent : Prop := ∀ k : Fin 16, ∃ n : Fin 524288, l n = BitVec.ofNat 32 k.val

end

end Cert.Hand.Spec

end
-- ==== Proof.Bridge.lean ====
/-
  The two arrangements of Spec agree when every label names a cluster and every cluster has a point.
-/
import proofs.«429783_j3401614098830_3_alg».proof.Proof.Spec

noncomputable section

namespace Cert.Hand.Spec

open Idealize.ShloMosaic

/-! ### The blocks tile the points -/

/-- (core, step, lane) ↦ point is a bijection: the point `n` lies on core `n / 262144`, in step
    `n / 32768 % 8`, at lane `n % 32768`. -/
def blockEquiv : Fin 2 × Fin 8 × Fin 32768 ≃ Fin 524288 where
  toFun p := pos p.1 p.2.1 p.2.2
  invFun n :=
    (⟨n.val / 262144, by have := n.isLt; omega⟩,
     ⟨n.val / 32768 % 8, Nat.mod_lt _ (by norm_num)⟩,
     ⟨n.val % 32768, Nat.mod_lt _ (by norm_num)⟩)
  left_inv := by
    rintro ⟨c, i, j⟩
    have hc := c.isLt; have hi := i.isLt; have hj := j.isLt
    refine Prod.ext (Fin.ext ?_) (Prod.ext (Fin.ext ?_) (Fin.ext ?_))
    · show ((c.val * 8 + i.val) * 32768 + j.val) / 262144 = c.val
      omega
    · show ((c.val * 8 + i.val) * 32768 + j.val) / 32768 % 8 = i.val
      omega
    · show ((c.val * 8 + i.val) * 32768 + j.val) % 32768 = j.val
      omega
  right_inv := by
    intro n
    have hn := n.isLt
    refine Fin.ext ?_
    show (n.val / 262144 * 8 + n.val / 32768 % 8) * 32768 + n.val % 32768 = n.val
    omega

/-- A sum over the 2 x 8 blocks of 32768 lanes is the flat sum over the points. -/
theorem sum_blocks {M : Type*} [AddCommMonoid M] (f : Fin 524288 → M) :
    ∑ c : Fin 2, ∑ i : Fin 8, ∑ j : Fin 32768, f (pos c i j) = ∑ n : Fin 524288, f n := by
  rw [← Fintype.sum_equiv blockEquiv (fun p => f (pos p.1 p.2.1 p.2.2)) f (fun _ => rfl)]
  rw [Fintype.sum_prod_type]
  refine Finset.sum_congr rfl fun c _ => ?_
  rw [Fintype.sum_prod_type]

variable (x : Fin 32 → Fin 524288 → EReal) (l : Fin 524288 → BitVec 32)

/-! ### The one-hot product is a selection -/

/-- A product with a one-hot entry keeps the factor on the cluster and is zero off it: `a * 1 = a` and
    `a * 0 = 0` for every extended real `a`, the infinite ones included. -/
theorem mul_hot (a : EReal) (k : Fin 16) (n : Fin 524288) :
    a * hot l k n = if l n = BitVec.ofNat 32 k.val then a else 0 := by
  unfold hot
  by_cases h : l n = BitVec.ofNat 32 k.val
  · rw [if_pos h, if_pos h.symm, mul_one]
  · rw [if_neg h, if_neg (fun h' => h h'.symm), mul_zero]

/-- The one-hot entry itself, with the equation turned round. -/
theorem hot_eq (k : Fin 16) (n : Fin 524288) :
    hot l k n = if l n = BitVec.ofNat 32 k.val then (1 : EReal) else 0 := by
  have h := mul_hot l 1 k n
  rwa [one_mul] at h

/-- The cores' partial sums add up to the flat sum over the cluster. -/
theorem sums_eq (k : Fin 16) (d : Fin 32) : ∑ c : Fin 2, sumsPC x l c d k = sumR x l k d := by
  unfold sumsPC sumR
  exact (sum_blocks (fun n => x d n * hot l k n)).trans
    (Finset.sum_congr rfl fun n _ => mul_hot l (x d n) k n)

/-- The cores' partial sizes add up to the size of the cluster. -/
theorem cnts_eq (k : Fin 16) : ∑ c : Fin 2, cntsPC l c k = cntR l k := by
  unfold cntsPC cntR
  exact (sum_blocks (fun n => hot l k n)).trans
    (Finset.sum_congr rfl fun n _ => hot_eq l k n)

/-- A cluster that has a point has size at least one: the size is a sum of zeros and ones, and the point's
    own term is a one. -/
theorem one_le_cntR (hp : AllPresent l) (k : Fin 16) : 1 ≤ cntR l k := by
  obtain ⟨n, hn⟩ := hp k
  unfold cntR
  have h := Finset.single_le_sum
    (f := fun m : Fin 524288 => if l m = BitVec.ofNat 32 k.val then (1 : EReal) else 0)
    (s := Finset.univ)
    (fun m _ => by
      show (0 : EReal) ≤ if l m = BitVec.ofNat 32 k.val then (1 : EReal) else 0
      split_ifs
      · exact zero_le_one
      · exact le_refl _)
    (Finset.mem_univ n)
  have h1 : (if l n = BitVec.ofNat 32 k.val then (1 : EReal) else 0) = 1 := if_pos hn
  exact le_of_eq_of_le h1.symm h

/-- The kernel's centre table is the reference's: the blocked one-hot sums are the flat sums over the cluster, and a
    non-empty cluster's size is at least one, so the guard does not bind. -/
theorem ctr_eq (hr : InRange l) (hp : AllPresent l) (k : Fin 16) (d : Fin 32) : ctrK x l d k = ctrR x l k d := by
  unfold ctrK ctrR
  rw [sums_eq, cnts_eq, max_eq_left (one_le_cntR l hp k)]

/-- For a label in range, the one-hot entry (k, n) is set exactly when `k` is the cluster the label names:
    the 32-bit word of a number below 16 has that number as its value. -/
theorem ofNat_eq_iff (hr : InRange l) (k : Fin 16) (n : Fin 524288) :
    BitVec.ofNat 32 k.val = l n ↔ k = clusterOf l n := by
  have h := hr n
  have hk := k.isLt
  constructor
  · intro e
    refine Fin.ext ?_
    show k.val = (l n).toNat % 16
    rw [← e, BitVec.toNat_ofNat]
    omega
  · intro e
    refine BitVec.eq_of_toNat_eq ?_
    rw [BitVec.toNat_ofNat, e]
    show (l n).toNat % 16 % 2 ^ 32 = (l n).toNat
    omega

/-- The one-hot product selects the centre of the point's own cluster. -/
theorem ownK_eq (hr : InRange l) (hp : AllPresent l) (d : Fin 32) (n : Fin 524288) :
    ownK x l d n = ctrR x l (clusterOf l n) d := by
  unfold ownK
  rw [Finset.sum_eq_single (clusterOf l n)]
  · rw [hot, if_pos ((ofNat_eq_iff l hr _ n).2 rfl), mul_one, ctr_eq x l hr hp]
  · intro k _ hk
    rw [hot, if_neg (fun e => hk ((ofNat_eq_iff l hr k n).1 e)), mul_zero]
  · intro h
    exact absurd (Finset.mem_univ _) h

/-- The summed hinges agree. -/
theorem varSum_eq (hr : InRange l) (hp : AllPresent l) : varSumK x l = varSumR x l := by
  unfold varSumK varPC varSumR
  have h : ∀ n : Fin 524288, (fun d => ownK x l d n) = fun d => ctrR x l (clusterOf l n) d :=
    fun n => funext fun d => ownK_eq x l hr hp d n
  simp only [h]
  exact sum_blocks (fun n => hinge x (fun d => ctrR x l (clusterOf l n) d) n)

end Cert.Hand.Spec

end
-- ==== Proof.Tail.lean ====
/-
  What both programs compute after their centre table and their variance term: the hinge on the pairwise
  distances of the centres, the mean norm of the centres, and the weighted sum of the three terms.

  With C the [16, 32] centre table and v the scalar variance term:
    D[i, j]   = 0 + sum_d (C[i, d] - C[j, d])^2                  (the squared pairwise distances)
    H[i, j]   = max(3 - sqrt(1 on the diagonal, D[i, j] off it), 0)
    pair      = (0 + sum_{i, j} (0 on the diagonal, H[i, j]^2 off it)) / 240
    norm      = (0 + sum_i sqrt(0 + sum_d C[i, d]^2)) / 16
    result    = (1 * v + 1 * pair) + 0.001 * norm
  every literal kept as the f32 word the programs carry.  It is one composition of the array operations,
  a function of C and v alone, so that either program's result is this function of its own two values.
-/
import proofs.«429783_j3401614098830_3_alg».proof.ReferenceIdeal
import proofs.«429783_j3401614098830_3_alg».proof.Proof.Gen.ReferenceIdeal
import Idealize.ShloMosaic.PureOps.Ideal

noncomputable section

namespace Cert.Hand

open Idealize.ShloMosaic Cert.ReferenceIdeal Cert.ReferenceIdeal.Gen

/-- The result of either program as a function of its centre table `ctr` and its variance term `vt`:
    (1 * vt + 1 * (sum of the squared pair hinges off the diagonal / 240)) + 0.001 * (sum of the centre norms / 16).
    The diagonal of the 16 x 16 pair table is "row number (plus zero) equals column number"; the pair table's
    entry (i, j) subtracts row j of the centres from row i, both spread over a [16, 16, 32] array. -/
def tail (ctr : FVec Ideal S16x32 .f32) (vt : FVec Ideal S_ .f32) : FVec Ideal S_ .f32 :=
  addf
    (addf
      (mulf (constant S_ .f32 0x3F800000#32) vt)
      (mulf (constant S_ .f32 0x3F800000#32)
        (Host.divf
          (Host.reduceAdd
            (select (cmpi .eq (addi (iotaInDim S16x16 32 0) (broadcastInDim S16x16 ![] bcast_S_S16x16 (constantI S_ 32 0#32))) (iotaInDim S16x16 32 1))
              (broadcastInDim S16x16 ![] bcast_S_S16x16 (id (constant S_ .f32 0x00000000#32)))
              (mulf
                (maximumf (subf (broadcastInDim S16x16 ![] bcast_S_S16x16 (constant S_ .f32 0x40400000#32)) (Host.sqrt (select (cmpi .eq (addi (iotaInDim S16x16 32 0) (broadcastInDim S16x16 ![] bcast_S_S16x16 (constantI S_ 32 0#32))) (iotaInDim S16x16 32 1)) (broadcastInDim S16x16 ![] bcast_S_S16x16 (id (constant S_ .f32 0x3F800000#32))) (Host.reduceAdd (mulf (subf (broadcastInDim S16x16x32 ![0, 1, 2] bcast_S16x1x32_S16x16x32_0_1_2 (broadcastInDim S16x1x32 ![0, 2] bcast_S16x32_S16x1x32_0_2 ctr)) (broadcastInDim S16x16x32 ![0, 1, 2] bcast_S1x16x32_S16x16x32_0_1_2 (broadcastInDim S1x16x32 ![1, 2] bcast_S16x32_S1x16x32_1_2 ctr))) (subf (broadcastInDim S16x16x32 ![0, 1, 2] bcast_S16x1x32_S16x16x32_0_1_2 (broadcastInDim S16x1x32 ![0, 2] bcast_S16x32_S16x1x32_0_2 ctr)) (broadcastInDim S16x16x32 ![0, 1, 2] bcast_S1x16x32_S16x16x32_0_1_2 (broadcastInDim S1x16x32 ![1, 2] bcast_S16x32_S1x16x32_1_2 ctr)))) (constant S_ .f32 0x00000000#32) reducesTo_S16x16x32_S16x16_d2 h_S_)))) (broadcastInDim S16x16 ![] bcast_S_S16x16 (constant S_ .f32 0x00000000#32)))
                (maximumf (subf (broadcastInDim S16x16 ![] bcast_S_S16x16 (constant S_ .f32 0x40400000#32)) (Host.sqrt (select (cmpi .eq (addi (iotaInDim S16x16 32 0) (broadcastInDim S16x16 ![] bcast_S_S16x16 (constantI S_ 32 0#32))) (iotaInDim S16x16 32 1)) (broadcastInDim S16x16 ![] bcast_S_S16x16 (id (constant S_ .f32 0x3F800000#32))) (Host.reduceAdd (mulf (subf (broadcastInDim S16x16x32 ![0, 1, 2] bcast_S16x1x32_S16x16x32_0_1_2 (broadcastInDim S16x1x32 ![0, 2] bcast_S16x32_S16x1x32_0_2 ctr)) (broadcastInDim S16x16x32 ![0, 1, 2] bcast_S1x16x32_S16x16x32_0_1_2 (broadcastInDim S1x16x32 ![1, 2] bcast_S16x32_S1x16x32_1_2 ctr))) (subf (broadcastInDim S16x16x32 ![0, 1, 2] bcast_S16x1x32_S16x16x32_0_1_2 (broadcastInDim S16x1x32 ![0, 2] bcast_S16x32_S16x1x32_0_2 ctr)) (broadcastInDim S16x16x32 ![0, 1, 2] bcast_S1x16x32_S16x16x32_0_1_2 (broadcastInDim S1x16x32 ![1, 2] bcast_S16x32_S1x16x32_1_2 ctr)))) (constant S_ .f32 0x00000000#32) reducesTo_S16x16x32_S16x16_d2 h_S_)))) (broadcastInDim S16x16 ![] bcast_S_S16x16 (constant S_ .f32 0x00000000#32)))))
            (constant S_ .f32 0x00000000#32) reducesTo_S16x16_S_d0_1 h_S_)
          (constant S_ .f32 0x43700000#32))))
    (mulf (constant S_ .f32 0x3A83126F#32)
      (Host.divf (Host.reduceAdd (Host.sqrt (Host.reduceAdd (mulf ctr ctr) (constant S_ .f32 0x00000000#32) reducesTo_S16x32_S16_d1 h_S_)) (constant S_ .f32 0x00000000#32) reducesTo_S16_S_d0 h_S_) (constant S_ .f32 0x41800000#32)))

end Cert.Hand

end
-- ==== Proof.PreFacts.lean ====
/-
  What the statement's precondition says about the label array: every label lies in [0, 16), and each of the
  sixteen clusters has at least one point.

  The precondition is a conjunction of three "for all" reductions. The second says that every entry of the
  [512, 1024] label image is at least 0 and below 16 as a signed 32-bit number; such a word has unsigned value
  below 16. The third says that every row sum of the [16 x 524288] membership mask (row k, column q set where the
  label at flat position q is the word k) is at least 1; a row sum of 0/1 entries is the number of set columns, so
  a positive row sum gives a set column, and flat position q of the image is the label of point q.
-/
import proofs.«429783_j3401614098830_3_alg».proof.Defs
import proofs.«429783_j3401614098830_3_alg».proof.Proof.Gen.Pre_finite_inputs
import proofs.«429783_j3401614098830_3_alg».proof.Proof.Spec
import Idealize.ShloMosaic.Lib.ReduceAll
import Idealize.ShloMosaic.Lib.StableHlo.Predicate
import Idealize.ShloMosaic.Lib.Pipeline.Value

noncomputable section

namespace Cert.Hand.PreFacts

open Idealize.ShloMosaic Idealize.ShloMosaic.ValueIdx Idealize.ShloMosaic.StableHlo.Predicate Cert.Hand.Spec

/-- The scalar shape has one index. -/
instance : Subsingleton Cert.Pre_finite_inputs.S_.Idx := ⟨fun a b => funext fun d => d.elim0⟩

/-- A 32-bit word that is at least 0 and below 16 as a signed number has unsigned value below 16: a word whose
    signed value is non-negative has its signed value equal to its unsigned value. -/
theorem toNat_lt_sixteen (w : BitVec 32) (h0 : IntOp.cmpi .sge w 0#32 = 1#1) (h1 : IntOp.cmpi .slt w 16#32 = 1#1) :
    w.toNat < 16 := by
  unfold IntOp.cmpi at h0 h1
  rw [ofBool_eq_one_iff] at h0 h1
  simp only [BitVec.slt, BitVec.sle, decide_eq_true_eq] at h0 h1
  have z : (0#32 : BitVec 32).toInt = 0 := by decide
  have s : (16#32 : BitVec 32).toInt = 16 := by decide
  rw [z] at h0
  rw [s] at h1
  rw [BitVec.toInt_eq_toNat_cond] at h0 h1
  have hw := w.isLt
  by_cases hc : 2 * w.toNat < 2 ^ 32
  · rw [if_pos hc] at h0 h1; omega
  · rw [if_neg hc] at h0 h1; omega

/-- Every label names a cluster. -/
theorem inRange_of_pre (a0 : FVec Ideal Cert.Pre_finite_inputs.S32x512x1024 .f32) (a1 : IVec Cert.Pre_finite_inputs.S512x1024 32)
    (h : Cert.Pre_finite_inputs.fn (F := Ideal) a0 a1 = fun _ => 1#1) : InRange (lab a1) := by
  have e := congrFun h ix0
  dsimp only [Cert.Pre_finite_inputs.fn, Cert.Pre_finite_inputs.fn_part1] at e
  -- the conjunction is 1, so each conjunct is: keep the second, "every label is in [0, 16)"
  obtain ⟨e1, -⟩ := IntOp.andi_eq_one.1 e
  obtain ⟨-, e17⟩ := IntOp.andi_eq_one.1 e1
  intro n
  -- a "for all" that is 1 holds at every index: read it at (row, column) of point n
  have hn := Host.reduce_andi_all _ _ _ _ _ e17 (ix2 (rowOf n) (colOf n))
  obtain ⟨g0, g16⟩ := IntOp.andi_eq_one.1 hn
  exact toNat_lt_sixteen _ g0 g16

section
open Cert.Pre_finite_inputs Cert.Pre_finite_inputs.Facts

/-- The [16 x 524288] membership mask: the entry at row k, column q is set where the label at flat position q
    is the word k. -/
def mask (a1 : IVec S512x1024 32) : IVec S16x524288 1 :=
  cmpi .eq
    (broadcastInDim S16x524288 ![0, 1] bcast_S16x1_S16x524288_0_1 (broadcastInDim S16x1 ![0] bcast_S16_S16x1_0 (iotaInDim S16 32 0)))
    (broadcastInDim S16x524288 ![0, 1] bcast_S1x524288_S16x524288_0_1 (shapeCast S1x524288 a1 shapeCasts_S512x1024_S1x524288))

/-- The flattened label array at position q is the label of point q: position q of the [1, 524288] row and
    position (q / 1024, q % 1024) of the [512, 1024] image are both row-major position q. -/
theorem flat_apply (a1 : IVec S512x1024 32) (q : Fin 524288) :
    shapeCast S1x524288 a1 shapeCasts_S512x1024_S1x524288 (i1q q) = lab a1 q := by
  refine shapeCast_apply a1 _ (i1q q) (ix2 (rowOf q) (colOf q)) ?_
  rw [Shape.rowMajor_val_two, Shape.rowMajor_val_two]
  show q.val / 1024 * 1024 + q.val % 1024 = 0 * 524288 + q.val
  omega

/-- An entry of the mask is set exactly where the point's label is the row's word: the row operand is the row
    number laid along each row, the column operand is the flattened labels laid down each column. -/
theorem mask_apply (a1 : IVec S512x1024 32) (k : Fin 16) (q : Fin 524288) :
    mask a1 (ij k q) = 1#1 ↔ BitVec.ofNat 32 k.val = lab a1 q := by
  show IntOp.cmpi .eq
    (broadcastInDim S16x524288 ![0, 1] bcast_S16x1_S16x524288_0_1 (broadcastInDim S16x1 ![0] bcast_S16_S16x1_0 (iotaInDim S16 32 0)) (ij k q))
    (broadcastInDim S16x524288 ![0, 1] bcast_S1x524288_S16x524288_0_1 (shapeCast S1x524288 a1 shapeCasts_S512x1024_S1x524288) (ij k q)) = 1#1 ↔ _
  rw [cmpi_eq_iff, bcast_of_col, bcast_col1, iota_apply, bcast_of_row, flat_apply]

end

/-- Every cluster has a point. -/
theorem allPresent_of_pre (a0 : FVec Ideal Cert.Pre_finite_inputs.S32x512x1024 .f32) (a1 : IVec Cert.Pre_finite_inputs.S512x1024 32)
    (h : Cert.Pre_finite_inputs.fn (F := Ideal) a0 a1 = fun _ => 1#1) : AllPresent (lab a1) := by
  have e := congrFun h ix0
  dsimp only [Cert.Pre_finite_inputs.fn, Cert.Pre_finite_inputs.fn_part1] at e
  -- the conjunction is 1, so its last conjunct is: "every cluster size is at least 1"
  obtain ⟨-, e21⟩ := IntOp.andi_eq_one.1 e
  intro k
  have hk := Host.reduce_andi_all _ _ _ _ _ e21 (Shape.Idx.ofFin k)
  -- the size of cluster k, the sum of row k of the mask read as 0/1 words, is the number of set columns of that row
  have hcnt := toNat_reduce_count_cols (n := 16) (m := 524288) (by norm_num) (mask a1) Cert.Pre_finite_inputs.Facts.natLt_1_32
    Cert.Pre_finite_inputs.Facts.reducesTo_S16x524288_S16_d1 Cert.Pre_finite_inputs.Facts.h_S_ (Shape.Idx.ofFin k)
  have hk' : IntOp.cmpi .sge
      (Host.reduce IntOp.addi (extui 32 (mask a1) Cert.Pre_finite_inputs.Facts.natLt_1_32) (constantI Cert.Pre_finite_inputs.S_ 32 0#32)
        Cert.Pre_finite_inputs.Facts.reducesTo_S16x524288_S16_d1 Cert.Pre_finite_inputs.Facts.h_S_ (Shape.Idx.ofFin k)) 1#32 = 1#1 := hk
  -- a count of columns is at most 524288, below 2^31, so the signed comparison with 1 is the comparison of the values
  have hle : (Finset.univ.filter (fun q : Fin 524288 => mask a1 (ij (Shape.Idx.ofFin k 0) q) = 1#1)).card ≤ 524288 :=
    le_trans (Finset.card_le_univ _) (by rw [Fintype.card_fin])
  have h1 := (sge_iff_toNat (by rw [hcnt]; omega) (by decide)).1 hk'
  rw [hcnt] at h1
  have hone : (1#32 : BitVec 32).toNat = 1 := rfl
  rw [hone] at h1
  -- a positive count has a member: a column q of row k that is set
  obtain ⟨q, hq⟩ := Finset.card_pos.1 h1
  have hq' := (Finset.mem_filter.1 hq).2
  rw [Shape.Idx.ofFin_zero] at hq'
  exact ⟨q, ((mask_apply a1 k q).1 hq').symm⟩

end Cert.Hand.PreFacts

end
-- ==== Proof.KiR0Runs.lean ====
/- REGION 0, the first kernel (the per-cluster sums and counts), on ONE grid point.

   The body at a point of the 2 x 8 grid: when the step coordinate is 0 it stores the zero block into both
   accumulators (the sums block [1,32,16] and the counts block [1,1,16]); then, at every point, it loads the
   data block and the label block, loads the accumulators back, and stores
     sums   := sums   + data · onehot(labels)ᵀ        (the payload k0_pay4)
     counts := counts + 1 · onehot(labels)ᵀ           (the payload k0_pay5).
   Two control cases: the FIRST point of a core (step = 0, both stores of the zero block happen first) and
   every NEXT point (only the update, over what the point before left in the two accumulators).
   This module: the windows' blocks at the region's entry contents, the closed form of the condition, and
   the body's triple in each of the two cases, each with the list of pieces its stores leave. -/
import proofs.«429783_j3401614098830_3_alg».proof.Proof.Gen.KernelIdeal.Launch
import proofs.«429783_j3401614098830_3_alg».proof.Proof.Gen.KernelIdeal.Skeleton
import proofs.«429783_j3401614098830_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long lane axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The data window (0) is fetched at every point: its current staging buffer holds its block, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The label window (1), likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's branch condition -/

/-- The condition of the body's one conditional: the step coordinate is 0 (the scalar chain substituted). -/
abbrev cond0_0 (i : grid0.Coords) : Prop := (Scalar.cmpi .ne (Scalar.extui (Scalar.cmpi .eq (BitVec.ofNat 32 (i 1).val) 0#32)) 0#32) = 1#1
/-- It holds exactly at the first point of each core: the points 0 and 8 of the 16, i.e. t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of each accumulator window, through which its contents are stated (the choice does not matter). -/
abbrev VO0_2 : View sig .tc .vmem S1x32x16 .f32 := (Memref.whole cc0_stg2_0 : Memref sig .tc .vmem S1x32x16 .f32).view
abbrev VO0_3 : View sig .tc .vmem S1x1x16 .f32 := (Memref.whole cc0_stg3_0 : Memref sig .tc .vmem S1x1x16 .f32).view
/-- Each window's current staging memref at point `t`, and its wholeness. -/
abbrev ms0_0 (t : Fin cfg0.N) : Memref sig .tc .vmem S32x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x16 .f32 := win0_3.stage (cfg0.slots t 3)
abbrev hs0_3 (t : Fin cfg0.N) : (ms0_3 t).IsWhole := hstage0_3 ((cfg0.slots t 3).cast nbuf0_3)

/-! ## The body's triple, case by case -/

set_option maxHeartbeats 2000000 in
/-- THE FIRST POINT OF A CORE (step = 0). On whole staging memrefs — the data and label buffers at their
    contents `x0`, `x1`, the two accumulators at anything — the body runs to the continuation holding the
    inputs as they were and each accumulator with its pieces written (last first): the zero block, then
    the update of what is read back. The pieces are the witness the symbolic run finds. -/
noncomputable def kernelRun0_A (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) :
    Σ' (L2 : List (View.Piece (Elt F) S1x32x16 .f32)), { L3 : List (View.Piece (Elt F) S1x1x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__centers_kernel i arg2 harg2 arg3 harg3 arg4 harg4 arg5 harg5) K } := by
  refine ⟨?_, ?_, fun E K => ?run⟩
  case run =>
    simp only [cc0__centers_kernel_eq_skeleton]; unfold cc0__centers_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 2000000 in
/-- EVERY NEXT POINT (step ≠ 0). The two accumulators now at the running contents `xo2`, `xo3` the point before
    left; the body stores only the update of what it loads back. -/
noncomputable def kernelRun0_B (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) :
    Σ' (L2 : List (View.Piece (Elt F) S1x32x16 .f32)), { L3 : List (View.Piece (Elt F) S1x1x16 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__centers_kernel i arg2 harg2 arg3 harg3 arg4 harg4 arg5 harg5) K } := by
  refine ⟨?_, ?_, fun E K => ?run⟩
  case run =>
    simp only [cc0__centers_kernel_eq_skeleton]; unfold cc0__centers_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KiR0.lean ====
/- REGION 0, the first kernel (the per-cluster sums and counts), over its whole grid.

   What the two accumulators (the sums block [1,32,16] and the counts block [1,1,16] of the current core) hold
   after the body at each of the 16 grid points, by recursion on the point: at the first point of a core
   (t ≡ 0 mod 8) the update of the zero block, at every next point the update of what the point before left —
   the staging buffer of an accumulator is written back only at the last point of a core (t ≡ 7 mod 8) and is
   kept in between. Then the pipeline's proof data at the region's entry contents, the body obligation at a
   generic point, and the two accumulators read back as the payloads of the kernel's arithmetic:
     first point:  (k0_pay4 data labels 0,           k0_pay5 labels 0)
     next point:   (k0_pay4 data labels sums_before, k0_pay5 labels counts_before). -/
import proofs.«429783_j3401614098830_3_alg».proof.Proof.KiR0Runs
import Idealize.ShloMosaic.Lib.Pipeline.Value

-- membership in a rectangle of the long lane axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the two accumulators -/

/-- The first-point pieces for the sums block tile it (the zero store, then the update store), so they cover it. -/
theorem cover0_A_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) (y : S1x32x16.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x32x16.size (by sl_kernel_rfl) y

/-- What the first point leaves in the sums block's staging buffer: its pieces read back. -/
def out0_A_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) : Vec F S1x32x16 .f32 :=
  VO0_2.read (Elt F) (VO0_2.writes (Elt F) VO0_2.junk (kernelRun0_A c i arg2 harg2 arg3 harg3 arg4 harg4 arg5 harg5 hc0 x0 x1).1)

/-- The first-point pieces for the counts block cover it. -/
theorem cover0_A_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) (y : S1x1x16.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x16.size (by sl_kernel_rfl) y

/-- What the first point leaves in the counts block's staging buffer. -/
def out0_A_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) : Vec F S1x1x16 .f32 :=
  VO0_3.read (Elt F) (VO0_3.writes (Elt F) VO0_3.junk (kernelRun0_A c i arg2 harg2 arg3 harg3 arg4 harg4 arg5 harg5 hc0 x0 x1).2.1)

/-- A next point's one piece for the sums block (the update store) covers it. -/
theorem cover0_B_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) (y : S1x32x16.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x32x16.size (by sl_kernel_rfl) y

/-- What a next point leaves in the sums block's staging buffer, over the running contents `xo2`, `xo3`. -/
def out0_B_2 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) : Vec F S1x32x16 .f32 :=
  VO0_2.read (Elt F) (VO0_2.writes (Elt F) VO0_2.junk (kernelRun0_B c i arg2 harg2 arg3 harg3 arg4 harg4 arg5 harg5 hc0 x0 x1 xo2 xo3).1)

/-- A next point's one piece for the counts block covers it. -/
theorem cover0_B_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) (y : S1x1x16.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x16.size (by sl_kernel_rfl) y

/-- What a next point leaves in the counts block's staging buffer. -/
def out0_B_3 (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) : Vec F S1x1x16 .f32 :=
  VO0_3.read (Elt F) (VO0_3.writes (Elt F) VO0_3.junk (kernelRun0_B c i arg2 harg2 arg3 harg3 arg4 harg4 arg5 harg5 hc0 x0 x1 xo2 xo3).2.1)

section Regions
-- the TensorCore's buffer contents when the region is entered
variable (V : (c : Dev nD) → (b : Ref sig .tc) → Buf (Elt F) ((c : Thread nD τ).loc b))

/-! ## What the accumulators hold after each point -/

/-- THE ACCUMULATION: (sums block, counts block) in the staging buffers after the body at position `n` —
    the case the closed form selects at `n`, run at the point's memrefs and input blocks; a next point over what
    this leaves at `n - 1`. -/
def outsAt0 (c : Dev nD) : (n : ℕ) → n < cfg0.N → Vec F S1x32x16 .f32 × Vec F S1x1x16 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- `outsAt0` at a first point: that case's contents. -/
theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

/-- `outsAt0` at a next point: that case's contents, over what the point before left. -/
theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them; after the body at point `t`
    each input's buffer at its block and the two accumulators at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a next point the sums block's current staging buffer holds what the body left at the point before: the
    point is not the first of its core, so the buffer was not written back in between (write-backs happen at
    t ≡ 7 mod 8 only), and the window is live and uncut. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]
/-- The counts block, likewise. -/
theorem before0_3_B (c : Dev nD) (t : Fin cfg0.N) (h0 : ¬t.val % 8 = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' memrefs hold their blocks; the closed form says which case the point is
    in; at a next point each accumulator holds what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 8 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_2_B V c t h0, before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

/-! ## The accumulators as the payloads of the kernel's arithmetic -/

/-- The zero offsets of a whole-buffer access, of rank 3 and of rank 2, however spelt. -/
theorem zeroOff0_3 : (![0, 0, 0] : Fin 3 → Nat) = fun _ => 0 := funext fun a => by fin_cases a <;> rfl
theorem zeroOff0_2 : (![0, 0] : Fin 2 → Nat) = fun _ => 0 := funext fun a => by fin_cases a <;> rfl

/-- First point, sums block: the update (k0_pay4) of the zero block (k0_pay1) — the zero store read back by
    the load, the update store covering the block. -/
theorem out0_A_2_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) :
    out0_A_2 c i arg2 harg2 arg3 harg3 arg4 harg4 arg5 harg5 hc0 x0 x1 = k0_pay4 x0 x1 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x32x16) zeroOff0_3, View.readCov_unit_zero (S := S1x32x16) _ zeroOff0_3]
  simp only [View.readAt_eq_ld, harg2.read_unread, harg3.read_unread, View.ld_unit_zero (S := S32x32768) zeroOff0_2, View.ld_unit_zero (S := S1x32768) zeroOff0_2]

/-- First point, counts block: the update (k0_pay5) of the zero block (k0_pay2). -/
theorem out0_A_3_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : cond0_0 i)
    (x0 : Vec F S32x32768 .f32) (x1 : Vec F S1x32768 .i32) :
    out0_A_3 c i arg2 harg2 arg3 harg3 arg4 harg4 arg5 harg5 hc0 x0 x1 = k0_pay5 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x16) zeroOff0_3, View.readCov_unit_zero (S := S1x1x16) _ zeroOff0_3]
  simp only [View.readAt_eq_ld, harg3.read_unread, View.ld_unit_zero (S := S1x32768) zeroOff0_2]

/-- Next point, sums block: the update of the running contents. -/
theorem out0_B_2_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero (S := S1x32x16) zeroOff0_3]
  simp only [View.readAt_eq_ld, harg2.read_unread, harg3.read_unread, harg4.read_unread, View.ld_unit_zero (S := S32x32768) zeroOff0_2, View.ld_unit_zero (S := S1x32768) zeroOff0_2, View.ld_unit_zero (S := S1x32x16) zeroOff0_3]

/-- Next point, counts block: the update of the running contents. -/
theorem out0_B_3_eq (c : Dev nD) (i : grid0.Coords) (arg2 : Memref sig .tc .vmem S32x32768 .f32) (harg2 : arg2.IsWhole) (arg3 : Memref sig .tc .vmem S1x32768 .i32) (harg3 : arg3.IsWhole) (arg4 : Memref sig .tc .vmem S1x32x16 .f32) (harg4 : arg4.IsWhole) (arg5 : Memref sig .tc .vmem S1x1x16 .f32) (harg5 : arg5.IsWhole) (hc0 : ¬cond0_0 i)
    (x0 : Vec F S32x32768 .f32) (x1 : Vec F S1x32768 .i32) (xo2 : Vec F S1x32x16 .f32) (xo3 : Vec F S1x1x16 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero (S := S1x1x16) zeroOff0_3]
  simp only [View.readAt_eq_ld, harg3.read_unread, harg5.read_unread, View.ld_unit_zero (S := S1x32768) zeroOff0_2, View.ld_unit_zero (S := S1x1x16) zeroOff0_3]

section Regions
variable (V : (c : Dev nD) → (b : Ref sig .tc) → Buf (Elt F) ((c : Thread nD τ).loc b))

/-- The accumulators after the FIRST point of a core: the update of zero by the point's data and labels. -/
theorem outsAt0_first (c : Dev nD) (t : Fin cfg0.N) (h : t.val % 8 = 0) :
    outsAt0 V c t.val t.isLt = (k0_pay4 (iblk0 V c 0 t) (iblk0 V c 1 t) k0_pay1, k0_pay5 (iblk0 V c 1 t) k0_pay2) := by
  rw [outsAt0_A V c t h]
  rw [out0_A_2_eq c (grid0.coords t) (ms0_0 t) (hs0_0 t) (ms0_1 t) (hs0_1 t) (ms0_2 t) (hs0_2 t) (ms0_3 t) (hs0_3 t) ((hcond0_0 t).mpr h) (iblk0 V c 0 t) (iblk0 V c 1 t),
    out0_A_3_eq c (grid0.coords t) (ms0_0 t) (hs0_0 t) (ms0_1 t) (hs0_1 t) (ms0_2 t) (hs0_2 t) (ms0_3 t) (hs0_3 t) ((hcond0_0 t).mpr h) (iblk0 V c 0 t) (iblk0 V c 1 t)]

/-- The accumulators after a NEXT point: the update, by the point's data and labels, of what the point before left. -/
theorem outsAt0_next (c : Dev nD) (t : Fin cfg0.N) (h : ¬ t.val % 8 = 0) :
    outsAt0 V c t.val t.isLt = (k0_pay4 (iblk0 V c 0 t) (iblk0 V c 1 t) (outsAt0 V c (t.val - 1) (Nat.lt_of_le_of_lt (Nat.sub_le _ _) t.isLt)).1, k0_pay5 (iblk0 V c 1 t) (outsAt0 V c (t.val - 1) (Nat.lt_of_le_of_lt (Nat.sub_le _ _) t.isLt)).2) := by
  rw [outsAt0_B V c t h]
  rw [out0_B_2_eq c (grid0.coords t) (ms0_0 t) (hs0_0 t) (ms0_1 t) (hs0_1 t) (ms0_2 t) (hs0_2 t) (ms0_3 t) (hs0_3 t) (fun h' => h ((hcond0_0 t).mp h')) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
    out0_B_3_eq c (grid0.coords t) (ms0_0 t) (hs0_0 t) (ms0_1 t) (hs0_1 t) (ms0_2 t) (hs0_2 t) (ms0_3 t) (hs0_3 t) (fun h' => h ((hcond0_0 t).mp h')) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2]

end Regions

end Cert.KernelIdeal.Hand

end
-- ==== Proof.KiR1Runs.lean ====
/-
  The second grid (the summed hinge), one point of it: what the body does to the memory it is handed.
  The grid is 2 cores x 8 steps, 16 points t = 8*core + step run in order.  The body is handed the data block
  and the label block of the point, the whole table of per-core sums and the whole table of per-core counts,
  the core's one-cell output block, and a 32 x 16 table of its own that lives from point to point.
  At a core's first step it sets the output cell to zero and writes the centre table (sums added over the
  cores, divided by the counts added over the cores and guarded below by one) into its own table; at every
  step it then adds the block's summed hinge, computed against the table, to the output cell.
  Here: each window's block read off the array the region finds, why an input's buffer holds its block at
  every point, the step test in closed form, and the two runs of the body (first step / later step) as
  separation-logic triples whose witnesses are the pieces the stores leave.
-/
import proofs.«429783_j3401614098830_3_alg».proof.Proof.Gen.KernelIdeal.Launch
import proofs.«429783_j3401614098830_3_alg».proof.Proof.Gen.KernelIdeal.Skeleton
import proofs.«429783_j3401614098830_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the second grid is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data block's buffer holds the block of the point, at every point: it is fetched at every point, and a body
    that leaves it in place leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the label block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The table of per-core sums is fetched once, at the first point; its block index never moves, so its buffer
    holds the whole table at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for the table of per-core counts. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The step test -/

/-- The body's test "this is the core's first step", from the grid coordinates. -/
abbrev cond1_0 (i : grid1.Coords) : Prop := (Scalar.cmpi .ne (Scalar.extui (Scalar.cmpi .eq (BitVec.ofNat 32 (i 1).val) 0#32)) 0#32) = 1#1
/-- It holds exactly at the points t = 0 and t = 8: t mod 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- No window of the second grid is ever idle. -/
theorem liveAt1 : ∀ (w : Fin cfg1.W) (t : Fin cfg1.N), cfg1.idle w (grid1.coords t) = false := fun _ _ => rfl

/-! ## The memory the body is handed -/

/-- One buffer of the output cell, through which its contents are stated. -/
abbrev VO1_4 : View sig .tc .vmem S1x1x1 .f32 := (Memref.whole cc1_stg4_0 : Memref sig .tc .vmem S1x1x1 .f32).view
/-- Each window's current buffer at point `t`, and its wholeness. -/
abbrev ms1_0 (t : Fin cfg1.N) : Memref sig .tc .vmem S32x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x32768 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x32x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x1x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
/-- The body's own 32 x 16 table, which lives from point to point. -/
abbrev scM1 : Memref sig .tc .vmem S32x16 .f32 := Memref.whole cc1_scratch0
/-- The same as a view: what it holds is stated through it. -/
abbrev VS1 : View sig .tc .vmem S32x16 .f32 := scM1.view

/-- The core's scoped buffers that are neither this grid's buffers nor the body's own table: the first grid's
    eight buffers, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- What the region is entered with, the body's own table split out: the first grid's buffers, the table at
    some contents, the generator register at some state. -/
theorem PhiA1_split (c : Dev nD) :
    (Pipeline.ΦA spec1 c : sProp 𝕄) ⊢ iprop(iprop(others1 (F := F) c ∗ (∃ d, owns (c : Thread nD τ) scM1 fullShare d)) ∗ (∃ r, prngReg c r)) := by
  unfold Pipeline.ΦA others1; rw [scopedRest1_eq]; simp only [scM1, owns_whole]
  iintro ⟨⟨R0, R1, R2, R3, R4, R5, R6, R7, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    · iexact HS
  · iexact Hg

/-- And back: the table's contents forgotten. -/
theorem PhiA1_join (c : Dev nD) :
    iprop(iprop(others1 (F := F) c ∗ (∃ d, owns (c : Thread nD τ) scM1 fullShare d)) ∗ (∃ r, prngReg c r)) ⊢ (Pipeline.ΦA spec1 c : sProp 𝕄) := by
  unfold Pipeline.ΦA others1; rw [scopedRest1_eq]; simp only [scM1, owns_whole]
  iintro ⟨⟨⟨R0, R1, R2, R3, R4, R5, R6, R7⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  · iexact Hg

/-- The two together, as an equation. -/
theorem PhiA1_eq (c : Dev nD) :
    (Pipeline.ΦA spec1 c : sProp 𝕄) = iprop(iprop(others1 (F := F) c ∗ (∃ d, owns (c : Thread nD τ) scM1 fullShare d)) ∗ (∃ r, prngReg c r)) :=
  (PhiA1_split c).antisymm (PhiA1_join c)

/-! ## The two runs of the body -/

set_option maxHeartbeats 1000000 in
/-- THE FIRST STEP of a core.  On whole memrefs — the data block at `x0`, the label block at `x1`, the table of
    per-core sums at `x2`, the table of per-core counts at `x3`, the output cell and the body's own table at
    anything — the body runs to the continuation holding the four inputs as they were, the output cell with the
    pieces `L4` written and the body's table with the pieces `LS` written.  The pieces are the witness. -/
noncomputable def kernelRun1_A (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) :
    Σ' (L4 : List (View.Piece (Elt F) S1x1x1 .f32)), { LS : List (View.Piece (Elt F) S32x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__var_kernel i arg2 harg2 arg3 harg3 arg4 harg4 arg5 harg5 arg6 harg6 arg7 harg7) K } := by
  refine ⟨?_, ?_, fun E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

set_option maxHeartbeats 1000000 in
/-- A LATER STEP of a core.  On whole memrefs — the inputs as above, the output cell at its running contents
    `xo`, the body's table at the contents `xs` the step before left — the body runs to the continuation
    holding the inputs and the table as they were and the output cell with the pieces `L4` written. -/
noncomputable def kernelRun1_B (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) :
    { L4 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc1__var_kernel i arg2 harg2 arg3 harg3 arg4 harg4 arg5 harg5 arg6 harg6 arg7 harg7) K } := by
  refine ⟨?_, fun E K => ?run⟩
  case run =>
    simp only [cc1__var_kernel_eq_skeleton]; unfold cc1__var_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

end Cert.KernelIdeal.Hand

end
-- ==== Proof.KiR1.lean ====
/-
  The second grid (the summed hinge) as a whole: what the output cell and the body's own table hold after
  each of the 16 points, and the proof data of the grid.
  After a core's first step the table holds the centre table (a function of the two tables of per-core sums
  and counts alone) and the output cell holds the block's summed hinge added to zero; after a later step the
  table is what it was and the output cell holds the block's summed hinge added to what the step before left.
  The region invariant names the table's contents from the second point on; when the region is left they are
  forgotten again.
-/
import proofs.«429783_j3401614098830_3_alg».proof.Proof.KiR1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the second grid is entered
variable (V : (c : Dev nD) → (b : Ref sig .tc) → Buf (Elt F) ((c : Thread nD τ).loc b))

/-! ## What a run leaves, read back -/

/-- A first step's pieces for the output cell cover it. -/
theorem cover1_A_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) (y : S1x1x1.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x1x1.size (by sl_kernel_rfl) y

/-- What a first step leaves in the output cell: its pieces read back. -/
def out1_A_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) : Vec F S1x1x1 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- A first step's pieces for the body's own table cover it. -/
theorem scover1_A (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) (y : S32x16.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S32x16.size (by sl_kernel_rfl) y

/-- What a first step leaves in the body's own table: its pieces read back. -/
def sout1_A (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) : Vec F S32x16 .f32 :=
  VS1.read (Elt F) (VS1.writes (Elt F) VS1.junk (kernelRun1_A c i arg2 harg2 arg3 harg3 arg4 harg4 arg5 harg5 arg6 harg6 arg7 harg7 hc0 x0 x1 x2 x3).2.1)

/-- A later step's pieces for the output cell cover it. -/
theorem cover1_B_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) (y : S1x1x1.Idx) :
    ∃ pc ∈ (kernelRun1_B c i arg2 harg2 arg3 harg3 arg4 harg4 arg5 harg5 arg6 harg6 arg7 harg7 hc0 x0 x1 x2 x3 xo xs).1, y ∈ pc.1.set :=
  View.cover_of_tiledL (kernelRun1_B c i arg2 harg2 arg3 harg3 arg4 harg4 arg5 harg5 arg6 harg6 arg7 harg7 hc0 x0 x1 x2 x3 xo xs).1 S1x1x1.size (by sl_kernel_rfl) y

/-- What a later step leaves in the output cell: its pieces read back. -/
def out1_B_4 (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) : Vec F S1x1x1 .f32 :=
  VO1_4.read (Elt F) (VO1_4.writes (Elt F) VO1_4.junk (kernelRun1_B c i arg2 harg2 arg3 harg3 arg4 harg4 arg5 harg5 arg6 harg6 arg7 harg7 hc0 x0 x1 x2 x3 xo xs).1)

/-! ## What the output cell and the table hold after each point -/

/-- THE ACCUMULATION.  The pair (output cell, table) after the body at position `n`: at a core's first step the
    first run's, at a later step the later run's over what position `n - 1` left (the table unchanged). -/
def outsAt1 (c : Dev nD) : (n : ℕ) → n < cfg1.N → Vec F S1x1x1 .f32 × Vec F S32x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
        (outsAt1 c n (Nat.lt_of_succ_lt hn)).2)

/-- `outsAt1` at a core's first step. -/
theorem outsAt1_A (c : Dev nD) (t : Fin cfg1.N) (h0 : t.val % 8 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t) (iblk1 V c 3 t),
      sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a later step: over what the point before left. -/
theorem outsAt1_B (c : Dev nD) (t : Fin cfg1.N) (h0 : ¬t.val % 8 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: before the first point what the region is entered with (the table at anything); later
    the first grid's buffers, the table at what position `n - 1` left in it, the generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1 fullShare ((outsAt1 V c (n - 1) (by omega)).2)) ∗ (∃ r, prngReg c r)) := by
  cases n with
  | zero => exact absurd rfl hz
  | succ n => rfl

/-! ## The grid's proof data -/

/-- The arrays as the region finds them; after the body at point `t` each input's buffer at its block and the
    output cell's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later step the output cell's current buffer holds what the body left at the point before: the point is
    not the first and the cell was not written back between (it is written back after a core's last step only). -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 16 := lt_of_lt_of_eq t.isLt (show cfg1.N = 16 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' buffers hold their blocks; the step test says which run applies; at a later
    step the output cell holds what the point before left, and the invariant hands over the table at what the
    point before left; the invariant takes the table back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 16 := lt_of_lt_of_eq t.isLt (show cfg1.N = 16 from N_1)
  by_cases h0 : t.val % 8 = 0
  · rw [outsAt1_A V c t h0]
    unfold out1_A_4 sout1_A; (try dsimp only)
    by_cases hz : t.val = 0
    · -- the grid's first point: the table at anything
      rw [PhiS1_castSucc V c t, PhiS1_zero V c _ _ hz, PhiA1_eq]
      iintro ⟨⟨⟨HR, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HR HS Hg]
      · isplitr [Hg]
        · isplitl [HR]; · iexact HR
          unfold owns; iexists _; isplitr
          swap; · iexact HS
          ipureintro; exact View.read_writes_of_cover _ _ _ _ _ (scover1_A c _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · -- the second core's first step: the table at what the first core's last step left, overwritten
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HR HS Hg]
      · isplitr [Hg]
        · isplitl [HR]; · iexact HR
          unfold owns; iexists _; isplitr
          swap; · iexact HS
          ipureintro; exact View.read_writes_of_cover _ _ _ _ _ (scover1_A c _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    simp only [before1_4_B V c t h0]
    unfold out1_B_4; (try dsimp only)
    have hz : t.val ≠ 0 := by omega
    rw [PhiS1_castSucc V c t, PhiS1_pos V c _ _ hz]
    iintro ⟨⟨⟨HR, HS⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, HS⟩
    isplitl [HR HS Hg]
    · isplitr [Hg]
      · isplitl [HR]; · iexact HR
        iexact HS
      · iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the region is entered with. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After the last point the invariant gives it back: the table's contents are forgotten. -/
theorem Phi1_last (c : Dev nD) : (dat1 V c).Φ (Fin.last _) ⊢ Pipeline.ΦA spec1 c := by
  rw [show (dat1 V c).Φ (Fin.last _) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HR, HS⟩, Hg⟩
  isplitr [Hg]
  · isplitl [HR]; · iexact HR
    iexists _; iexact HS
  · iexact Hg

end Region1

/-! ## The pieces, as the body's values -/

/-- The origin of a rank-3 (rank-2) shape, as the constant function zero. -/
theorem zeroOff1_3 : (![0, 0, 0] : Fin 3 → Nat) = fun _ => 0 := funext fun a => by fin_cases a <;> rfl
theorem zeroOff1_2 : (![0, 0] : Fin 2 → Nat) = fun _ => 0 := funext fun a => by fin_cases a <;> rfl

/-- A first step leaves in the table the centre table of the two tables it was handed. -/
theorem sout1_A_eq (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) :
    sout1_A c i arg2 harg2 arg3 harg3 arg4 harg4 arg5 harg5 arg6 harg6 arg7 harg7 hc0 x0 x1 x2 x3 = k1_pay2 x2 x3 := by
  unfold sout1_A
  rw [View.read_writes_eq_canon _ _ _ (scover1_A c i arg2 harg2 arg3 harg3 arg4 harg4 arg5 harg5 arg6 harg6 arg7 harg7 hc0 x0 x1 x2 x3)]
  unfold kernelRun1_A
  dsimp only
  sl_unfold_words
  rw [View.canon_unit_zero (S := S32x16) zeroOff1_2]
  simp only [View.readAt_eq_ld, harg4.read_unread, harg5.read_unread, View.ld_unit_zero (S := S2x32x16) zeroOff1_3, View.ld_unit_zero (S := S2x1x16) zeroOff1_3]

/-- A first step leaves in the output cell the block's summed hinge against that centre table, added to zero. -/
theorem out1_A_4_eq (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : cond1_0 i)
    (x0 : Vec F S32x32768 .f32) (x1 : Vec F S1x32768 .i32) (x2 : Vec F S2x32x16 .f32) (x3 : Vec F S2x1x16 .f32) :
    out1_A_4 c i arg2 harg2 arg3 harg3 arg4 harg4 arg5 harg5 arg6 harg6 arg7 harg7 hc0 x0 x1 x2 x3 = k1_pay3 x0 x1 (k1_pay2 x2 x3) k1_pay1 := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S1x1x1) zeroOff1_3, View.readCov_unit_zero (S := S1x1x1) _ zeroOff1_3, View.readCov_unit_zero (S := S32x16) _ zeroOff1_2]
  simp only [View.readAt_eq_ld, harg2.read_unread, harg3.read_unread, harg4.read_unread, harg5.read_unread, View.ld_unit_zero (S := S32x32768) zeroOff1_2, View.ld_unit_zero (S := S1x32768) zeroOff1_2, View.ld_unit_zero (S := S2x32x16) zeroOff1_3, View.ld_unit_zero (S := S2x1x16) zeroOff1_3]

/-- A later step leaves in the output cell the block's summed hinge against the table, added to what it held. -/
theorem out1_B_4_eq (c : Dev nD) (i : grid1.Coords) (arg2 : Memref sig .tc .vmem S32x32768 .f32) (harg2 : arg2.IsWhole) (arg3 : Memref sig .tc .vmem S1x32768 .i32) (harg3 : arg3.IsWhole) (arg4 : Memref sig .tc .vmem S2x32x16 .f32) (harg4 : arg4.IsWhole) (arg5 : Memref sig .tc .vmem S2x1x16 .f32) (harg5 : arg5.IsWhole) (arg6 : Memref sig .tc .vmem S1x1x1 .f32) (harg6 : arg6.IsWhole) (arg7 : Memref sig .tc .vmem S32x16 .f32) (harg7 : arg7.IsWhole) (hc0 : ¬cond1_0 i)
    (x0 : Vec F S32x32768 .f32) (x1 : Vec F S1x32768 .i32) (x2 : Vec F S2x32x16 .f32) (x3 : Vec F S2x1x16 .f32) (xo : Vec F S1x1x1 .f32) (xs : Vec F S32x16 .f32) :
    out1_B_4 c i arg2 harg2 arg3 harg3 arg4 harg4 arg5 harg5 arg6 harg6 arg7 harg7 hc0 x0 x1 x2 x3 xo xs = k1_pay3 x0 x1 xs xo := by
  unfold out1_B_4
  rw [View.read_writes_eq_canon _ _ _ (cover1_B_4 c i arg2 harg2 arg3 harg3 arg4 harg4 arg5 harg5 arg6 harg6 arg7 harg7 hc0 x0 x1 x2 x3 xo xs)]
  unfold kernelRun1_B
  dsimp only
  sl_unfold_words
  rw [View.canon_unit_zero (S := S1x1x1) zeroOff1_3]
  simp only [View.readAt_eq_ld, harg2.read_unread, harg3.read_unread, harg6.read_unread, harg7.read_unread, View.ld_unit_zero (S := S32x32768) zeroOff1_2, View.ld_unit_zero (S := S1x32768) zeroOff1_2, View.ld_unit_zero (S := S32x16) zeroOff1_2, View.ld_unit_zero (S := S1x1x1) zeroOff1_3]

section Region1
variable (V : (c : Dev nD) → (b : Ref sig .tc) → Buf (Elt F) ((c : Thread nD τ).loc b))

/-- After a core's first step: the centre table in the table, the block's summed hinge added to zero in the cell. -/
theorem outsAt1_first (c : Dev nD) (t : Fin cfg1.N) (h : t.val % 8 = 0) :
    outsAt1 V c t.val t.isLt = (k1_pay3 (iblk1 V c 0 t) (iblk1 V c 1 t) (k1_pay2 (iblk1 V c 2 t) (iblk1 V c 3 t)) k1_pay1, k1_pay2 (iblk1 V c 2 t) (iblk1 V c 3 t)) := by
  rw [outsAt1_A V c t h,
    out1_A_4_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h) (iblk1 V c 0 t) (iblk1 V c 1 t) (iblk1 V c 2 t) (iblk1 V c 3 t),
    sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h) (iblk1 V c 0 t) (iblk1 V c 1 t) (iblk1 V c 2 t) (iblk1 V c 3 t)]

/-- After a later step: the table unchanged, the block's summed hinge added to what the cell held. -/
theorem outsAt1_next (c : Dev nD) (t : Fin cfg1.N) (h : ¬ t.val % 8 = 0) :
    outsAt1 V c t.val t.isLt = (k1_pay3 (iblk1 V c 0 t) (iblk1 V c 1 t) (outsAt1 V c (t.val - 1) (Nat.lt_of_le_of_lt (Nat.sub_le _ _) t.isLt)).2 (outsAt1 V c (t.val - 1) (Nat.lt_of_le_of_lt (Nat.sub_le _ _) t.isLt)).1, (outsAt1 V c (t.val - 1) (Nat.lt_of_le_of_lt (Nat.sub_le _ _) t.isLt)).2) := by
  rw [outsAt1_B V c t h,
    out1_B_4_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h' => h ((hcond1_0 t).mp h')) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2]

end Region1

end Cert.KernelIdeal.Hand

end
-- ==== Proof.KiRun.lean ====
/- THE RUN OF @main on the kernel side. @main is eight items in order on each core: the two reshapes of the arguments,
   the two kernel regions (the per-cluster sums and counts; then the summed hinge, whose centres live in a scratch
   carried from point to point), and five stretches of host operations that finish the loss. Between two items a core
   holds every unscoped buffer whole at named contents: the launch memory, then each host stretch's result over the
   contents before it, and at a region's exit the region's arrays at what its write-backs leave after the last grid
   point with every other buffer as the region found it. Beside the buffers ride the core's generator register and the
   fact that it owes nothing. The two regions are entered from and left at these states; the items chain; and the
   final memory is read at every unscoped buffer against the last contents. Hence every execution terminates with
   each unscoped buffer at the last contents, and in particular with both arguments as launched, since no host
   operation writes an argument and neither region has one among its arrays. -/
import proofs.«429783_j3401614098830_3_alg».proof.Proof.Gen.KernelIdeal.Launch
import proofs.«429783_j3401614098830_3_alg».proof.Proof.Gen.KernelIdeal.Regions
import proofs.«429783_j3401614098830_3_alg».proof.Proof.KiR0
import proofs.«429783_j3401614098830_3_alg».proof.Proof.KiR1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two kernel regions among the host stretches

## The buffer contents at each boundary between two items, a fold from the launch memory -/

/-- The state @main is launched on: memory `m`, every counter at zero, the generator registers `ρ`. -/
abbrev launchSt : MemSt nD τ sig (Elt F) := ⟨m, fun _ => 0, ρ⟩

/-- Core `c`'s buffers at launch. -/
abbrev Wb0 : Dev nD → Valuation τ sig (Elt F) := fun c b => (launchSt m ρ).mem ((c : Dev nD), b)
/-- After the two reshapes of the arguments: what region 0 is entered from. -/
abbrev Wb1 : Dev nD → Valuation τ sig (Elt F) := fun c => StableHlo.after hostOps0 (Wb0 m ρ c)
/-- The same read at the TensorCore's references. -/
abbrev Vb1 : (c : Dev nD) → (b : Ref sig .tc) → Buf (Elt F) ((c : Thread nD τ).loc b) := fun c b => Wb1 m ρ c b
/-- At region 0's exit: each of its arrays at what the pipeline's write-backs leave after the last point, every other
    buffer as entered. There is no host operation between the two regions, so region 1 is entered from the same. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
/-- The same read at the TensorCore's references. -/
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- At region 1's exit: its arrays at what its pipeline leaves, every other buffer as entered. -/
def Wb3 (c : Dev nD) : Valuation τ sig (Elt F) :=
  Pipeline.withArrays spec1 c (Wb2 m ρ c) fun w => (dat1 (Vb2 m ρ) c).arrAt w cfg1.N
theorem Wb3_arr (c : Dev nD) (w : Fin cfg1.W) :
    Wb3 m ρ c (Proc.devRef .tc (Pipeline.arrRef spec1 w)) = (dat1 (Vb2 m ρ) c).arrAt w cfg1.N := by
  unfold Wb3; exact Pipeline.withArrays_arr spec1 launch1.win.arr_inj c _ _ w
theorem Wb3_of_ne (c : Dev nD) (b : Ref sig .tc) (hb : ∀ w, Pipeline.arrRef spec1 w ≠ b) :
    Wb3 m ρ c (Proc.devRef .tc b) = Wb2 m ρ c (Proc.devRef .tc b) := by
  unfold Wb3; exact Pipeline.withArrays_of_ne spec1 c _ _ b hb
/-- The same read at the TensorCore's references. -/
abbrev Vb3 : (c : Dev nD) → (b : Ref sig .tc) → Buf (Elt F) ((c : Thread nD τ).loc b) := fun c b => Wb3 m ρ c b
theorem hF1 (c : Dev nD) (w : Fin cfg1.W) : (dat1 (Vb2 m ρ) c).arrAt w cfg1.N = Vb3 m ρ c (Pipeline.arrRef spec1 w) :=
  (Wb3_arr m ρ c w).symm
theorem hrest1 (c : Dev nD) : ∀ b, b ∉ Finset.univ.image (Pipeline.arrRef spec1) → Vb3 m ρ c b = Vb2 m ρ c b :=
  fun b hb => Wb3_of_ne m ρ c b fun w e => hb (Finset.mem_image.mpr ⟨w, Finset.mem_univ _, e⟩)

/-- After each of the five host stretches that follow the regions; `Wb8` is the end of @main. -/
abbrev Wb4 : Dev nD → Valuation τ sig (Elt F) := fun c => StableHlo.after hostOps2 (Wb3 m ρ c)
abbrev Wb5 : Dev nD → Valuation τ sig (Elt F) := fun c => StableHlo.after hostOps2_1 (Wb4 m ρ c)
abbrev Wb6 : Dev nD → Valuation τ sig (Elt F) := fun c => StableHlo.after hostOps2_2 (Wb5 m ρ c)
abbrev Wb7 : Dev nD → Valuation τ sig (Elt F) := fun c => StableHlo.after hostOps2_3 (Wb6 m ρ c)
abbrev Wb8 : Dev nD → Valuation τ sig (Elt F) := fun c => StableHlo.after hostOps2_4 (Wb7 m ρ c)

/-! ### What each host stretch leaves unchanged: every buffer none of its operations writes -/

theorem Wb1_of (c : Dev nD) (r : Ref sig .tc) (h : r ∉ hostOps0_W) : Wb1 m ρ c r = Wb0 m ρ c r :=
  StableHlo.after_of_writes_sub hostOps0 _ hostOps0_writes h
theorem Wb4_of (c : Dev nD) (r : Ref sig .tc) (h : r ∉ hostOps2_W) : Wb4 m ρ c r = Wb3 m ρ c r :=
  StableHlo.after_of_writes_sub hostOps2 _ hostOps2_writes h
theorem Wb5_of (c : Dev nD) (r : Ref sig .tc) (h : r ∉ hostOps2_1_W) : Wb5 m ρ c r = Wb4 m ρ c r :=
  StableHlo.after_of_writes_sub hostOps2_1 _ hostOps2_1_writes h
theorem Wb6_of (c : Dev nD) (r : Ref sig .tc) (h : r ∉ hostOps2_2_W) : Wb6 m ρ c r = Wb5 m ρ c r :=
  StableHlo.after_of_writes_sub hostOps2_2 _ hostOps2_2_writes h
theorem Wb7_of (c : Dev nD) (r : Ref sig .tc) (h : r ∉ hostOps2_3_W) : Wb7 m ρ c r = Wb6 m ρ c r :=
  StableHlo.after_of_writes_sub hostOps2_3 _ hostOps2_3_writes h
theorem Wb8_of (c : Dev nD) (r : Ref sig .tc) (h : r ∉ hostOps2_4_W) : Wb8 m ρ c r = Wb7 m ρ c r :=
  StableHlo.after_of_writes_sub hostOps2_4 _ hostOps2_4_writes h

/-! ### The arguments end as launched: no host operation writes one and neither region has one among its arrays, so
    the fold at an argument's buffer walks back to the launch memory -/

theorem Wb8_main_arg0 (c : Dev nD) : Wb8 m ρ c (Proc.devRef .tc main_arg0) = m ((c : Thread nD τ).loc main_arg0) :=
  (Wb8_of m ρ c main_arg0 (by decide)).trans <| (Wb7_of m ρ c main_arg0 (by decide)).trans <|
  (Wb6_of m ρ c main_arg0 (by decide)).trans <| (Wb5_of m ρ c main_arg0 (by decide)).trans <|
  (Wb4_of m ρ c main_arg0 (by decide)).trans <| (Wb3_of_ne m ρ c main_arg0 (by decide)).trans <|
  (Wb2_of_ne m ρ c main_arg0 (by decide)).trans <| (Wb1_of m ρ c main_arg0 (by decide)).trans rfl
theorem Wb8_main_arg1 (c : Dev nD) : Wb8 m ρ c (Proc.devRef .tc main_arg1) = m ((c : Thread nD τ).loc main_arg1) :=
  (Wb8_of m ρ c main_arg1 (by decide)).trans <| (Wb7_of m ρ c main_arg1 (by decide)).trans <|
  (Wb6_of m ρ c main_arg1 (by decide)).trans <| (Wb5_of m ρ c main_arg1 (by decide)).trans <|
  (Wb4_of m ρ c main_arg1 (by decide)).trans <| (Wb3_of_ne m ρ c main_arg1 (by decide)).trans <|
  (Wb2_of_ne m ρ c main_arg1 (by decide)).trans <| (Wb1_of m ρ c main_arg1 (by decide)).trans rfl

/-! ## The proof data family and the thread state -/

/-- Every pipeline's proof data, each at its region's entry contents. -/
def pdatsRun : (p : Fin 2) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb2 m ρ) c
/-- No core owes another anything: no pair carries a level. -/
abbrev noPairs : GSem nD τ sig → Finset Unit := fun _ => ∅
abbrev noLevel : GSem nD τ sig → Unit → ℕ := fun _ _ => 0
/-- What rides beside the buffers through every item: the core's generator register at some state (a region's
    invariant takes it in and gives it back) and the core owing nothing. -/
abbrev Ride (c : Dev nD) : sProp 𝕄 := iprop((∃ r, prngReg c r) ∗ ∃ W, owes (c : Thread nD τ) (0 : CellTallies nD τ sig Unit) W)
/-- A host stretch as a segment: from every unscoped buffer at the contents `W` to the same at the stretch's result over
    `W`, `Ride` beside. -/
abbrev hsegRun (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the end's contents, the generator register at
    some state. -/
abbrev Tend (c : Dev nD) : sProp 𝕄 := iprop(StableHlo.held (c : Thread nD τ) (Pipeline.ucRefs τ sig) (Wb8 m ρ c) ∗ ∃ r, prngReg c r)

/-- The last host stretch's exit is the last thread state beside the core owing nothing (the same three parts, regrouped). -/
theorem ride_end (c : Dev nD) :
    iprop(StableHlo.held (c : Thread nD τ) (Pipeline.ucRefs τ sig) (Wb8 m ρ c) ∗ Ride (F := F) c)
      ⊢ iprop(Tend m ρ c ∗ ∃ W, owes (c : Thread nD τ) (0 : CellTallies nD τ sig Unit) W) := by
  iintro ⟨Hbufs, Hreg, Howes⟩
  isplitl [Hbufs Hreg]
  · isplitl [Hbufs] <;> iassumption
  iexact Howes

/-! ## The regions as segments -/

set_option backward.isDefEq.respectTransparency.types false in
/-- REGION 0 over the thread state: entered from every unscoped buffer at `Wb1`, left at `Wb2`. Its arrays are
    split out of the unscoped buffers on entry and put back at their exit contents; the generator register goes into the
    region's invariant, which is the scoped rest beside the register at every point, and comes back from it;
    nothing is owed; the kernel has no semaphore of its own. -/
def regRun0 : Pipeline.RegionSeg (pcfgs (F := F)) adm (pdatsRun m ρ) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ noPairs noLevel 0 fun _ _ => rfl
  pre c := iprop(StableHlo.held (c : Thread nD τ) (Pipeline.ucRefs τ sig) (Wb1 m ρ c) ∗ Ride c)
  post c := iprop(StableHlo.held (c : Thread nD τ) (Pipeline.ucRefs τ sig) (Wb2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdatsRun m ρ) launch0.win launch0.arr_whole c
      ((pdatsRun m ρ 0 c).share_full fun _ => rfl) (Vb1 m ρ c) fun w => A_eq0 (Vb1 m ρ) c w
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsRun m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdatsRun m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdatsRun m ρ) ((pdatsRun m ρ 0 c).share_full fun _ => rfl)
      (Vb1 m ρ c) (Vb2 m ρ c) ((pdatsRun m ρ 0 c).arrAt · cfg0.N) (hF0 m ρ c) (hrest0 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- REGION 1 over the thread state: entered from every unscoped buffer at `Wb2`, left at `Wb3`. Its arrays are
    split out of the unscoped buffers on entry and put back at their exit contents; the generator register goes into the
    region's invariant at the first point, where it is the scoped rest beside the register, and comes back after the
    last point, where the invariant (which from the second point on also names the scratch's contents) gives that back;
    nothing is owed; the kernel has no semaphore of its own. -/
def regRun1 : Pipeline.RegionSeg (pcfgs (F := F)) adm (pdatsRun m ρ) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (Vb2 m ρ) c).loose
  hwaits := Pipeline.hwaits_of_owed_zero _ _ _ _ noPairs noLevel 1 fun _ _ => rfl
  pre c := iprop(StableHlo.held (c : Thread nD τ) (Pipeline.ucRefs τ sig) (Wb2 m ρ c) ∗ Ride c)
  post c := iprop(StableHlo.held (c : Thread nD τ) (Pipeline.ucRefs τ sig) (Wb3 m ρ c) ∗ Ride c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := Pipeline.arrays_of_unscopedBufs (p := 1) (pcfgs (F := F)) adm (pdatsRun m ρ) launch1.win launch1.arr_whole c
      ((pdatsRun m ρ 1 c).share_full fun _ => rfl) (Vb2 m ρ c) fun w => A_eq1 (Vb2 m ρ) c w
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsRun m ρ 1 c).Φ 0 = Pipeline.ΦA spec1 c from Phi1_zero (Vb2 m ρ) c]; unfold Pipeline.ΦA
    iintro ⟨Hreg, -, Hscoped⟩
    isplitl [Hscoped]; · iexact Hscoped
    iexact Hreg
  hout c := by
    rw [Pipeline.ownSems0_none]
    refine (show (pdatsRun m ρ 1 c).Φ (Fin.last _) ⊢ Pipeline.ΦA spec1 c from Phi1_last (Vb2 m ρ) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdatsRun m ρ) ((pdatsRun m ρ 1 c).share_full fun _ => rfl)
      (Vb2 m ρ c) (Vb3 m ρ c) ((pdatsRun m ρ 1 c).arrAt · cfg1.N) (hF1 m ρ c) (hrest1 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## @main as segments, and the launch -/

/-- @main's eight items in order: the reshapes, the two regions, the five host stretches. -/
abbrev runSegs : List (Pipeline.Seg (pcfgs (F := F)) adm (pdatsRun m ρ) () defs₀ Variants.none noPairs noLevel) :=
  [ .host (hsegRun hostOps0 hostOps0_sub hostOps0_fresh (Wb0 m ρ)),
    .region (regRun0 m ρ),
    .region (regRun1 m ρ),
    .host (hsegRun hostOps2 hostOps2_sub hostOps2_fresh (Wb3 m ρ)),
    .host (hsegRun hostOps2_1 hostOps2_1_sub hostOps2_1_fresh (Wb4 m ρ)),
    .host (hsegRun hostOps2_2 hostOps2_2_sub hostOps2_2_fresh (Wb5 m ρ)),
    .host (hsegRun hostOps2_3 hostOps2_3_sub hostOps2_3_fresh (Wb6 m ρ)),
    .host (hsegRun hostOps2_4 hostOps2_4_sub hostOps2_4_fresh (Wb7 m ρ)) ]

set_option backward.isDefEq.respectTransparency.types false in
/-- THE RUN. From any memory with zero counters every weakly fair execution of @main terminates, and every final
    memory holds each unscoped buffer of each core at the end's contents `Wb8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Wb8 m ρ c b) := by
  refine Pipeline.θ_run_regions_kit_dev (pcfgs (F := F)) adm (pdatsRun m ρ) () cellOf_inj emb₁ defs₀ Variants.none noPairs noLevel m ρ main
    (fun _ => runSegs m ρ)
    (fun c Q => by
      rewrite [main_chain c, Pipeline.Seg.run_eq_chain,
        show (runSegs m ρ).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Wb0 m ρ c) ∗ Ride c)) (Tₙ := Tend m ρ)
    (hch := fun c => ⟨.rfl, .rfl, .rfl, .rfl, .rfl, .rfl, .rfl, .rfl, ride_end m ρ c⟩)
    (hinit := ?_)
    (QY := fun c s => ∀ b ∈ Pipeline.ucRefs τ sig, s.mem ((c : Thread nD τ).1, b) = Wb8 m ρ c b)
    (hfin := fun c s' => ?_) (hQ := fun _ h => h)
  · -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core's unscoped buffers are held at the launch memory; the register at `ρ c`; nothing owed
    refine Pipeline.initEach noPairs noLevel fun c => ?_
    rw [show unscopedBufs c (fun b => m ((c : Thread nD τ).loc b)) = StableHlo.held (c : Thread nD τ) (Pipeline.ucRefs τ sig) (Wb0 m ρ c)
      from Pipeline.unscopedBufs_held c (Wb0 m ρ c)]
    iintro ⟨⟨Hbufs, -, Howes, -, Hreg, -⟩, -⟩
    imodintro
    isplitl [Hbufs]; · iexact Hbufs
    isplitl [Hreg]; · iexists _; iexact Hreg
    iexists ∅; iexact Howes
  · -- the final memory, read at every unscoped buffer against the last thread state
    iintro ⟨⟨Hbufs, -⟩, HSI⟩
    unfold StableHlo.held
    imodintro
    iapply (pointsTo_read_all (Pipeline.ucRefs τ sig) (fun b => (((c : Thread nD τ)).1, b)) (Wb8 m ρ c) s')
    isplitl [Hbufs] <;> iassumption

/-- THE FRAME: every final memory holds both argument arrays as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs (onTc (τ := τ) (main (F := F))) ⟨m, fun _ => 0, ρ⟩).mono (fun r h c => ?_) (run_all m ρ)
  exact ⟨(h c _ (mem_uc main_arg0 (by decide))).trans (Wb8_main_arg0 m ρ c),
    (h c _ (mem_uc main_arg1 (by decide))).trans (Wb8_main_arg1 m ρ c)⟩

end Cert.KernelIdeal.Hand

end
-- ==== Proof.KiHost.lean ====
/-
  The kernel program's host operations after its two regions, read as values on the extended reals.

  After the regions the program holds the two cores' partial sums S[c, d, k], partial sizes N[c, 0, k] and
  partial hinge sums H[c, 0, 0].  Its next fourteen operations compute
      the variance term  v       = (0 + sum_c H[c, 0, 0]) / 16
      the centre table   C[k, d] = (0 + sum_c S[c, d, k]) / max(0 + sum_c N[c, 0, k], 1)
  and every operation after those is an operation of the tail both programs share, applied to C and v.  So the
  stretch is cut after its fourteenth operation: from any contents, what follows the cut leaves the shared tail
  of the centre table and the variance term then held (its operations are the tail's, one by one) and writes
  neither of the two.  The two values are stated as functions of the three arrays and read at an index: a sum over
  the core axis is a sum over Fin 2, the transposition swaps the two coordinates, the spread of the guarded sizes
  over the 32 coordinates reads row 0, the literal zero is 0 and the literal 1.0 is 1.
-/
import proofs.«429783_j3401614098830_3_alg».proof.Proof.Gen.KernelIdeal.Launch
import proofs.«429783_j3401614098830_3_alg».proof.Proof.Tail
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Value1

open Cert.KernelIdeal Cert.KernelIdeal.Gen
open Idealize.ShloMosaic Idealize.ShloMosaic.TcCoe Idealize.ShloMosaic.ValueIdx
open Idealize.SL Idealize.SL.Sem
open scoped BigOperators

/-! ## The host stretch after the regions, cut where the centre table is complete -/

section Cut
variable {F : FTy → Type} [FloatOps F]

/-- Running two lists of host operations one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The first fourteen operations after the regions: the variance term (the sum of the cores' partial hinge sums
    over sixteen) and the centre table (the cores' partial sums added, over the sizes guarded below by one,
    transposed to clusters by coordinates). -/
abbrev hostOps2a : List (HloOp τ sig (Elt F)) :=
  [ StableHlo.nullary main_cst (constant S_ .f32 0x00000000#32),
    StableHlo.binary main_v3 main_cst main_v4 ((fun x v => Host.reduceAdd x v reducesTo_S2x1x1_S_d0_1_2 h_S_) : (⟨S2x1x1, .f32⟩ : BufTy).Contents (Elt F) → (⟨S_, .f32⟩ : BufTy).Contents (Elt F) → (⟨S_, .f32⟩ : BufTy).Contents (Elt F)),
    StableHlo.nullary main_cst_0 (constant S_ .f32 0x41800000#32),
    StableHlo.binary main_v4 main_cst_0 main_v5 (Host.divf : (⟨S_, .f32⟩ : BufTy).Contents (Elt F) → (⟨S_, .f32⟩ : BufTy).Contents (Elt F) → (⟨S_, .f32⟩ : BufTy).Contents (Elt F)),
    StableHlo.nullary main_cst_1 (constant S_ .f32 0x00000000#32),
    StableHlo.binary main_v2_0 main_cst_1 main_v6 ((fun x v => Host.reduceAdd x v reducesTo_S2x32x16_S32x16_d0 h_S_) : (⟨S2x32x16, .f32⟩ : BufTy).Contents (Elt F) → (⟨S_, .f32⟩ : BufTy).Contents (Elt F) → (⟨S32x16, .f32⟩ : BufTy).Contents (Elt F)),
    StableHlo.nullary main_cst_2 (constant S_ .f32 0x00000000#32),
    StableHlo.binary main_v2_1 main_cst_2 main_v7 ((fun x v => Host.reduceAdd x v reducesTo_S2x1x16_S1x16_d0 h_S_) : (⟨S2x1x16, .f32⟩ : BufTy).Contents (Elt F) → (⟨S_, .f32⟩ : BufTy).Contents (Elt F) → (⟨S1x16, .f32⟩ : BufTy).Contents (Elt F)),
    StableHlo.nullary main_cst_3 (constant S_ .f32 0x3F800000#32),
    StableHlo.unary main_cst_3 main_v8 (broadcastInDim S1x16 ![] bcast_S_S1x16 : (⟨S_, .f32⟩ : BufTy).Contents (Elt F) → (⟨S1x16, .f32⟩ : BufTy).Contents (Elt F)),
    StableHlo.binary main_v7 main_v8 main_v9 (maximumf : (⟨S1x16, .f32⟩ : BufTy).Contents (Elt F) → (⟨S1x16, .f32⟩ : BufTy).Contents (Elt F) → (⟨S1x16, .f32⟩ : BufTy).Contents (Elt F)),
    StableHlo.unary main_v9 main_v10 (broadcastInDim S32x16 ![0, 1] bcast_S1x16_S32x16_0_1 : (⟨S1x16, .f32⟩ : BufTy).Contents (Elt F) → (⟨S32x16, .f32⟩ : BufTy).Contents (Elt F)),
    StableHlo.binary main_v6 main_v10 main_v11 (Host.divf : (⟨S32x16, .f32⟩ : BufTy).Contents (Elt F) → (⟨S32x16, .f32⟩ : BufTy).Contents (Elt F) → (⟨S32x16, .f32⟩ : BufTy).Contents (Elt F)),
    StableHlo.unary main_v11 main_v12 ((transpose S16x32 [1, 0] · transposes_S32x16_S16x32_1_0) : (⟨S32x16, .f32⟩ : BufTy).Contents (Elt F) → (⟨S16x32, .f32⟩ : BufTy).Contents (Elt F)) ]
/-- The fifteen that follow: they read the centre table and write neither it nor the variance term. -/
abbrev hostOps2b : List (HloOp τ sig (Elt F)) :=
  [ StableHlo.unary main_v12 main_v13 (broadcastInDim S16x1x32 ![0, 2] bcast_S16x32_S16x1x32_0_2 : (⟨S16x32, .f32⟩ : BufTy).Contents (Elt F) → (⟨S16x1x32, .f32⟩ : BufTy).Contents (Elt F)),
    StableHlo.unary main_v12 main_v14 (broadcastInDim S1x16x32 ![1, 2] bcast_S16x32_S1x16x32_1_2 : (⟨S16x32, .f32⟩ : BufTy).Contents (Elt F) → (⟨S1x16x32, .f32⟩ : BufTy).Contents (Elt F)),
    StableHlo.unary main_v13 main_v15 (broadcastInDim S16x16x32 ![0, 1, 2] bcast_S16x1x32_S16x16x32_0_1_2 : (⟨S16x1x32, .f32⟩ : BufTy).Contents (Elt F) → (⟨S16x16x32, .f32⟩ : BufTy).Contents (Elt F)),
    StableHlo.unary main_v14 main_v16 (broadcastInDim S16x16x32 ![0, 1, 2] bcast_S1x16x32_S16x16x32_0_1_2 : (⟨S1x16x32, .f32⟩ : BufTy).Contents (Elt F) → (⟨S16x16x32, .f32⟩ : BufTy).Contents (Elt F)),
    StableHlo.binary main_v15 main_v16 main_v17 (subf : (⟨S16x16x32, .f32⟩ : BufTy).Contents (Elt F) → (⟨S16x16x32, .f32⟩ : BufTy).Contents (Elt F) → (⟨S16x16x32, .f32⟩ : BufTy).Contents (Elt F)),
    StableHlo.binary main_v17 main_v17 main_v18 (mulf : (⟨S16x16x32, .f32⟩ : BufTy).Contents (Elt F) → (⟨S16x16x32, .f32⟩ : BufTy).Contents (Elt F) → (⟨S16x16x32, .f32⟩ : BufTy).Contents (Elt F)),
    StableHlo.nullary main_cst_4 (constant S_ .f32 0x00000000#32),
    StableHlo.binary main_v18 main_cst_4 main_v19 ((fun x v => Host.reduceAdd x v reducesTo_S16x16x32_S16x16_d2 h_S_) : (⟨S16x16x32, .f32⟩ : BufTy).Contents (Elt F) → (⟨S_, .f32⟩ : BufTy).Contents (Elt F) → (⟨S16x16, .f32⟩ : BufTy).Contents (Elt F)),
    StableHlo.nullary main_v20 (iotaInDim S16x16 32 0),
    StableHlo.nullary main_v21 (iotaInDim S16x16 32 1),
    StableHlo.nullary main_c (constantI S_ 32 0#32),
    StableHlo.unary main_c main_v22 (broadcastInDim S16x16 ![] bcast_S_S16x16 : (⟨S_, .i32⟩ : BufTy).Contents (Elt F) → (⟨S16x16, .i32⟩ : BufTy).Contents (Elt F)),
    StableHlo.binary main_v20 main_v22 main_v23 (addi : (⟨S16x16, .i32⟩ : BufTy).Contents (Elt F) → (⟨S16x16, .i32⟩ : BufTy).Contents (Elt F) → (⟨S16x16, .i32⟩ : BufTy).Contents (Elt F)),
    StableHlo.binary main_v23 main_v21 main_v24 (cmpi .eq : (⟨S16x16, .i32⟩ : BufTy).Contents (Elt F) → (⟨S16x16, .i32⟩ : BufTy).Contents (Elt F) → (⟨S16x16, .i1⟩ : BufTy).Contents (Elt F)),
    StableHlo.nullary main_cst_5 (constant S_ .f32 0x3F800000#32) ]
theorem hostOps2_cut : (hostOps2 : List (HloOp τ sig (Elt F))) = hostOps2a ++ hostOps2b := rfl
end Cut

/-! ## What follows the centre table is the shared tail -/

set_option maxRecDepth 8192 in
set_option maxHeartbeats 4000000 in
/-- From ANY contents `Va`, the operations after the centre table leave in the result buffer the shared tail of
    `Va`'s centre table and variance term: they are the tail's operations, one by one. -/
theorem tail_run (Va : Valuation τ sig (Elt Ideal)) :
    StableHlo.after hostOps2_4 (StableHlo.after hostOps2_3 (StableHlo.after hostOps2_2 (StableHlo.after hostOps2_1
      (StableHlo.after hostOps2b Va)))) (Proc.devRef .tc main_v44)
      = Cert.Hand.tail (Va (Proc.devRef .tc main_v12)) (Va (Proc.devRef .tc main_v5)) := by
  simp only [hostOps2b, hostOps2_1, hostOps2_2, hostOps2_3, hostOps2_4]
  after_results_simp
  rfl

/-! ## The centre table and the variance term as functions of the regions' output arrays -/

/-- The f32 word of 1.0 is the extended real 1. -/
theorem ofBits_one_f32 : Ideal.ofBits .f32 0x3F800000#32 = 1 := by
  simp [Ideal.ofBits, Ideal.ieee, -EReal.coe_mul]; norm_num

/-- The centre table [16, 32] of the cores' partial sums `s` [2, 32, 16] and partial sizes `n` [2, 1, 16]:
    each summed over the core axis from zero, the sizes guarded below by 1.0 and spread over the 32 coordinates,
    the quotient transposed. -/
def ctrOf (s : FVec Ideal S2x32x16 .f32) (n : FVec Ideal S2x1x16 .f32) : FVec Ideal S16x32 .f32 :=
  transpose S16x32 [1, 0]
    (Host.divf (Host.reduceAdd s (constant (F := Ideal) S_ .f32 0x00000000#32) reducesTo_S2x32x16_S32x16_d0 h_S_)
      (broadcastInDim S32x16 ![0, 1] bcast_S1x16_S32x16_0_1
        (maximumf (Host.reduceAdd n (constant (F := Ideal) S_ .f32 0x00000000#32) reducesTo_S2x1x16_S1x16_d0 h_S_)
          (broadcastInDim S1x16 ![] bcast_S_S1x16 (constant (F := Ideal) S_ .f32 0x3F800000#32)))))
    transposes_S32x16_S16x32_1_0

/-- The variance term of the cores' partial hinge sums `v` [2, 1, 1]: their sum from zero, over the literal 16.0. -/
def vtOf (v : FVec Ideal S2x1x1 .f32) : FVec Ideal S_ .f32 :=
  Host.divf (Host.reduceAdd v (constant (F := Ideal) S_ .f32 0x00000000#32) reducesTo_S2x1x1_S_d0_1_2 h_S_)
    (constant (F := Ideal) S_ .f32 0x41800000#32)

/-- Inserting core `cc` before (coordinate `d`, cluster `k`) is the index (cc, d, k). -/
theorem lift_sums (h : S2x32x16.Reduces [0] S32x16) (d : Fin 32) (k : Fin 16) (cc : Fin 2) :
    h.lift (ix2 d k) cc = ix3 cc d k := by
  funext a; apply Fin.ext
  match a with
  | ⟨0, _⟩ => rfl
  | ⟨1, _⟩ => rfl
  | ⟨2, _⟩ => rfl

theorem lift_cnts (h : S2x1x16.Reduces [0] S1x16) (k : Fin 16) (cc : Fin 2) :
    h.lift (ix2 (0 : Fin 1) k) cc = ix3 cc (0 : Fin 1) k := by
  funext a; apply Fin.ext
  match a with
  | ⟨0, _⟩ => rfl
  | ⟨1, _⟩ => rfl
  | ⟨2, _⟩ => rfl

/-- Entry (cluster `k`, coordinate `d`) of the centre table: the two cores' partial sums added, over the two
    partial sizes added and guarded below by one. -/
theorem ctrOf_apply (s : FVec Ideal S2x32x16 .f32) (n : FVec Ideal S2x1x16 .f32) (k : Fin 16) (d : Fin 32) :
    ctrOf s n (ix2 k d)
      = Ideal.div (∑ cc : Fin 2, s (ix3 cc d k)) (max (∑ cc : Fin 2, n (ix3 cc (0 : Fin 1) k)) 1) := by
  unfold ctrOf
  refine (transpose_apply [1, 0] _ transposes_S32x16_S16x32_1_0 (ix2 k d) (ix2 d k)
    (fun b => by match b with | ⟨0, _⟩ => rfl | ⟨1, _⟩ => rfl)).trans ?_
  have hs : S2x32x16.Reduces [0] S32x16 := by decide
  have hn : S2x1x16.Reduces [0] S1x16 := by decide
  have e1 : Host.reduceAdd s (constant (F := Ideal) S_ .f32 0x00000000#32) reducesTo_S2x32x16_S32x16_d0 h_S_ (ix2 d k)
      = ∑ cc : Fin 2, s (ix3 cc d k) := by
    refine (Ideal.hostReduceAdd_single reducesTo_S2x32x16_S32x16_d0 hs s _ (ix2 d k)).trans ?_
    rw [constant_apply, Ideal.ofBits_zero_f32, zero_add]
    exact Finset.sum_congr rfl fun cc _ => congrArg s (lift_sums hs d k cc)
  have e2 : Host.reduceAdd n (constant (F := Ideal) S_ .f32 0x00000000#32) reducesTo_S2x1x16_S1x16_d0 h_S_ (ix2 (0 : Fin 1) k)
      = ∑ cc : Fin 2, n (ix3 cc (0 : Fin 1) k) := by
    refine (Ideal.hostReduceAdd_single reducesTo_S2x1x16_S1x16_d0 hn n _ (ix2 (0 : Fin 1) k)).trans ?_
    rw [constant_apply, Ideal.ofBits_zero_f32, zero_add]
    exact Finset.sum_congr rfl fun cc _ => congrArg n (lift_cnts hn k cc)
  show Ideal.div (Host.reduceAdd s (constant (F := Ideal) S_ .f32 0x00000000#32) reducesTo_S2x32x16_S32x16_d0 h_S_ (ix2 d k))
      (broadcastInDim S32x16 ![0, 1] bcast_S1x16_S32x16_0_1
        (maximumf (Host.reduceAdd n (constant (F := Ideal) S_ .f32 0x00000000#32) reducesTo_S2x1x16_S1x16_d0 h_S_)
          (broadcastInDim S1x16 ![] bcast_S_S1x16 (constant (F := Ideal) S_ .f32 0x3F800000#32))) (ix2 d k)) = _
  rw [e1, broadcastInDim_apply ![0, 1] bcast_S1x16_S32x16_0_1 _ (ix2 d k) (ix2 (0 : Fin 1) k)
    (fun a => by match a with | ⟨0, _⟩ => rfl | ⟨1, _⟩ => rfl)]
  rw [maximumf_apply, e2, broadcastInDim_apply ![] bcast_S_S1x16 _ (ix2 (0 : Fin 1) k) ix0 (fun a => a.elim0),
    constant_apply, ofBits_one_f32]

/-- The two cores as the indices of a [2, 1, 1] array. -/
def coreEquiv : Fin 2 ≃ S2x1x1.Idx where
  toFun cc := ix3 cc (0 : Fin 1) (0 : Fin 1)
  invFun j := j 0
  left_inv cc := rfl
  right_inv j := by
    funext a; apply Fin.ext
    match a with
    | ⟨0, _⟩ => rfl
    | ⟨1, _⟩ => have h : (j 1).val < 1 := (j 1).isLt; show 0 = (j 1).val; omega
    | ⟨2, _⟩ => have h : (j 2).val < 1 := (j 2).isLt; show 0 = (j 2).val; omega

/-- The variance term at its one index: the two cores' partial hinge sums added, over the literal 16.0. -/
theorem vtOf_apply (v : FVec Ideal S2x1x1 .f32) (i : S_.Idx) :
    vtOf v i = Ideal.div (∑ cc : Fin 2, v (ix3 cc (0 : Fin 1) (0 : Fin 1))) (Ideal.ofBits .f32 0x41800000#32) := by
  unfold vtOf
  have e : Host.reduceAdd v (constant (F := Ideal) S_ .f32 0x00000000#32) reducesTo_S2x1x1_S_d0_1_2 h_S_ i
      = ∑ cc : Fin 2, v (ix3 cc (0 : Fin 1) (0 : Fin 1)) := by
    refine (Ideal.hostReduceAdd_total reducesTo_S2x1x1_S_d0_1_2 (fun b => b.elim0) v _ i).trans ?_
    rw [constant_apply, Ideal.ofBits_zero_f32, zero_add]
    exact (Fintype.sum_equiv coreEquiv _ _ fun _ => rfl).symm
  show Ideal.div (Host.reduceAdd v (constant (F := Ideal) S_ .f32 0x00000000#32) reducesTo_S2x1x1_S_d0_1_2 h_S_ i)
      (constant (F := Ideal) S_ .f32 0x41800000#32 i) = _
  rw [e, constant_apply]

/-! ## The cut stretch read at the centre table and at the variance term -/

/-- From any contents `W`, the first fourteen operations leave the centre table of `W`'s two partial-sum arrays. -/
theorem cut_ctr (W : Valuation τ sig (Elt Ideal)) :
    StableHlo.after hostOps2a W (Proc.devRef .tc main_v12)
      = ctrOf (W (Proc.devRef .tc main_v2_0)) (W (Proc.devRef .tc main_v2_1)) := by
  simp only [hostOps2a]
  after_results
  rfl

/-- … and the variance term of `W`'s partial hinge sums. -/
theorem cut_vt (W : Valuation τ sig (Elt Ideal)) :
    StableHlo.after hostOps2a W (Proc.devRef .tc main_v5) = vtOf (W (Proc.devRef .tc main_v3)) := by
  simp only [hostOps2a]
  after_results
  rfl

/-- The fifteen operations after the cut write neither the centre table … -/
theorem keeps_ctr (Va : Valuation τ sig (Elt Ideal)) :
    StableHlo.after hostOps2b Va (Proc.devRef .tc main_v12) = Va (Proc.devRef .tc main_v12) := by
  simp only [hostOps2b]
  after_results_simp

/-- … nor the variance term. -/
theorem keeps_vt (Va : Valuation τ sig (Elt Ideal)) :
    StableHlo.after hostOps2b Va (Proc.devRef .tc main_v5) = Va (Proc.devRef .tc main_v5) := by
  simp only [hostOps2b]
  after_results_simp

end Cert.KernelIdeal.Value1

end
-- ==== Proof.KiPay0.lean ====
/-
  Region 0's payloads read at an index, on the extended reals: the one-hot block is an if-then-else on the label,
  the sums block adds to what it held the lane sum of the data against the one-hot entries, and the counts block
  adds the lane sum of the one-hot entries themselves.
-/
import proofs.«429783_j3401614098830_3_alg».proof.Proof.Gen.KernelIdeal.Skeleton
import Idealize.ShloMosaic.Lib.ValueLayout
import Idealize.ShloMosaic.PureOps.Ideal.Laws

noncomputable section

namespace Cert.KernelIdeal.Val0

open Idealize.ShloMosaic Idealize.ShloMosaic.ValueIdx Cert.KernelIdeal Cert.KernelIdeal.Gen

/-! ### Words and literals -/

/-- The bf16 word 0x3F80 denotes 1. -/
theorem ofBits_bf16_one : Ideal.ofBits .bf16 0x3F80#16 = 1 := by
  simp [Ideal.ofBits, Ideal.ieee, -EReal.coe_mul]; norm_num

/-- An equality test of two words, widened and read as a signed integer, is 1 where they agree and 0 where not. -/
theorem eq_bit_real (a b : BitVec 32) :
    ((((IntOp.cmpi .eq a b).setWidth 32).toInt : ℝ) : EReal) = if a = b then 1 else 0 := by
  by_cases h : a = b
  · subst h
    simp [IntOp.cmpi]
  · have hb : (a == b) = false := by simpa using h
    rw [if_neg h]
    simp [IntOp.cmpi, hb]

/-! ### The one-hot block -/

/-- Entry (k, j) of the one-hot block: 1 where lane j carries label k, else 0. -/
theorem pay3_apply (lb : Vec Ideal S1x32768 .i32) (k : Fin 16) (j : Fin 32768) :
    k0_pay3 (F := Ideal) lb (ix2 k j) = if BitVec.ofNat 32 k.val = lb (ix2 (0 : Fin 1) j) then 1 else 0 := by
  have e1 : iota .tc S16x32768 32 [0] iota_S16x32768_d0_w32 (ix2 k j) = BitVec.ofNat 32 k.val :=
    iota_single_apply .tc S16x32768 32 0 iota_S16x32768_d0_w32 (ix2 k j)
  have e2 : broadcastTo S16x32768 (shapeCast S1x32768 lb shapeCasts_S1x32768_S1x32768) broadcasts_S1x32768_S16x32768 (ix2 k j)
      = lb (ix2 (0 : Fin 1) j) := by
    rw [shapeCast_self]
    exact broadcastTo_1b_ab_apply lb broadcasts_S1x32768_S16x32768 k j
  unfold k0_pay3
  show ((((IntOp.cmpi .eq (iota .tc S16x32768 32 [0] iota_S16x32768_d0_w32 (ix2 k j))
      (broadcastTo S16x32768 (shapeCast S1x32768 lb shapeCasts_S1x32768_S1x32768) broadcasts_S1x32768_S16x32768 (ix2 k j))).setWidth 32).toInt : ℝ) : EReal) = _
  rw [e1, e2]
  exact eq_bit_real _ _

/-! ### The two products against the one-hot block

Both contract the lanes: entry (r, k) of the product of a block [R, 32768] with the one-hot block [16, 32768] is the sum
over the lanes j of (r, j) times (k, j). -/

/-- The sums product, left operand: the row is the result's row … -/
theorem lhsSum_0 (i : S32x16.Idx) (q : dot_S32x32768_S16x32768_S32x16_1_1_0_0_n_n.contr.Idx) :
    (dot_S32x32768_S16x32768_S32x16_1_1_0_0_n_n.lhsIdx i q 0).val = (i 0).val := rfl
/-- … and the lane is the contraction's coordinate. -/
theorem lhsSum_1 (i : S32x16.Idx) (q : dot_S32x32768_S16x32768_S32x16_1_1_0_0_n_n.contr.Idx) :
    (dot_S32x32768_S16x32768_S32x16_1_1_0_0_n_n.lhsIdx i q 1).val = (q ⟨0, Nat.one_pos⟩).val :=
  dot_S32x32768_S16x32768_S32x16_1_1_0_0_n_n.lhsIdx_val_of_single rfl i q
/-- The sums product, right operand: the row is the result's column … -/
theorem rhsSum_0 (i : S32x16.Idx) (q : dot_S32x32768_S16x32768_S32x16_1_1_0_0_n_n.contr.Idx) :
    (dot_S32x32768_S16x32768_S32x16_1_1_0_0_n_n.rhsIdx i q 0).val = (i 1).val := rfl
/-- … and the lane is the contraction's coordinate. -/
theorem rhsSum_1 (i : S32x16.Idx) (q : dot_S32x32768_S16x32768_S32x16_1_1_0_0_n_n.contr.Idx) :
    (dot_S32x32768_S16x32768_S32x16_1_1_0_0_n_n.rhsIdx i q 1).val = (q ⟨0, Nat.one_pos⟩).val :=
  dot_S32x32768_S16x32768_S32x16_1_1_0_0_n_n.rhsIdx_val_of_single rfl i q

/-- The sums product into zeros, at (d, k): the lane sum of A (d, j) B (k, j). -/
theorem sums_matmul_apply (A : FVec Ideal S32x32768 .bf16) (B : FVec Ideal S16x32768 .bf16) (d : Fin 32) (k : Fin 16) :
    matmul dot_S32x32768_S16x32768_S32x16_1_1_0_0_n_n none A B (constant (F := Ideal) S32x16 .f32 0x00000000#32) (ix2 d k)
      = ∑ j : Fin 32768, A (ix2 d j) * B (ix2 k j) := by
  show FloatOps.matmul dot_S32x32768_S16x32768_S32x16_1_1_0_0_n_n none A B (constant (F := Ideal) S32x16 .f32 0x00000000#32) (ix2 d k) = _
  rw [Ideal.matmul_constant_zero_apply,
    ← Equiv.sum_comp (contrEquiv1 dot_S32x32768_S16x32768_S32x16_1_1_0_0_n_n 32768 rfl rfl).symm]
  refine Finset.sum_congr rfl fun j _ => ?_
  have c := contrEquiv1_symm_val dot_S32x32768_S16x32768_S32x16_1_1_0_0_n_n 32768 rfl rfl j
  have l : dot_S32x32768_S16x32768_S32x16_1_1_0_0_n_n.lhsIdx (ix2 d k)
      ((contrEquiv1 dot_S32x32768_S16x32768_S32x16_1_1_0_0_n_n 32768 rfl rfl).symm j) = ix2 d j := by
    funext ax; apply Fin.ext
    match ax with
    | ⟨0, _⟩ => exact lhsSum_0 _ _
    | ⟨1, _⟩ => exact (lhsSum_1 _ _).trans c
  have r : dot_S32x32768_S16x32768_S32x16_1_1_0_0_n_n.rhsIdx (ix2 d k)
      ((contrEquiv1 dot_S32x32768_S16x32768_S32x16_1_1_0_0_n_n 32768 rfl rfl).symm j) = ix2 k j := by
    funext ax; apply Fin.ext
    match ax with
    | ⟨0, _⟩ => exact rhsSum_0 _ _
    | ⟨1, _⟩ => exact (rhsSum_1 _ _).trans c
  rw [l, r]

/-- The counts product, left operand: the one row … -/
theorem lhsCnt_0 (i : S1x16.Idx) (q : dot_S1x32768_S16x32768_S1x16_1_1_0_0_n_n.contr.Idx) :
    (dot_S1x32768_S16x32768_S1x16_1_1_0_0_n_n.lhsIdx i q 0).val = (i 0).val := rfl
/-- … and the lane is the contraction's coordinate. -/
theorem lhsCnt_1 (i : S1x16.Idx) (q : dot_S1x32768_S16x32768_S1x16_1_1_0_0_n_n.contr.Idx) :
    (dot_S1x32768_S16x32768_S1x16_1_1_0_0_n_n.lhsIdx i q 1).val = (q ⟨0, Nat.one_pos⟩).val :=
  dot_S1x32768_S16x32768_S1x16_1_1_0_0_n_n.lhsIdx_val_of_single rfl i q
/-- The counts product, right operand: the row is the result's column … -/
theorem rhsCnt_0 (i : S1x16.Idx) (q : dot_S1x32768_S16x32768_S1x16_1_1_0_0_n_n.contr.Idx) :
    (dot_S1x32768_S16x32768_S1x16_1_1_0_0_n_n.rhsIdx i q 0).val = (i 1).val := rfl
/-- … and the lane is the contraction's coordinate. -/
theorem rhsCnt_1 (i : S1x16.Idx) (q : dot_S1x32768_S16x32768_S1x16_1_1_0_0_n_n.contr.Idx) :
    (dot_S1x32768_S16x32768_S1x16_1_1_0_0_n_n.rhsIdx i q 1).val = (q ⟨0, Nat.one_pos⟩).val :=
  dot_S1x32768_S16x32768_S1x16_1_1_0_0_n_n.rhsIdx_val_of_single rfl i q

/-- The counts product into zeros, at (0, k): the lane sum of A (0, j) B (k, j). -/
theorem cnts_matmul_apply (A : FVec Ideal S1x32768 .bf16) (B : FVec Ideal S16x32768 .bf16) (k : Fin 16) :
    matmul dot_S1x32768_S16x32768_S1x16_1_1_0_0_n_n none A B (constant (F := Ideal) S1x16 .f32 0x00000000#32) (ix2 (0 : Fin 1) k)
      = ∑ j : Fin 32768, A (ix2 (0 : Fin 1) j) * B (ix2 k j) := by
  show FloatOps.matmul dot_S1x32768_S16x32768_S1x16_1_1_0_0_n_n none A B (constant (F := Ideal) S1x16 .f32 0x00000000#32) (ix2 (0 : Fin 1) k) = _
  rw [Ideal.matmul_constant_zero_apply,
    ← Equiv.sum_comp (contrEquiv1 dot_S1x32768_S16x32768_S1x16_1_1_0_0_n_n 32768 rfl rfl).symm]
  refine Finset.sum_congr rfl fun j _ => ?_
  have c := contrEquiv1_symm_val dot_S1x32768_S16x32768_S1x16_1_1_0_0_n_n 32768 rfl rfl j
  have l : dot_S1x32768_S16x32768_S1x16_1_1_0_0_n_n.lhsIdx (ix2 (0 : Fin 1) k)
      ((contrEquiv1 dot_S1x32768_S16x32768_S1x16_1_1_0_0_n_n 32768 rfl rfl).symm j) = ix2 (0 : Fin 1) j := by
    funext ax; apply Fin.ext
    match ax with
    | ⟨0, _⟩ => exact lhsCnt_0 _ _
    | ⟨1, _⟩ => exact (lhsCnt_1 _ _).trans c
  have r : dot_S1x32768_S16x32768_S1x16_1_1_0_0_n_n.rhsIdx (ix2 (0 : Fin 1) k)
      ((contrEquiv1 dot_S1x32768_S16x32768_S1x16_1_1_0_0_n_n 32768 rfl rfl).symm j) = ix2 k j := by
    funext ax; apply Fin.ext
    match ax with
    | ⟨0, _⟩ => exact rhsCnt_0 _ _
    | ⟨1, _⟩ => exact (rhsCnt_1 _ _).trans c
  rw [l, r]

/-! ### The two stored blocks -/

/-- The sums block after a step, at (0, d, k): what it held plus the lane sum of the data's row d over the lanes
    that carry label k. -/
theorem pay4_apply (xb : FVec Ideal S32x32768 .f32) (lb : IVec S1x32768 32) (a : FVec Ideal S1x32x16 .f32)
    (d : Fin 32) (k : Fin 16) :
    k0_pay4 (F := Ideal) xb lb a (ix3 (0 : Fin 1) d k)
      = a (ix3 (0 : Fin 1) d k)
        + ∑ j : Fin 32768, xb (ix2 d j) * (if BitVec.ofNat 32 k.val = lb (ix2 (0 : Fin 1) j) then 1 else 0) := by
  unfold k0_pay4
  refine (shapeCast_ab_1ab_apply _ shapeCasts_S32x16_S1x32x16 (0 : Fin 1) d k).trans ?_
  refine congrArg₂ (· + ·) (shapeCast_1ab_ab_apply a shapeCasts_S1x32x16_S32x16 d k) ?_
  refine (sums_matmul_apply _ _ d k).trans ?_
  refine Finset.sum_congr rfl fun j _ => ?_
  refine congrArg₂ (· * ·) ?_ (pay3_apply lb k j)
  exact congrFun (shapeCast_self xb shapeCasts_S32x32768_S32x32768) (ix2 d j)

/-- The counts block after a step, at (0, 0, k): what it held plus the number of lanes that carry label k. -/
theorem pay5_apply (lb : IVec S1x32768 32) (a : FVec Ideal S1x1x16 .f32) (k : Fin 16) :
    k0_pay5 (F := Ideal) lb a (ix3 (0 : Fin 1) (0 : Fin 1) k)
      = a (ix3 (0 : Fin 1) (0 : Fin 1) k)
        + ∑ j : Fin 32768, (if BitVec.ofNat 32 k.val = lb (ix2 (0 : Fin 1) j) then (1 : EReal) else 0) := by
  unfold k0_pay5
  refine (shapeCast_ab_1ab_apply _ shapeCasts_S1x16_S1x1x16 (0 : Fin 1) (0 : Fin 1) k).trans ?_
  refine congrArg₂ (· + ·) (shapeCast_1ab_ab_apply a shapeCasts_S1x1x16_S1x16 (0 : Fin 1) k) ?_
  refine (cnts_matmul_apply _ _ k).trans ?_
  refine Finset.sum_congr rfl fun j _ => ?_
  refine (congrArg₂ (· * ·) ofBits_bf16_one (pay3_apply lb k j)).trans ?_
  exact one_mul _

/-- The sums block as the first step finds it after the reset: zero. -/
theorem pay1_apply (i : S1x32x16.Idx) : k0_pay1 (F := Ideal) i = 0 := Ideal.ofBits_zero_f32
/-- The counts block as the first step finds it after the reset: zero. -/
theorem pay2_apply (i : S1x1x16.Idx) : k0_pay2 (F := Ideal) i = 0 := Ideal.ofBits_zero_f32

end Cert.KernelIdeal.Val0

end
-- ==== Proof.KiVal0.lean ====
/-
  Region 0's two output arrays as sums over the points: entry (core, d, k) of the sums array is the core's partial sum of
  coordinate d over cluster k, and entry (core, 0, k) of the counts array is the core's partial size of cluster k.
  A core's eight steps each add one block of 32768 lanes; the block is written back after the core's last step.
-/
import proofs.«429783_j3401614098830_3_alg».proof.Proof.KiR0
import proofs.«429783_j3401614098830_3_alg».proof.Proof.KiPay0
import proofs.«429783_j3401614098830_3_alg».proof.Proof.Spec
import Idealize.ShloMosaic.Lib.Pipeline.Value

noncomputable section

namespace Cert.KernelIdeal.Val0

open Idealize.ShloMosaic Idealize.ShloMosaic.ValueIdx Idealize.ShloMosaic.TcCoe
open Idealize.ShloMosaic.Pipeline (Dat)
open Cert.KernelIdeal Cert.KernelIdeal.Gen Cert.KernelIdeal.Hand Cert.Hand.Spec

-- the TensorCore's buffer contents when region 0 is entered
variable (V : (c : Dev nD) → (b : Ref sig .tc) → Buf (Elt Ideal) ((c : Thread nD τ).loc b))

/-! ### The arrays and blocks at their literal types -/

/-- The [32, 524288] data array as region 0 finds it. -/
abbrev xarr (c : Dev nD) : FVec Ideal S32x524288 .f32 := V c main_v0
/-- The [1, 524288] label array as region 0 finds it. -/
abbrev larr (c : Dev nD) : IVec S1x524288 32 := V c main_v1
/-- Coordinate d of point n. -/
def xOf (c : Dev nD) : Fin 32 → Fin 524288 → EReal := fun d n => xarr V c (ix2 d n)
/-- The label of point n. -/
def lOf (c : Dev nD) : Fin 524288 → BitVec 32 := fun n => larr V c (ix2 (0 : Fin 1) n)
theorem xOf_apply (c : Dev nD) (d : Fin 32) (n : Fin 524288) : xOf V c d n = xarr V c (ix2 d n) := rfl
theorem lOf_apply (c : Dev nD) (n : Fin 524288) : lOf V c n = larr V c (ix2 (0 : Fin 1) n) := rfl
/-- The data block of grid point t. -/
abbrev xblk (c : Dev nD) (t : Fin cfg0.N) : FVec Ideal S32x32768 .f32 := iblk0 V c 0 t
/-- The label block of grid point t. -/
abbrev lblk (c : Dev nD) (t : Fin cfg0.N) : IVec S1x32768 32 := iblk0 V c 1 t

/-! ### Where the blocks sit -/

/-- The block indices over the 16 grid points: the data and label blocks move along the lanes with the point, the
    two output blocks along the core axis with the point's core. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- Lane j of point t's data block is point t * 32768 + j of the array. -/
theorem xblk_apply (c : Dev nD) (t : Fin cfg0.N) (d : Fin 32) (j : Fin 32768) (n : Fin 524288)
    (hn : n.val = t.val * 32768 + j.val) : xblk V c t (ix2 d j) = xarr V c (ix2 d n) := by
  obtain ⟨e0, e1, -⟩ := idx_facts t
  show V c main_v0 (((cfg0.win 0).blk t).view.emb (ix2 d j)) = V c main_v0 (ix2 d n)
  refine congrArg _ (funext fun a => Fin.ext ?_)
  match a with
  | ⟨0, _⟩ => show win0_0.index t (0 : Fin 2) * 32 + 1 * d.val = d.val; omega
  | ⟨1, _⟩ => show win0_0.index t (1 : Fin 2) * 32768 + 1 * j.val = n.val; omega

/-- Lane j of point t's label block is point t * 32768 + j of the array. -/
theorem lblk_apply (c : Dev nD) (t : Fin cfg0.N) (j : Fin 32768) (n : Fin 524288)
    (hn : n.val = t.val * 32768 + j.val) : lblk V c t (ix2 (0 : Fin 1) j) = larr V c (ix2 (0 : Fin 1) n) := by
  obtain ⟨-, -, e0, e1, -⟩ := idx_facts t
  show V c main_v1 (((cfg0.win 1).blk t).view.emb (ix2 (0 : Fin 1) j)) = V c main_v1 (ix2 (0 : Fin 1) n)
  refine congrArg _ (funext fun a => Fin.ext ?_)
  match a with
  | ⟨0, _⟩ => show win0_1.index t (0 : Fin 2) * 1 + 1 * 0 = 0; omega
  | ⟨1, _⟩ => show win0_1.index t (1 : Fin 2) * 32768 + 1 * j.val = n.val; omega

/-! ### One step's contribution -/

/-- Block m's contribution to the sum of coordinate d over cluster k (zero past the sixteen blocks). -/
def sTerm (x : Fin 32 → Fin 524288 → EReal) (l : Fin 524288 → BitVec 32) (d : Fin 32) (k : Fin 16) (m : ℕ) : EReal :=
  if hm : m < 16 then
    ∑ j : Fin 32768, x d ⟨m * 32768 + j.val, by have := j.isLt; omega⟩ * hot l k ⟨m * 32768 + j.val, by have := j.isLt; omega⟩
  else 0

/-- Block m's contribution to the size of cluster k. -/
def cTerm (l : Fin 524288 → BitVec 32) (k : Fin 16) (m : ℕ) : EReal :=
  if hm : m < 16 then ∑ j : Fin 32768, hot l k ⟨m * 32768 + j.val, by have := j.isLt; omega⟩ else 0

/-- A step adds its block's contribution to the sums block. -/
theorem step_sums (c : Dev nD) (t : Fin cfg0.N) (a : FVec Ideal S1x32x16 .f32) (d : Fin 32) (k : Fin 16) :
    k0_pay4 (F := Ideal) (xblk V c t) (lblk V c t) a (ix3 (0 : Fin 1) d k)
      = a (ix3 (0 : Fin 1) d k) + sTerm (xOf V c) (lOf V c) d k t.val := by
  have hN : t.val < 16 := lt_of_lt_of_eq t.isLt N_0
  refine (pay4_apply (xblk V c t) (lblk V c t) a d k).trans ?_
  unfold sTerm
  rw [dif_pos hN]
  refine congrArg (a (ix3 (0 : Fin 1) d k) + ·) (Finset.sum_congr rfl fun j _ => ?_)
  have hj := j.isLt
  rw [xblk_apply V c t d j ⟨t.val * 32768 + j.val, by omega⟩ rfl,
    lblk_apply V c t j ⟨t.val * 32768 + j.val, by omega⟩ rfl]
  rfl

/-- A step adds its block's contribution to the counts block. -/
theorem step_cnts (c : Dev nD) (t : Fin cfg0.N) (a : FVec Ideal S1x1x16 .f32) (k : Fin 16) :
    k0_pay5 (F := Ideal) (lblk V c t) a (ix3 (0 : Fin 1) (0 : Fin 1) k)
      = a (ix3 (0 : Fin 1) (0 : Fin 1) k) + cTerm (lOf V c) k t.val := by
  have hN : t.val < 16 := lt_of_lt_of_eq t.isLt N_0
  refine (pay5_apply (lblk V c t) a k).trans ?_
  unfold cTerm
  rw [dif_pos hN]
  refine congrArg (a (ix3 (0 : Fin 1) (0 : Fin 1) k) + ·) (Finset.sum_congr rfl fun j _ => ?_)
  have hj := j.isLt
  rw [lblk_apply V c t j ⟨t.val * 32768 + j.val, by omega⟩ rfl]
  rfl

/-! ### The accumulators after each point -/

/-- After point n the sums block holds the contributions of the blocks of n's core up to n. -/
theorem sums_inv (c : Dev nD) (d : Fin 32) (k : Fin 16) (n : ℕ) : ∀ hn : n < cfg0.N,
    (outsAt0 V c n hn).1 (ix3 (0 : Fin 1) d k)
      = ∑ m ∈ Finset.Ico (8 * (n / 8)) (n + 1), sTerm (xOf V c) (lOf V c) d k m := by
  induction n with
  | zero =>
    intro hn
    rw [outsAt0_first V c ⟨0, hn⟩ rfl]
    refine (step_sums V c ⟨0, hn⟩ k0_pay1 d k).trans ?_
    rw [pay1_apply, zero_add]
    show _ = ∑ m ∈ Finset.Ico 0 (0 + 1), sTerm (xOf V c) (lOf V c) d k m
    rw [Nat.Ico_succ_singleton, Finset.sum_singleton]
  | succ n ih =>
    intro hn
    by_cases h : (n + 1) % 8 = 0
    · rw [outsAt0_first V c ⟨n + 1, hn⟩ h]
      refine (step_sums V c ⟨n + 1, hn⟩ k0_pay1 d k).trans ?_
      rw [pay1_apply, zero_add, show 8 * ((n + 1) / 8) = n + 1 by omega, Nat.Ico_succ_singleton, Finset.sum_singleton]
    · rw [outsAt0_next V c ⟨n + 1, hn⟩ h]
      refine (step_sums V c ⟨n + 1, hn⟩ _ d k).trans ?_
      show (outsAt0 V c n (Nat.lt_of_succ_lt hn)).1 (ix3 (0 : Fin 1) d k) + sTerm (xOf V c) (lOf V c) d k (n + 1) = _
      rw [ih (Nat.lt_of_succ_lt hn), show 8 * ((n + 1) / 8) = 8 * (n / 8) by omega,
        Finset.sum_Ico_succ_top (show 8 * (n / 8) ≤ n + 1 by omega)]

/-- After point n the counts block holds the contributions of the blocks of n's core up to n. -/
theorem cnts_inv (c : Dev nD) (k : Fin 16) (n : ℕ) : ∀ hn : n < cfg0.N,
    (outsAt0 V c n hn).2 (ix3 (0 : Fin 1) (0 : Fin 1) k)
      = ∑ m ∈ Finset.Ico (8 * (n / 8)) (n + 1), cTerm (lOf V c) k m := by
  induction n with
  | zero =>
    intro hn
    rw [outsAt0_first V c ⟨0, hn⟩ rfl]
    refine (step_cnts V c ⟨0, hn⟩ k0_pay2 k).trans ?_
    rw [pay2_apply, zero_add]
    show _ = ∑ m ∈ Finset.Ico 0 (0 + 1), cTerm (lOf V c) k m
    rw [Nat.Ico_succ_singleton, Finset.sum_singleton]
  | succ n ih =>
    intro hn
    by_cases h : (n + 1) % 8 = 0
    · rw [outsAt0_first V c ⟨n + 1, hn⟩ h]
      refine (step_cnts V c ⟨n + 1, hn⟩ k0_pay2 k).trans ?_
      rw [pay2_apply, zero_add, show 8 * ((n + 1) / 8) = n + 1 by omega, Nat.Ico_succ_singleton, Finset.sum_singleton]
    · rw [outsAt0_next V c ⟨n + 1, hn⟩ h]
      refine (step_cnts V c ⟨n + 1, hn⟩ _ k).trans ?_
      show (outsAt0 V c n (Nat.lt_of_succ_lt hn)).2 (ix3 (0 : Fin 1) (0 : Fin 1) k) + cTerm (lOf V c) k (n + 1) = _
      rw [ih (Nat.lt_of_succ_lt hn), show 8 * ((n + 1) / 8) = 8 * (n / 8) by omega,
        Finset.sum_Ico_succ_top (show 8 * (n / 8) ≤ n + 1 by omega)]

/-- A core's eight contributions are its partial sum. -/
theorem sum_core_sums (x : Fin 32 → Fin 524288 → EReal) (l : Fin 524288 → BitVec 32) (cc : Fin 2) (d : Fin 32) (k : Fin 16) :
    ∑ m ∈ Finset.Ico (8 * cc.val) (8 * cc.val + 8), sTerm x l d k m = sumsPC x l cc d k := by
  have hcc := cc.isLt
  rw [Finset.sum_Ico_eq_sum_range, show 8 * cc.val + 8 - 8 * cc.val = 8 by omega, Finset.sum_range]
  unfold sumsPC
  refine Finset.sum_congr rfl fun i _ => ?_
  have hi := i.isLt
  unfold sTerm
  rw [dif_pos (show 8 * cc.val + i.val < 16 by omega)]
  refine Finset.sum_congr rfl fun j _ => ?_
  have e : (⟨(8 * cc.val + i.val) * 32768 + j.val, by have := j.isLt; omega⟩ : Fin 524288) = pos cc i j :=
    Fin.ext (by show (8 * cc.val + i.val) * 32768 + j.val = (cc.val * 8 + i.val) * 32768 + j.val; omega)
  rw [e]

/-- A core's eight contributions are its partial size. -/
theorem sum_core_cnts (l : Fin 524288 → BitVec 32) (cc : Fin 2) (k : Fin 16) :
    ∑ m ∈ Finset.Ico (8 * cc.val) (8 * cc.val + 8), cTerm l k m = cntsPC l cc k := by
  have hcc := cc.isLt
  rw [Finset.sum_Ico_eq_sum_range, show 8 * cc.val + 8 - 8 * cc.val = 8 by omega, Finset.sum_range]
  unfold cntsPC
  refine Finset.sum_congr rfl fun i _ => ?_
  have hi := i.isLt
  unfold cTerm
  rw [dif_pos (show 8 * cc.val + i.val < 16 by omega)]
  refine Finset.sum_congr rfl fun j _ => ?_
  have e : (⟨(8 * cc.val + i.val) * 32768 + j.val, by have := j.isLt; omega⟩ : Fin 524288) = pos cc i j :=
    Fin.ext (by show (8 * cc.val + i.val) * 32768 + j.val = (cc.val * 8 + i.val) * 32768 + j.val; omega)
  rw [e]

/-! ### From the blocks to the arrays -/

/-- After point n, any entry of the sums block, by its coordinates. -/
theorem sums_inv_at (c : Dev nD) (n : ℕ) (hn : n < cfg0.N) (i : S1x32x16.Idx) (d : Fin 32) (k : Fin 16)
    (h1 : (i 1).val = d.val) (h2 : (i 2).val = k.val) :
    (outsAt0 V c n hn).1 i = ∑ m ∈ Finset.Ico (8 * (n / 8)) (n + 1), sTerm (xOf V c) (lOf V c) d k m := by
  have e : i = ix3 (0 : Fin 1) d k := funext fun a => Fin.ext (by
    match a with
    | ⟨0, _⟩ => show (i 0).val = 0; have h : (i 0).val < 1 := (i 0).isLt; omega
    | ⟨1, _⟩ => exact h1
    | ⟨2, _⟩ => exact h2)
  rw [e]
  exact sums_inv V c d k n hn

/-- After point n, any entry of the counts block, by its coordinates. -/
theorem cnts_inv_at (c : Dev nD) (n : ℕ) (hn : n < cfg0.N) (i : S1x1x16.Idx) (k : Fin 16) (h2 : (i 2).val = k.val) :
    (outsAt0 V c n hn).2 i = ∑ m ∈ Finset.Ico (8 * (n / 8)) (n + 1), cTerm (lOf V c) k m := by
  have e : i = ix3 (0 : Fin 1) (0 : Fin 1) k := funext fun a => Fin.ext (by
    match a with
    | ⟨0, _⟩ => show (i 0).val = 0; have h : (i 0).val < 1 := (i 0).isLt; omega
    | ⟨1, _⟩ => show (i 1).val = 0; have h : (i 1).val < 1 := (i 1).isLt; omega
    | ⟨2, _⟩ => exact h2)
  rw [e]
  exact cnts_inv V c k n hn

/-- What the sums array ends holding: each core's partial sums. -/
def G2 (c : Dev nD) : FVec Ideal S2x32x16 .f32 := fun i => sumsPC (xOf V c) (lOf V c) (i 0) (i 1) (i 2)
/-- What the counts array ends holding: each core's partial sizes. -/
def G3 (c : Dev nD) : FVec Ideal S2x1x16 .f32 := fun i => cntsPC (lOf V c) (i 0) (i 2)

/-- An entry of the final sums array, by its coordinates. -/
theorem G2_at (c : Dev nD) (i : S2x32x16.Idx) (cc : Fin 2) (d : Fin 32) (k : Fin 16)
    (h0 : (i 0).val = cc.val) (h1 : (i 1).val = d.val) (h2 : (i 2).val = k.val) :
    G2 V c i = sumsPC (xOf V c) (lOf V c) cc d k := by
  have e : i = ix3 cc d k := funext fun a => Fin.ext (by
    match a with
    | ⟨0, _⟩ => exact h0
    | ⟨1, _⟩ => exact h1
    | ⟨2, _⟩ => exact h2)
  rw [e]
  rfl

/-- An entry of the final counts array, by its coordinates. -/
theorem G3_at (c : Dev nD) (i : S2x1x16.Idx) (cc : Fin 2) (k : Fin 16)
    (h0 : (i 0).val = cc.val) (h2 : (i 2).val = k.val) :
    G3 V c i = cntsPC (lOf V c) cc k := by
  have e : i = ix3 cc (0 : Fin 1) k := funext fun a => Fin.ext (by
    match a with
    | ⟨0, _⟩ => exact h0
    | ⟨1, _⟩ => show (i 1).val = 0; have h : (i 1).val < 1 := (i 1).isLt; omega
    | ⟨2, _⟩ => exact h2)
  rw [e]
  rfl

/-- What the last point of a core writes back is that core's block of the final sums array. -/
theorem flushed2_eq (c : Dev nD) (t : Fin cfg0.N) (hf : (cfg0.win 2).flush t = true) :
    (dat0 V c).flushed 2 t = ((cfg0.win 2).blk t).view.read (Elt Ideal) (G2 V c) := by
  have h7 : t.val % 8 = 7 := (flush0_2 t).mp hf
  have hN : t.val < 16 := lt_of_lt_of_eq t.isLt N_0
  obtain ⟨-, -, -, -, e0, e1, e2, -⟩ := idx_facts t
  show (cfg0.win 2).cut (grid0.coords t) ((dat0 V c).after 2 t) = _
  rw [after0_2]
  funext y
  have hy0 : (y 0).val < 1 := (y 0).isLt
  have hy1 : (y 1).val < 32 := (y 1).isLt
  have hy2 : (y 2).val < 16 := (y 2).isLt
  show (outsAt0 V c t.val t.isLt).1 ((cfg0.win 2).xinj (grid0.coords t) y) = G2 V c (((cfg0.win 2).blk t).view.emb y)
  refine (sums_inv_at V c t.val t.isLt _ ⟨(y 1).val, hy1⟩ ⟨(y 2).val, hy2⟩ rfl rfl).trans ?_
  refine Eq.trans ?_ (G2_at V c _ ⟨t.val / 8, by omega⟩ ⟨(y 1).val, hy1⟩ ⟨(y 2).val, hy2⟩ ?_ ?_ ?_).symm
  · rw [← sum_core_sums]
    show ∑ m ∈ Finset.Ico (8 * (t.val / 8)) (t.val + 1), _ = ∑ m ∈ Finset.Ico (8 * (t.val / 8)) (8 * (t.val / 8) + 8), _
    rw [show t.val + 1 = 8 * (t.val / 8) + 8 by omega]
  · show win0_2.index t (0 : Fin 3) * 1 + 1 * (y 0).val = t.val / 8; omega
  · show win0_2.index t (1 : Fin 3) * 32 + 1 * (y 1).val = (y 1).val; omega
  · show win0_2.index t (2 : Fin 3) * 16 + 1 * (y 2).val = (y 2).val; omega

/-- What the last point of a core writes back is that core's block of the final counts array. -/
theorem flushed3_eq (c : Dev nD) (t : Fin cfg0.N) (hf : (cfg0.win 3).flush t = true) :
    (dat0 V c).flushed 3 t = ((cfg0.win 3).blk t).view.read (Elt Ideal) (G3 V c) := by
  have h7 : t.val % 8 = 7 := (flush0_3 t).mp hf
  have hN : t.val < 16 := lt_of_lt_of_eq t.isLt N_0
  obtain ⟨-, -, -, -, -, -, -, e0, e1, e2⟩ := idx_facts t
  show (cfg0.win 3).cut (grid0.coords t) ((dat0 V c).after 3 t) = _
  rw [after0_3]
  funext y
  have hy0 : (y 0).val < 1 := (y 0).isLt
  have hy1 : (y 1).val < 1 := (y 1).isLt
  have hy2 : (y 2).val < 16 := (y 2).isLt
  show (outsAt0 V c t.val t.isLt).2 ((cfg0.win 3).xinj (grid0.coords t) y) = G3 V c (((cfg0.win 3).blk t).view.emb y)
  refine (cnts_inv_at V c t.val t.isLt _ ⟨(y 2).val, hy2⟩ rfl).trans ?_
  refine Eq.trans ?_ (G3_at V c _ ⟨t.val / 8, by omega⟩ ⟨(y 2).val, hy2⟩ ?_ ?_).symm
  · rw [← sum_core_cnts]
    show ∑ m ∈ Finset.Ico (8 * (t.val / 8)) (t.val + 1), _ = ∑ m ∈ Finset.Ico (8 * (t.val / 8)) (8 * (t.val / 8) + 8), _
    rw [show t.val + 1 = 8 * (t.val / 8) + 8 by omega]
  · show win0_3.index t (0 : Fin 3) * 1 + 1 * (y 0).val = t.val / 8; omega
  · show win0_3.index t (2 : Fin 3) * 16 + 1 * (y 2).val = (y 2).val; omega

/-- An index of the sums array lies in point t's block iff each coordinate lies in the block's range. -/
theorem mem_blk2 (t : Fin cfg0.N) (i : S2x32x16.Idx) :
    i ∈ ((cfg0.win 2).blk t).view.set ↔ ∀ a : Fin 3, win0_2.index t a * S1x32x16.size a ≤ (i a).val
      ∧ (i a).val < win0_2.index t a * S1x32x16.size a + S1x32x16.size a := by
  show i ∈ ((View.whole main_v2_0).slice (win0_2.rect t)).set ↔ _
  rw [View.set_slice_whole, Rect.mem_set_unit]
  exact Iff.rfl

/-- An index of the counts array lies in point t's block iff each coordinate lies in the block's range. -/
theorem mem_blk3 (t : Fin cfg0.N) (i : S2x1x16.Idx) :
    i ∈ ((cfg0.win 3).blk t).view.set ↔ ∀ a : Fin 3, win0_3.index t a * S1x1x16.size a ≤ (i a).val
      ∧ (i a).val < win0_3.index t a * S1x1x16.size a + S1x1x16.size a := by
  show i ∈ ((View.whole main_v2_1).slice (win0_3.rect t)).set ↔ _
  rw [View.set_slice_whole, Rect.mem_set_unit]
  exact Iff.rfl

/-- Row cc of the sums array is written back by the last point of core cc. -/
theorem cover2 (i : S2x32x16.Idx) : ∃ t : Fin cfg0.N, (cfg0.win 2).flush t = true ∧ i ∈ ((cfg0.win 2).blk t).view.set := by
  have h0 : (i 0).val < 2 := (i 0).isLt
  have h1 : (i 1).val < 32 := (i 1).isLt
  have h2 : (i 2).val < 16 := (i 2).isLt
  refine ⟨⟨8 * (i 0).val + 7, lt_of_lt_of_eq (show 8 * (i 0).val + 7 < 16 by omega) N_0.symm⟩, (flush0_2 _).mpr (by show (8 * (i 0).val + 7) % 8 = 7; omega), ?_⟩
  obtain ⟨-, -, -, -, e0, e1, e2, -⟩ := idx_facts ⟨8 * (i 0).val + 7, lt_of_lt_of_eq (show 8 * (i 0).val + 7 < 16 by omega) N_0.symm⟩
  rw [mem_blk2]
  intro a
  match a with
  | ⟨0, _⟩ =>
    show win0_2.index _ (0 : Fin 3) * 1 ≤ (i 0).val ∧ (i 0).val < win0_2.index _ (0 : Fin 3) * 1 + 1
    rw [e0]; show (8 * (i 0).val + 7) / 8 * 1 ≤ (i 0).val ∧ (i 0).val < (8 * (i 0).val + 7) / 8 * 1 + 1; omega
  | ⟨1, _⟩ =>
    show win0_2.index _ (1 : Fin 3) * 32 ≤ (i 1).val ∧ (i 1).val < win0_2.index _ (1 : Fin 3) * 32 + 32
    rw [e1]; omega
  | ⟨2, _⟩ =>
    show win0_2.index _ (2 : Fin 3) * 16 ≤ (i 2).val ∧ (i 2).val < win0_2.index _ (2 : Fin 3) * 16 + 16
    rw [e2]; omega

/-- Row cc of the counts array is written back by the last point of core cc. -/
theorem cover3 (i : S2x1x16.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 16 := (i 2).isLt
  refine ⟨⟨8 * (i 0).val + 7, lt_of_lt_of_eq (show 8 * (i 0).val + 7 < 16 by omega) N_0.symm⟩, (flush0_3 _).mpr (by show (8 * (i 0).val + 7) % 8 = 7; omega), ?_⟩
  obtain ⟨-, -, -, -, -, -, -, e0, e1, e2⟩ := idx_facts ⟨8 * (i 0).val + 7, lt_of_lt_of_eq (show 8 * (i 0).val + 7 < 16 by omega) N_0.symm⟩
  rw [mem_blk3]
  intro a
  match a with
  | ⟨0, _⟩ =>
    show win0_3.index _ (0 : Fin 3) * 1 ≤ (i 0).val ∧ (i 0).val < win0_3.index _ (0 : Fin 3) * 1 + 1
    rw [e0]; show (8 * (i 0).val + 7) / 8 * 1 ≤ (i 0).val ∧ (i 0).val < (8 * (i 0).val + 7) / 8 * 1 + 1; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 16 ≤ (i 2).val ∧ (i 2).val < win0_3.index _ (2 : Fin 3) * 16 + 16
    rw [e2]; omega

/-- The sums array after the whole grid. -/
theorem final2 (c : Dev nD) : (dat0 V c).arrAt 2 cfg0.N = G2 V c :=
  (dat0 V c).arrAt_eq_of_cover 2 (G2 V c) (flushed2_eq V c) cover2

/-- The counts array after the whole grid. -/
theorem final3 (c : Dev nD) : (dat0 V c).arrAt 3 cfg0.N = G3 V c :=
  (dat0 V c).arrAt_eq_of_cover 3 (G3 V c) (flushed3_eq V c) cover3

/-! ### The two arrays, entry by entry -/

/-- Entry (core, d, k) of the sums array is the core's partial sum of coordinate d over cluster k. -/
theorem sums_arr (c : Dev nD) (cc : Fin 2) (d : Fin 32) (k : Fin 16) :
    ((dat0 V c).arrAt 2 cfg0.N : FVec Ideal S2x32x16 .f32) (ix3 cc d k) = sumsPC (xOf V c) (lOf V c) cc d k :=
  congrFun (final2 V c) (ix3 cc d k)

/-- Entry (core, 0, k) of the counts array is the core's partial size of cluster k. -/
theorem cnts_arr (c : Dev nD) (cc : Fin 2) (k : Fin 16) :
    ((dat0 V c).arrAt 3 cfg0.N : FVec Ideal S2x1x16 .f32) (ix3 cc (0 : Fin 1) k) = cntsPC (lOf V c) cc k :=
  congrFun (final3 V c) (ix3 cc (0 : Fin 1) k)

end Cert.KernelIdeal.Val0

end
-- ==== Proof.KiArr.lean ====
/- THE SUMMED-HINGE ARRAY AFTER THE WHOLE GRID IS ITS LAST WRITTEN-BACK BLOCKS. The second kernel's output [2,1,1] is an
   accumulator: a core's entry lives in its staging buffer through the core's eight grid points and is written back to
   the array only after the last of them, the point 8·core + 7, at block index (core, 0, 0). The two cores' blocks are
   disjoint and fill the array, so entry `core` of the final array is exactly what the body left at the point
   8·core + 7. -/
import proofs.«429783_j3401614098830_3_alg».proof.Proof.KiR0
import proofs.«429783_j3401614098830_3_alg».proof.Proof.KiR1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

-- the TensorCore's buffer contents when a region is entered
variable (V : (c : Dev nD) → (b : Ref sig .tc) → Buf (Elt F) ((c : Thread nD τ).loc b))

/-- The last grid point of core `q`, its eighth, is a point of the first kernel's grid; -/
theorem last_lt0 (q : ℕ) (h : q < 2) : 8 * q + 7 < cfg0.N := by
  rw [show cfg0.N = 16 from N_0]; omega
/-- and of the second kernel's. -/
theorem last_lt1 (q : ℕ) (h : q < 2) : 8 * q + 7 < cfg1.N := by
  rw [show cfg1.N = 16 from N_1]; omega

/-- The accumulator and the scratch after point `n` do not depend on how `n` is written. -/
theorem outsAt1_congr (c : Dev nD) {n n' : ℕ} (e : n = n') (h : n < cfg1.N) (h' : n' < cfg1.N) :
    outsAt1 V c n h = outsAt1 V c n' h' := by subst e; rfl

/-- The printed index map of the hinge window, decided over the grid: block (core, 0, 0), the core being the point's
    quotient by eight. -/
theorem idx1_4 : ∀ t : Fin cfg1.N, win1_4.index t (0 : Fin 3) = t.val / 8 ∧ win1_4.index t (1 : Fin 3) = 0
    ∧ win1_4.index t (2 : Fin 3) = 0 :=
  (by decide +kernel : ∀ t : Fin grid1.N, _)

/-- What the hinge array ends holding: entry `q` is the sum after the point 8·q + 7. -/
def hingeEnd (c : Dev nD) : S2x1x1.Idx → Elt F .f32 := fun i =>
  (outsAt1 V c (8 * (i 0).val + 7) (last_lt1 _ (i 0).isLt)).1 (ix3 (0 : Fin 1) (i 1) (i 2))

/-- What a core's last point writes back is its block of `hingeEnd`: the block (core, 0, 0) read at its one entry is
    the accumulator after that very point. -/
theorem flushed1_4 (c : Dev nD) (t : Fin cfg1.N) (hf : (cfg1.win 4).flush t = true) :
    (dat1 V c).flushed 4 t = ((cfg1.win 4).blk t).view.read (Elt F) (hingeEnd V c) := by
  have h7 : t.val % 8 = 7 := (flush1_4 t).mp hf
  obtain ⟨e0, e1, e2⟩ := idx1_4 t
  show (cfg1.win 4).cut (grid1.coords t) ((dat1 V c).after 4 t) = _
  rw [after1_4]
  funext j
  show (outsAt1 V c t.val t.isLt).1 ((cfg1.win 4).xinj (grid1.coords t) j) = hingeEnd V c (((cfg1.win 4).blk t).view.emb j)
  unfold hingeEnd
  have hj0 : (j 0).val < 1 := (j 0).isLt
  have hq : 8 * ((((cfg1.win 4).blk t).view.emb j) 0).val + 7 = t.val := by
    show 8 * (win1_4.index t (0 : Fin 3) * 1 + 1 * (j 0).val) + 7 = t.val
    omega
  rw [outsAt1_congr V c hq _ t.isLt]
  refine congrArg (outsAt1 V c t.val t.isLt).1 ?_
  funext a; apply Fin.ext
  match a with
  | ⟨0, _⟩ => show (j 0).val = 0; omega
  | ⟨1, _⟩ => show (j 1).val = win1_4.index t (1 : Fin 3) * 1 + 1 * (j 1).val; omega
  | ⟨2, _⟩ => show (j 2).val = win1_4.index t (2 : Fin 3) * 1 + 1 * (j 2).val; omega

/-- An index of the hinge array is in point `t`'s block iff each coordinate is in the block's range on its axis. -/
theorem mem_blk1_4 (t : Fin cfg1.N) (i : S2x1x1.Idx) :
    i ∈ ((cfg1.win 4).blk t).view.set
      ↔ ∀ a : Fin 3, win1_4.index t a * S1x1x1.size a ≤ (i a).val ∧ (i a).val < win1_4.index t a * S1x1x1.size a + S1x1x1.size a := by
  show i ∈ ((View.whole main_v3).slice (win1_4.rect t)).set ↔ _
  rw [View.set_slice_whole, Rect.mem_set_unit]
  exact Iff.rfl

/-- The two cores' last points cover the hinge array, so it ends holding `hingeEnd`. -/
theorem final1_4 (c : Dev nD) : (dat1 V c).arrAt 4 cfg1.N = hingeEnd V c :=
  (dat1 V c).arrAt_eq_of_cover 4 (hingeEnd V c) (flushed1_4 V c) fun i => by
    have hi0 : (i 0).val < 2 := (i 0).isLt
    have hi1 : (i 1).val < 1 := (i 1).isLt
    have hi2 : (i 2).val < 1 := (i 2).isLt
    obtain ⟨e0, e1, e2⟩ := idx1_4 ⟨8 * (i 0).val + 7, last_lt1 _ hi0⟩
    have e0' : win1_4.index ⟨8 * (i 0).val + 7, last_lt1 _ hi0⟩ (0 : Fin 3) = (8 * (i 0).val + 7) / 8 := e0
    refine ⟨⟨8 * (i 0).val + 7, last_lt1 _ hi0⟩, (flush1_4 _).mpr (by show (8 * (i 0).val + 7) % 8 = 7; omega), ?_⟩
    rw [mem_blk1_4]
    intro a
    match a with
    | ⟨0, _⟩ =>
      show win1_4.index ⟨8 * (i 0).val + 7, last_lt1 _ hi0⟩ (0 : Fin 3) * 1 ≤ (i 0).val
        ∧ (i 0).val < win1_4.index ⟨8 * (i 0).val + 7, last_lt1 _ hi0⟩ (0 : Fin 3) * 1 + 1
      omega
    | ⟨1, _⟩ =>
      show win1_4.index ⟨8 * (i 0).val + 7, last_lt1 _ hi0⟩ (1 : Fin 3) * 1 ≤ (i 1).val
        ∧ (i 1).val < win1_4.index ⟨8 * (i 0).val + 7, last_lt1 _ hi0⟩ (1 : Fin 3) * 1 + 1
      omega
    | ⟨2, _⟩ =>
      show win1_4.index ⟨8 * (i 0).val + 7, last_lt1 _ hi0⟩ (2 : Fin 3) * 1 ≤ (i 2).val
        ∧ (i 2).val < win1_4.index ⟨8 * (i 0).val + 7, last_lt1 _ hi0⟩ (2 : Fin 3) * 1 + 1
      omega

/-- THE HINGE ARRAY after the second kernel's grid: entry `cc` is the sum core `cc` holds after its last point. -/
theorem arr1_4 (c : Dev nD) (cc : Fin 2) :
    (dat1 V c).arrAt 4 cfg1.N (ix3 cc (0 : Fin 1) (0 : Fin 1))
      = (outsAt1 V c (8 * cc.val + 7) (last_lt1 cc.val cc.isLt)).1 (ix3 (0 : Fin 1) (0 : Fin 1) (0 : Fin 1)) := by
  rw [final1_4]
  rfl

end Cert.KernelIdeal.Hand

end
-- ==== Proof.KiPay1.lean ====
/-
  The second grid's payloads at the extended reals, read at an index.

  The centre table written at a core's first step is, at (d, k), the two cores' partial sums of coordinate d over
  cluster k added, divided by the two cores' partial sizes of cluster k added and guarded below by one.
  The hinge payload at its one index is what the output cell held plus the sum over the block's 32768 lanes of the
  lane's squared hinge max(sqrt(sum_d (c_d - x_d)^2) - 1/2, 0)^2, where the lane's centre c_d is the product of row d of
  the table with the lane's one-hot column: the one-hot entry (k, j) compares the cluster number k, counted along
  the rows, with lane j's label, and reads 1 on equality and 0 off it. Every change of float format is the identity;
  a product into a zero accumulator is the plain sum over the contracted axis; a sum over one axis is the sum over
  that axis's coordinates.
-/
import proofs.«429783_j3401614098830_3_alg».proof.Proof.Gen.KernelIdeal.Skeleton
import proofs.«429783_j3401614098830_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val1

open Idealize.ShloMosaic Idealize.ShloMosaic.ValueIdx Cert.KernelIdeal Cert.KernelIdeal.Gen Cert.Hand.Spec

/-- The centre a lane's label selects from a centre table: the one-hot product over the clusters. -/
def selK (lb : Vec Ideal S1x32768 .i32) (tbl : Vec Ideal S32x16 .f32) (d : Fin 32) (j : Fin 32768) : EReal :=
  ∑ k : Fin 16, tbl (ix2 d k) * (if BitVec.ofNat 32 k.val = lb (ix2 (0 : Fin 1) j) then (1 : EReal) else 0)

/-- A lane's hinge against the selected centre: max(sqrt(sum_d (ctr_d - x_d)^2) - 1/2, 0). -/
def hingeRoot (xb : Vec Ideal S32x32768 .f32) (lb : Vec Ideal S1x32768 .i32) (tbl : Vec Ideal S32x16 .f32)
    (j : Fin 32768) : EReal :=
  max (Ideal.sqrt (∑ d : Fin 32, (selK lb tbl d j - xb (ix2 d j)) * (selK lb tbl d j - xb (ix2 d j)))
    - Ideal.ofBits .f32 0x3F000000#32) 0

/-- A lane's squared hinge. -/
def hingeL (xb : Vec Ideal S32x32768 .f32) (lb : Vec Ideal S1x32768 .i32) (tbl : Vec Ideal S32x16 .f32)
    (j : Fin 32768) : EReal :=
  hingeRoot xb lb tbl j * hingeRoot xb lb tbl j

/-! ### The literal one, and the sums over one axis -/

/-- The f32 word 0x3F800000 is the real number one. -/
theorem one_f32 : Ideal.ofBits .f32 0x3F800000#32 = 1 := IdealRules.sign_bit.ideal_onePat .f32

/-- The sum over the core axis of a [2,32,16] array at (d, k). -/
theorem sumCore32 (src : FVec Ideal S2x32x16 .f32) (hφ : FKind.Formats .f32)
    (hacc : (0x00000000#32 : BitVec 32) = 0x00000000#32) (d : Fin 32) (k : Fin 16) :
    multiReduction .add [0] S32x16 src 0x00000000#32 reduces_S2x32x16_S32x16 hφ hacc (ix2 d k)
      = ∑ cc : Fin 2, src (ix3 cc d k) := by
  refine (Ideal.multiReduction_add_single src 0x00000000#32 reduces_S2x32x16_S32x16 hφ hacc (ix2 d k)).trans ?_
  refine Finset.sum_congr rfl fun cc _ => congrArg src ?_
  funext a
  match a with
  | ⟨0, _⟩ => rfl
  | ⟨1, _⟩ => rfl
  | ⟨2, _⟩ => rfl

/-- The sum over the core axis of a [2,1,16] array at (0, k). -/
theorem sumCore1 (src : FVec Ideal S2x1x16 .f32) (hφ : FKind.Formats .f32)
    (hacc : (0x00000000#32 : BitVec 32) = 0x00000000#32) (u : Fin 1) (k : Fin 16) :
    multiReduction .add [0] S1x16 src 0x00000000#32 reduces_S2x1x16_S1x16 hφ hacc (ix2 u k)
      = ∑ cc : Fin 2, src (ix3 cc u k) := by
  refine (Ideal.multiReduction_add_single src 0x00000000#32 reduces_S2x1x16_S1x16 hφ hacc (ix2 u k)).trans ?_
  refine Finset.sum_congr rfl fun cc _ => congrArg src ?_
  funext a
  match a with
  | ⟨0, _⟩ => rfl
  | ⟨1, _⟩ => rfl
  | ⟨2, _⟩ => rfl

theorem pay2_apply (S4 : Vec Ideal S2x32x16 .f32) (S5 : Vec Ideal S2x1x16 .f32) (d : Fin 32) (k : Fin 16) :
    k1_pay2 S4 S5 (ix2 d k) = Ideal.div (∑ cc : Fin 2, S4 (ix3 cc d k)) (max (∑ cc : Fin 2, S5 (ix3 cc (0 : Fin 1) k)) 1) := by
  unfold k1_pay2
  simp only [shapeCast_self]
  refine (divf_apply _ _ (ix2 d k)).trans ?_
  refine congrArg₂ Ideal.div (sumCore32 S4 _ _ d k) ?_
  refine (broadcastTo_1b_ab_apply _ broadcasts_S1x16_S32x16 d k).trans ?_
  refine (maximumf_apply _ _ (ix2 (0 : Fin 1) k)).trans ?_
  refine congrArg₂ max (sumCore1 S5 _ _ 0 k) ?_
  exact one_f32

/-! ### The one-hot block -/

/-- A word comparison widened and read as a signed integer is 1 on equality and 0 off it. -/
theorem sitofp_eq_bit (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  unfold IntOp.cmpi
  by_cases h : a = b
  · rw [if_pos h]; subst h; simp
  · rw [if_neg h]
    have e : (a == b) = false := by simpa using h
    simp [e]

/-- The one-hot block built from a label block: entry (k, j) is 1 where lane j carries the word k, else 0. -/
theorem hotv_apply (lb : Vec Ideal S1x32768 .i32) (k : Fin 16) (j : Fin 32768) :
    (truncf .bf16 (sitofp .f32 (extui 32 (cmpi .eq (iota .tc S16x32768 32 [0] iota_S16x32768_d0_w32)
        (broadcastTo S16x32768 lb broadcasts_S1x32768_S16x32768)) natLt_1_32) : FVec Ideal S16x32768 .f32) bitsLt_bf16_f32
        : FVec Ideal S16x32768 .bf16) (ix2 k j)
      = if BitVec.ofNat 32 k.val = lb (ix2 (0 : Fin 1) j) then (1 : EReal) else 0 := by
  show FloatOps.sitofp (F := Ideal) .f32 ((IntOp.cmpi .eq (iota .tc S16x32768 32 [0] iota_S16x32768_d0_w32 (ix2 k j))
      (broadcastTo S16x32768 lb broadcasts_S1x32768_S16x32768 (ix2 k j))).setWidth 32) = _
  rw [iota_single_apply, broadcastTo_1b_ab_apply]
  exact sitofp_eq_bit _ _

/-! ### The product of the centre table with the one-hot block -/

/-- The centre-table product's dimension numbers: [32,16] x [16,32768], the cluster axis contracted. -/
abbrev Dm : DotDims S32x16 S16x32768 S32x32768 := dot_S32x16_S16x32768_S32x32768_1_0_0_1_n_n

theorem lhs_Dm_0 (j : S32x32768.Idx) (k : Dm.contr.Idx) : (Dm.lhsIdx j k 0 : ℕ) = j 0 := by
  simp [DotDims.lhsIdx, Dm, dot_S32x16_S16x32768_S32x32768_1_0_0_1_n_n]; rfl
theorem lhs_Dm_1 (j : S32x32768.Idx) (k : Dm.contr.Idx) : (Dm.lhsIdx j k 1 : ℕ) = k ⟨0, by decide⟩ := by
  simp [DotDims.lhsIdx, Dm, dot_S32x16_S16x32768_S32x32768_1_0_0_1_n_n]; rfl
theorem rhs_Dm_0 (j : S32x32768.Idx) (k : Dm.contr.Idx) : (Dm.rhsIdx j k 0 : ℕ) = k ⟨0, by decide⟩ := by
  simp [DotDims.rhsIdx, Dm, dot_S32x16_S16x32768_S32x32768_1_0_0_1_n_n]; rfl
theorem rhs_Dm_1 (j : S32x32768.Idx) (k : Dm.contr.Idx) : (Dm.rhsIdx j k 1 : ℕ) = j 1 := by
  simp [DotDims.rhsIdx, Dm, dot_S32x16_S16x32768_S32x32768_1_0_0_1_n_n]; rfl

/-- The product into a zero accumulator, at (d, j): the sum over the clusters. -/
theorem matmul_tbl_apply (tbl : FVec Ideal S32x16 .bf16) (hv : FVec Ideal S16x32768 .bf16) (d : Fin 32) (j : Fin 32768) :
    matmul dot_S32x16_S16x32768_S32x32768_1_0_0_1_n_n none tbl hv (constant (F := Ideal) S32x32768 .f32 0x00000000#32) (ix2 d j)
      = ∑ k : Fin 16, tbl (ix2 d k) * hv (ix2 k j) := by
  refine (Ideal.matmul_constant_zero_apply Dm none tbl hv (ix2 d j)).trans ?_
  rw [← Equiv.sum_comp (contrEquiv1 Dm 16 rfl rfl).symm]
  refine Finset.sum_congr rfl fun k _ => ?_
  refine congrArg₂ (· * ·) (congrArg tbl ?_) (congrArg hv ?_)
  · refine Shape.idx_ext₂ ?_ ?_
    · exact lhs_Dm_0 _ _
    · exact (lhs_Dm_1 _ _).trans (contrEquiv1_symm_val Dm 16 rfl rfl k)
  · refine Shape.idx_ext₂ ?_ ?_
    · exact (rhs_Dm_0 _ _).trans (contrEquiv1_symm_val Dm 16 rfl rfl k)
    · exact rhs_Dm_1 _ _

/-- The sum over the coordinate axis of a [32,32768] block at lane j. -/
theorem sumCoord (src : FVec Ideal S32x32768 .f32) (hφ : FKind.Formats .f32)
    (hacc : (0x00000000#32 : BitVec 32) = 0x00000000#32) (j : Fin 32768) :
    multiReduction .add [0] S32768 src 0x00000000#32 reduces_S32x32768_S32768 hφ hacc (ix1 j)
      = ∑ d : Fin 32, src (ix2 d j) := by
  refine (Ideal.multiReduction_add_single src 0x00000000#32 reduces_S32x32768_S32768 hφ hacc (ix1 j)).trans ?_
  refine Finset.sum_congr rfl fun d _ => congrArg src ?_
  funext a
  match a with
  | ⟨0, _⟩ => rfl
  | ⟨1, _⟩ => rfl

/-- The sum over the lanes of a [1,32768] row. -/
theorem sumLanes (src : FVec Ideal S1x32768 .f32) (hφ : FKind.Formats .f32)
    (hacc : (0x00000000#32 : BitVec 32) = 0x00000000#32) (u : Fin 1) :
    multiReduction .add [1] S1 src 0x00000000#32 reduces_S1x32768_S1 hφ hacc (ix1 u)
      = ∑ j : Fin 32768, src (ix2 u j) := by
  refine (Ideal.multiReduction_add_single src 0x00000000#32 reduces_S1x32768_S1 hφ hacc (ix1 u)).trans ?_
  refine Finset.sum_congr rfl fun j _ => congrArg src ?_
  funext a
  match a with
  | ⟨0, _⟩ => rfl
  | ⟨1, _⟩ => rfl

/-! ### The hinge payload -/

/-- A square root of a row, at an index. -/
theorem sqrt_apply {s : Shape} (v : FVec Ideal s .f32) (i : s.Idx) : sqrt v i = Ideal.sqrt (v i) := rfl

/-- The table product with the one-hot block, at (d, j): the centre the lane's label selects. -/
theorem ctrBlock_apply (lb : Vec Ideal S1x32768 .i32) (tbl : Vec Ideal S32x16 .f32) (d : Fin 32) (j : Fin 32768) :
    matmul dot_S32x16_S16x32768_S32x32768_1_0_0_1_n_n none (truncf .bf16 tbl bitsLt_bf16_f32 : FVec Ideal S32x16 .bf16)
        (truncf .bf16 (sitofp .f32 (extui 32 (cmpi .eq (iota .tc S16x32768 32 [0] iota_S16x32768_d0_w32)
          (broadcastTo S16x32768 lb broadcasts_S1x32768_S16x32768)) natLt_1_32) : FVec Ideal S16x32768 .f32) bitsLt_bf16_f32
          : FVec Ideal S16x32768 .bf16)
        (constant (F := Ideal) S32x32768 .f32 0x00000000#32) (ix2 d j)
      = selK lb tbl d j := by
  refine (matmul_tbl_apply _ _ d j).trans ?_
  unfold selK
  refine Finset.sum_congr rfl fun k _ => ?_
  exact congrArg₂ (· * ·) rfl (hotv_apply lb k j)

/-- From a block of centres to the row of hinges, at lane j. -/
theorem hingeRow_apply (m xb : FVec Ideal S32x32768 .f32) (hφ : FKind.Formats .f32)
    (hacc : (0x00000000#32 : BitVec 32) = 0x00000000#32) (j : Fin 32768) (sel : Fin 32 → EReal)
    (hm : ∀ d : Fin 32, m (ix2 d j) = sel d) :
    maximumf (subf (sqrt (shapeCast S1x32768 (multiReduction .add [0] S32768 (mulf (subf m xb) (subf m xb)) 0x00000000#32
        reduces_S32x32768_S32768 hφ hacc) shapeCasts_S32768_S1x32768))
        (broadcast S1x32768 (FloatOps.ofBits (F := Ideal) .f32 0x3F000000#32)))
      (broadcast S1x32768 (FloatOps.ofBits (F := Ideal) .f32 0x00000000#32)) (ix2 (0 : Fin 1) j)
      = max (Ideal.sqrt (∑ d : Fin 32, (sel d - xb (ix2 d j)) * (sel d - xb (ix2 d j)))
          - Ideal.ofBits .f32 0x3F000000#32) 0 := by
  refine (maximumf_apply _ _ _).trans ?_
  refine congrArg₂ max ?_ Ideal.ofBits_zero_f32
  refine (subf_apply _ _ _).trans ?_
  refine congrArg₂ (· - ·) ?_ rfl
  refine (sqrt_apply _ _).trans ?_
  refine congrArg Ideal.sqrt ?_
  refine (shapeCast_a_1a_apply _ shapeCasts_S32768_S1x32768 0 j).trans ?_
  refine (sumCoord _ hφ hacc j).trans ?_
  refine Finset.sum_congr rfl fun d _ => ?_
  refine (mulf_apply _ _ _).trans ?_
  refine congrArg₂ (· * ·) ?_ ?_
  · exact (subf_apply _ _ _).trans (congrArg₂ (· - ·) (hm d) rfl)
  · exact (subf_apply _ _ _).trans (congrArg₂ (· - ·) (hm d) rfl)

/-- THE HINGE PAYLOAD at its one index: what the output block held plus the lanes' squared hinges. -/
theorem pay3_apply (xb : Vec Ideal S32x32768 .f32) (lb : Vec Ideal S1x32768 .i32) (tbl : Vec Ideal S32x16 .f32)
    (a : Vec Ideal S1x1x1 .f32) :
    k1_pay3 xb lb tbl a (ix3 (0 : Fin 1) (0 : Fin 1) (0 : Fin 1))
      = a (ix3 (0 : Fin 1) (0 : Fin 1) (0 : Fin 1)) + ∑ j : Fin 32768, hingeL xb lb tbl j := by
  unfold k1_pay3
  simp only [shapeCast_self]
  refine (shapeCast_ab_1ab_apply _ shapeCasts_S1x1_S1x1x1 0 0 0).trans ?_
  refine (addf_apply _ _ (ix2 (0 : Fin 1) (0 : Fin 1))).trans ?_
  refine congrArg₂ (· + ·) (shapeCast_1ab_ab_apply a shapeCasts_S1x1x1_S1x1 0 0) ?_
  refine (shapeCast_a_1a_apply _ shapeCasts_S1_S1x1 0 0).trans ?_
  refine (sumLanes _ _ _ 0).trans ?_
  refine Finset.sum_congr rfl fun j _ => ?_
  refine (mulf_apply _ _ (ix2 (0 : Fin 1) j)).trans ?_
  have hroot := hingeRow_apply
    (matmul dot_S32x16_S16x32768_S32x32768_1_0_0_1_n_n none (truncf .bf16 tbl bitsLt_bf16_f32 : FVec Ideal S32x16 .bf16)
        (truncf .bf16 (sitofp .f32 (extui 32 (cmpi .eq (iota .tc S16x32768 32 [0] iota_S16x32768_d0_w32)
          (broadcastTo S16x32768 lb broadcasts_S1x32768_S16x32768)) natLt_1_32) : FVec Ideal S16x32768 .f32) bitsLt_bf16_f32
          : FVec Ideal S16x32768 .bf16)
        (constant (F := Ideal) S32x32768 .f32 0x00000000#32)) xb (.inl rfl) rfl j (fun d => selK lb tbl d j)
    (fun d => ctrBlock_apply lb tbl d j)
  exact congrArg₂ (· * ·) hroot hroot

/-- The reset payload: zero. -/
theorem pay1_apply : (k1_pay1 (F := Ideal)) (ix3 (0 : Fin 1) (0 : Fin 1) (0 : Fin 1)) = 0 := by
  unfold k1_pay1
  refine (shapeCast_ab_1ab_apply _ shapeCasts_S1x1_S1x1x1 0 0 0).trans ?_
  exact Ideal.ofBits_zero_f32

/-! ### The payload's lane term as the specification's hinge -/

/-- When a block's lane j holds point n (its coordinates and its label) and the table is the kernel's centre table,
    the selected centre is the point's own centre and the lane's squared hinge is the point's. -/
theorem hingeL_eq (xb : Vec Ideal S32x32768 .f32) (lb : Vec Ideal S1x32768 .i32) (tbl : Vec Ideal S32x16 .f32)
    (x : Fin 32 → Fin 524288 → EReal) (l : Fin 524288 → BitVec 32) (n : Fin 524288) (j : Fin 32768)
    (hx : ∀ d : Fin 32, xb (ix2 d j) = x d n) (hl : lb (ix2 (0 : Fin 1) j) = l n)
    (ht : ∀ (d : Fin 32) (k : Fin 16), tbl (ix2 d k) = ctrK x l d k) :
    hingeL xb lb tbl j = hinge x (fun d => ownK x l d n) n := by
  have hs : ∀ d : Fin 32, selK lb tbl d j = ownK x l d n := fun d => by
    unfold selK ownK hot
    refine Finset.sum_congr rfl fun k _ => ?_
    rw [ht d k, hl]
  unfold hingeL hingeRoot hinge
  simp only [hs, hx]

end Cert.KernelIdeal.Val1

end
-- ==== Proof.KiVal1.lean ====
/-
  The second grid's output array is the per-core summed hinge.

  The grid runs 2 cores x 8 steps; point t = 8 * core + step reads block t of the data and label arrays (32768
  consecutive points) and both first-grid tables whole. At a core's first step the body's own table becomes the
  centre table: the cores' partial sums added, over the cores' partial sizes added and guarded below by one; the
  later steps carry it unchanged, and the next core's first step writes the same table again. The output cell is
  zeroed at a core's first step, and each step adds the block's lanes' squared hinges against the centre the lane's
  label selects from the table: so after point 8 * core + i it holds the summed hinges of the core's blocks 0..i,
  by induction on the point. After the core's eighth step that is the core's partial sum, and the cell written
  back then is the core's entry of the output array.
-/
import proofs.«429783_j3401614098830_3_alg».proof.Proof.KiR1
import proofs.«429783_j3401614098830_3_alg».proof.Proof.KiArr
import proofs.«429783_j3401614098830_3_alg».proof.Proof.KiPay1
import Idealize.ShloMosaic.Lib.ValueIdx
import Idealize.ShloMosaic.Lib.Pipeline.Value

noncomputable section

namespace Cert.KernelIdeal.Val1

open Idealize.ShloMosaic Idealize.ShloMosaic.ValueIdx Idealize.ShloMosaic.TcCoe Idealize.SL.Sem
open Cert.KernelIdeal Cert.KernelIdeal.Gen Cert.KernelIdeal.Hand Cert.Hand.Spec
open Idealize.ShloMosaic.Pipeline (Dat)

variable (V : (c : Dev nD) → (b : Ref sig .tc) → Buf (Elt Ideal) ((c : Thread nD τ).loc b))

/-! ### The arrays as the second grid finds them -/

/-- Coordinate d of point n, off the [32, 524288] data array. -/
abbrev xOf (c : Dev nD) : Fin 32 → Fin 524288 → EReal :=
  fun d n => (V c main_v0 : Vec Ideal S32x524288 .f32) (ix2 d n)
/-- The label of point n, off the [1, 524288] label array. -/
abbrev lOf (c : Dev nD) : Fin 524288 → BitVec 32 :=
  fun n => (V c main_v1 : Vec Ideal S1x524288 .i32) (ix2 (0 : Fin 1) n)

/-- Lane j of block m (m counts the 16 blocks of 32768 consecutive points). -/
def lanePt (m : ℕ) (hm : m < 16) (j : Fin 32768) : Fin 524288 :=
  ⟨m * 32768 + j.val, by have := j.isLt; omega⟩

/-- Block m's summed hinge (zero past the last block). -/
def blockHinge (x : Fin 32 → Fin 524288 → EReal) (l : Fin 524288 → BitVec 32) (m : ℕ) : EReal :=
  if h : m < 16 then ∑ j : Fin 32768, hinge x (fun d => ownK x l d (lanePt m h j)) (lanePt m h j) else 0

/-! ### The blocks the windows read -/

/-- The data window's block index at point t is (0, t): the blocks follow the points. -/
theorem index1_0 : ∀ t : Fin cfg1.N, win1_0.index t 0 = 0 ∧ win1_0.index t 1 = t.val :=
  (by decide +kernel : ∀ t : Fin grid1.N, win1_0.index t 0 = 0 ∧ win1_0.index t 1 = t.val)
/-- The label window's likewise. -/
theorem index1_1 : ∀ t : Fin cfg1.N, win1_1.index t 0 = 0 ∧ win1_1.index t 1 = t.val :=
  (by decide +kernel : ∀ t : Fin grid1.N, win1_1.index t 0 = 0 ∧ win1_1.index t 1 = t.val)
/-- The two tables are read whole at every point. -/
theorem index1_2 : ∀ t : Fin cfg1.N, win1_2.index t 0 = 0 ∧ win1_2.index t 1 = 0 ∧ win1_2.index t 2 = 0 :=
  (by decide +kernel : ∀ t : Fin grid1.N, win1_2.index t 0 = 0 ∧ win1_2.index t 1 = 0 ∧ win1_2.index t 2 = 0)
theorem index1_3 : ∀ t : Fin cfg1.N, win1_3.index t 0 = 0 ∧ win1_3.index t 1 = 0 ∧ win1_3.index t 2 = 0 :=
  (by decide +kernel : ∀ t : Fin grid1.N, win1_3.index t 0 = 0 ∧ win1_3.index t 1 = 0 ∧ win1_3.index t 2 = 0)

/-- The data block at point t, lane j, is the data array at point t * 32768 + j. -/
theorem xblk_apply (c : Dev nD) (t : Fin cfg1.N) (d : Fin 32) (j : Fin 32768) (n : Fin 524288)
    (hn : n.val = t.val * 32768 + j.val) :
    (iblk1 V c 0 t : Vec Ideal S32x32768 .f32) (ix2 d j) = xOf V c d n := by
  have hi := index1_0 t
  unfold iblk1
  rw [View.read_apply]
  show V c main_v0 _ = V c main_v0 _
  congr 1
  funext a
  apply Fin.ext
  match a with
  | ⟨0, _⟩ => show win1_0.index t 0 * 32 + 1 * d.val = d.val; rw [hi.1]; omega
  | ⟨1, _⟩ => show win1_0.index t 1 * 32768 + 1 * j.val = n.val; rw [hi.2, hn]; omega

/-- The label block at point t, lane j, is the label array at point t * 32768 + j. -/
theorem lblk_apply (c : Dev nD) (t : Fin cfg1.N) (j : Fin 32768) (n : Fin 524288)
    (hn : n.val = t.val * 32768 + j.val) :
    (iblk1 V c 1 t : Vec Ideal S1x32768 .i32) (ix2 (0 : Fin 1) j) = lOf V c n := by
  have hi := index1_1 t
  unfold iblk1
  rw [View.read_apply]
  show V c main_v1 _ = V c main_v1 _
  congr 1
  funext a
  apply Fin.ext
  match a with
  | ⟨0, _⟩ => show win1_1.index t 0 * 1 + 1 * 0 = 0; rw [hi.1]
  | ⟨1, _⟩ => show win1_1.index t 1 * 32768 + 1 * j.val = n.val; rw [hi.2, hn]; omega

/-- The sums window's block is the whole [2,32,16] array. -/
theorem sblk_apply (c : Dev nD) (t : Fin cfg1.N) (cc : Fin 2) (d : Fin 32) (k : Fin 16) :
    (iblk1 V c 2 t : Vec Ideal S2x32x16 .f32) (ix3 cc d k) = (V c main_v2_0 : Vec Ideal S2x32x16 .f32) (ix3 cc d k) := by
  have hi := index1_2 t
  unfold iblk1
  rw [View.read_apply]
  show V c main_v2_0 _ = V c main_v2_0 _
  congr 1
  funext a
  apply Fin.ext
  match a with
  | ⟨0, _⟩ => show win1_2.index t 0 * 2 + 1 * cc.val = cc.val; rw [hi.1]; omega
  | ⟨1, _⟩ => show win1_2.index t 1 * 32 + 1 * d.val = d.val; rw [hi.2.1]; omega
  | ⟨2, _⟩ => show win1_2.index t 2 * 16 + 1 * k.val = k.val; rw [hi.2.2]; omega

/-- The counts window's block is the whole [2,1,16] array. -/
theorem cblk_apply (c : Dev nD) (t : Fin cfg1.N) (cc : Fin 2) (u : Fin 1) (k : Fin 16) :
    (iblk1 V c 3 t : Vec Ideal S2x1x16 .f32) (ix3 cc u k) = (V c main_v2_1 : Vec Ideal S2x1x16 .f32) (ix3 cc u k) := by
  have hi := index1_3 t
  unfold iblk1
  rw [View.read_apply]
  show V c main_v2_1 _ = V c main_v2_1 _
  congr 1
  funext a
  apply Fin.ext
  match a with
  | ⟨0, _⟩ => show win1_3.index t 0 * 2 + 1 * cc.val = cc.val; rw [hi.1]; omega
  | ⟨1, _⟩ => show win1_3.index t 1 * 1 + 1 * u.val = u.val; rw [hi.2.1]; omega
  | ⟨2, _⟩ => show win1_3.index t 2 * 16 + 1 * k.val = k.val; rw [hi.2.2]; omega

/-! ### The table after each point, and the output cell -/

section Inv
variable (c : Dev nD)
variable (h4 : ∀ (cc : Fin 2) (d : Fin 32) (k : Fin 16),
    (V c main_v2_0 : Vec Ideal S2x32x16 .f32) (ix3 cc d k) = sumsPC (xOf V c) (lOf V c) cc d k)
variable (h5 : ∀ (cc : Fin 2) (k : Fin 16),
    (V c main_v2_1 : Vec Ideal S2x1x16 .f32) (ix3 cc (0 : Fin 1) k) = cntsPC (lOf V c) cc k)

include h4 h5 in
/-- What a core's first step writes into the table is the kernel's centre table. -/
theorem table_first (t : Fin cfg1.N) (d : Fin 32) (k : Fin 16) :
    k1_pay2 (iblk1 V c 2 t) (iblk1 V c 3 t) (ix2 d k) = ctrK (xOf V c) (lOf V c) d k := by
  refine (pay2_apply (iblk1 V c 2 t) (iblk1 V c 3 t) d k).trans ?_
  unfold ctrK
  refine congrArg₂ Ideal.div (Finset.sum_congr rfl fun cc _ => ?_)
    (congrArg₂ max (Finset.sum_congr rfl fun cc _ => ?_) rfl)
  · exact (sblk_apply V c t cc d k).trans (h4 cc d k)
  · exact (cblk_apply V c t cc 0 k).trans (h5 cc k)

/-- A later step carries the pair over what the step before left. -/
theorem outs_succ (n : ℕ) (hn : n + 1 < cfg1.N) (h : ¬ (n + 1) % 8 = 0) :
    outsAt1 V c (n + 1) hn
      = (k1_pay3 (iblk1 V c 0 ⟨n + 1, hn⟩) (iblk1 V c 1 ⟨n + 1, hn⟩) (outsAt1 V c n (Nat.lt_of_succ_lt hn)).2
          (outsAt1 V c n (Nat.lt_of_succ_lt hn)).1, (outsAt1 V c n (Nat.lt_of_succ_lt hn)).2) :=
  outsAt1_next V c ⟨n + 1, hn⟩ h

include h4 h5 in
/-- THE TABLE after every point is the kernel's centre table: written at each core's first step, carried since. -/
theorem table_inv : ∀ (n : ℕ) (hn : n < cfg1.N) (d : Fin 32) (k : Fin 16),
    (outsAt1 V c n hn).2 (ix2 d k) = ctrK (xOf V c) (lOf V c) d k
  | 0, hn, d, k => by
    rw [show outsAt1 V c 0 hn = _ from outsAt1_first V c ⟨0, hn⟩ rfl]
    dsimp only
    exact table_first V c h4 h5 ⟨0, hn⟩ d k
  | n + 1, hn, d, k => by
    by_cases h0 : (n + 1) % 8 = 0
    · rw [show outsAt1 V c (n + 1) hn = _ from outsAt1_first V c ⟨n + 1, hn⟩ h0]
      dsimp only
      exact table_first V c h4 h5 ⟨n + 1, hn⟩ d k
    · rw [outs_succ V c n hn h0]
      dsimp only
      exact table_inv n (Nat.lt_of_succ_lt hn) d k

/-- A block's lanes' squared hinges against the centre table add up to the block's summed hinge. -/
theorem block_sum (t : Fin cfg1.N) (tbl : Vec Ideal S32x16 .f32)
    (ht : ∀ (d : Fin 32) (k : Fin 16), tbl (ix2 d k) = ctrK (xOf V c) (lOf V c) d k) :
    ∑ j : Fin 32768, hingeL (iblk1 V c 0 t) (iblk1 V c 1 t) tbl j = blockHinge (xOf V c) (lOf V c) t.val := by
  have hN : cfg1.N = 16 := N_1
  have ht16 : t.val < 16 := hN ▸ t.isLt
  unfold blockHinge
  rw [dif_pos ht16]
  refine Finset.sum_congr rfl fun j _ => ?_
  exact hingeL_eq (iblk1 V c 0 t) (iblk1 V c 1 t) tbl (xOf V c) (lOf V c) (lanePt t.val ht16 j) j
    (fun d => xblk_apply V c t d j (lanePt t.val ht16 j) rfl) (lblk_apply V c t j (lanePt t.val ht16 j) rfl) ht

include h4 h5 in
/-- THE OUTPUT CELL after point n holds the summed hinges of the core's blocks up to n. -/
theorem cell_inv : ∀ (n : ℕ) (hn : n < cfg1.N),
    (outsAt1 V c n hn).1 (ix3 (0 : Fin 1) (0 : Fin 1) (0 : Fin 1))
      = ∑ s ∈ Finset.range (n % 8 + 1), blockHinge (xOf V c) (lOf V c) (8 * (n / 8) + s)
  | 0, hn => by
    rw [show outsAt1 V c 0 hn = _ from outsAt1_first V c ⟨0, hn⟩ rfl]
    dsimp only
    refine (pay3_apply (iblk1 V c 0 ⟨0, hn⟩) (iblk1 V c 1 ⟨0, hn⟩) (k1_pay2 (iblk1 V c 2 ⟨0, hn⟩) (iblk1 V c 3 ⟨0, hn⟩))
      (k1_pay1 (F := Ideal))).trans ?_
    rw [pay1_apply, zero_add, block_sum V c ⟨0, hn⟩ _ (table_first V c h4 h5 ⟨0, hn⟩)]
    simp
  | n + 1, hn => by
    by_cases h0 : (n + 1) % 8 = 0
    · rw [show outsAt1 V c (n + 1) hn = _ from outsAt1_first V c ⟨n + 1, hn⟩ h0]
      dsimp only
      refine (pay3_apply (iblk1 V c 0 ⟨n + 1, hn⟩) (iblk1 V c 1 ⟨n + 1, hn⟩)
        (k1_pay2 (iblk1 V c 2 ⟨n + 1, hn⟩) (iblk1 V c 3 ⟨n + 1, hn⟩)) (k1_pay1 (F := Ideal))).trans ?_
      rw [pay1_apply, zero_add, block_sum V c ⟨n + 1, hn⟩ _ (table_first V c h4 h5 ⟨n + 1, hn⟩), h0,
        Finset.sum_range_one]
      congr 1
      show n + 1 = 8 * ((n + 1) / 8) + 0
      omega
    · rw [outs_succ V c n hn h0]
      dsimp only
      refine (pay3_apply (iblk1 V c 0 ⟨n + 1, hn⟩) (iblk1 V c 1 ⟨n + 1, hn⟩) (outsAt1 V c n (Nat.lt_of_succ_lt hn)).2
        (outsAt1 V c n (Nat.lt_of_succ_lt hn)).1).trans ?_
      rw [cell_inv n (Nat.lt_of_succ_lt hn), block_sum V c ⟨n + 1, hn⟩ _ (table_inv V c h4 h5 n (Nat.lt_of_succ_lt hn))]
      have e1 : (n + 1) % 8 = n % 8 + 1 := by omega
      have e2 : (n + 1) / 8 = n / 8 := by omega
      rw [e1, e2, Finset.sum_range_succ _ (n % 8 + 1)]
      congr 2
      show n + 1 = 8 * (n / 8) + (n % 8 + 1)
      omega

end Inv

/-! ### The core's eight blocks, and the output array -/

/-- A core's eight blocks' summed hinges are the core's partial sum: block 8 * cc + i, lane j is the point
    (core cc, step i, lane j). -/
theorem blocks_eq_varPC (x : Fin 32 → Fin 524288 → EReal) (l : Fin 524288 → BitVec 32) (cc : Fin 2) :
    ∑ s ∈ Finset.range 8, blockHinge x l (8 * cc.val + s) = varPC x l cc := by
  unfold varPC
  rw [Finset.sum_range]
  refine Finset.sum_congr rfl fun i _ => ?_
  have h : 8 * cc.val + i.val < 16 := by have := cc.isLt; have := i.isLt; omega
  unfold blockHinge
  rw [dif_pos h]
  refine Finset.sum_congr rfl fun j _ => ?_
  have e : lanePt (8 * cc.val + i.val) h j = pos cc i j :=
    Fin.ext (by show (8 * cc.val + i.val) * 32768 + j.val = (cc.val * 8 + i.val) * 32768 + j.val; omega)
  rw [e]

/-- THE SECOND GRID'S OUTPUT ARRAY: entry cc is core cc's partial sum of the squared hinges, when the two tables
    the grid reads are the first grid's per-core sums and sizes. -/
theorem var_arr (c : Dev nD)
    (h4 : ∀ (cc : Fin 2) (d : Fin 32) (k : Fin 16),
      (V c main_v2_0 : Vec Ideal S2x32x16 .f32) (ix3 cc d k) = sumsPC (xOf V c) (lOf V c) cc d k)
    (h5 : ∀ (cc : Fin 2) (k : Fin 16),
      (V c main_v2_1 : Vec Ideal S2x1x16 .f32) (ix3 cc (0 : Fin 1) k) = cntsPC (lOf V c) cc k)
    (cc : Fin 2) :
    (dat1 (F := Ideal) V c).arrAt 4 cfg1.N (ix3 cc (0 : Fin 1) (0 : Fin 1)) = varPC (xOf V c) (lOf V c) cc := by
  refine (arr1_4 V c cc).trans ?_
  refine (cell_inv V c h4 h5 (8 * cc.val + 7) (last_lt1 cc.val cc.isLt)).trans ?_
  have e1 : (8 * cc.val + 7) % 8 = 7 := by omega
  have e2 : (8 * cc.val + 7) / 8 = cc.val := by omega
  rw [e1, e2]
  exact blocks_eq_varPC _ _ cc

end Cert.KernelIdeal.Val1

end
-- ==== Proof.KiValue.lean ====
/-
  The kernel program's result in the specification's terms, on the extended reals.

  The contents of a core's buffers are followed from the launch to the end of @main.  The two arguments are
  re-laid as [32, 524288] and [1, 524288]: point n is row n / 1024, column n % 1024 of the image, the same
  row-major position.  Region 0 leaves the cores' partial sums and partial sizes of the clusters in its two
  output arrays.  Region 1 reads those two arrays and the re-laid arguments through input windows, which
  leave their arrays as they found them, and leaves the cores' partial hinge sums in its output array.  The
  host operations that follow make of the three arrays
      the centre table   C[k, d] = ctrK d k       (clusters by coordinates)   and
      the variance term  v       = varSumK / 16,
  nothing after those two writes either, and the result is the tail both programs share, applied to C and v.
-/
import proofs.«429783_j3401614098830_3_alg».proof.Proof.KiHost
import proofs.«429783_j3401614098830_3_alg».proof.Proof.KiRun
import proofs.«429783_j3401614098830_3_alg».proof.Proof.KiVal0
import proofs.«429783_j3401614098830_3_alg».proof.Proof.KiVal1
import proofs.«429783_j3401614098830_3_alg».proof.Proof.Spec
import Idealize.ShloMosaic.Lib.Pipeline.FrameSuffix
import Idealize.ShloMosaic.Lib.Pipeline.Cells
import Idealize.ShloMosaic.Lib.Pipeline.Value
import Idealize.ShloMosaic.Lib.ValueIdx
import Idealize.ShloMosaic.Lib.StableHlo.Run

noncomputable section

namespace Cert.KernelIdeal.Value1

open Cert.KernelIdeal Cert.KernelIdeal.Gen Cert.KernelIdeal.Hand Cert.Hand.Spec
open Idealize.ShloMosaic Idealize.ShloMosaic.TcCoe Idealize.ShloMosaic.ValueIdx
open Idealize.SL Idealize.SL.Sem
open scoped BigOperators

/-! ## The run's contents in the specification's terms -/

section Run
variable (m : (ℓ : Loc nD τ sig) → Buf (Elt Ideal) ℓ) (ρ : Dev nD → PrngReg)

/-- Region 0 is entered with the data argument re-laid as [32, 524288] … -/
theorem entry_data (c : Dev nD) :
    Wb1 (F := Ideal) m ρ c (Proc.devRef .tc main_v0)
      = shapeCast S32x524288 (m ((c.tc : Thread nD τ).loc main_arg0)) shapeCasts_S32x512x1024_S32x524288 := by
  show StableHlo.after hostOps0 (Wb0 m ρ c) (Proc.devRef .tc main_v0) = _
  simp only [hostOps0]
  after_results
  rfl

/-- … and the label argument as [1, 524288]. -/
theorem entry_labels (c : Dev nD) :
    Wb1 (F := Ideal) m ρ c (Proc.devRef .tc main_v1)
      = shapeCast S1x524288 (m ((c.tc : Thread nD τ).loc main_arg1)) shapeCasts_S512x1024_S1x524288 := by
  show StableHlo.after hostOps0 (Wb0 m ρ c) (Proc.devRef .tc main_v1) = _
  simp only [hostOps0]
  after_results
  rfl

/-- Point `n` of the re-laid data is row `n / 1024`, column `n % 1024` of the image: the same row-major position. -/
theorem entry_pt (c : Dev nD) (d : Fin 32) (n : Fin 524288) :
    Vb1 (F := Ideal) m ρ c main_v0 (ix2 d n) = pt (m ((c.tc : Thread nD τ).loc main_arg0)) d n := by
  refine (congrFun (entry_data m ρ c) (ix2 d n)).trans ?_
  refine shapeCast_apply _ _ (ix2 d n) (ix3 d (rowOf n) (colOf n)) ?_
  rw [Shape.rowMajor_val_three, Shape.rowMajor_val_two]
  show (d.val * 512 + n.val / 1024) * 1024 + n.val % 1024 = d.val * 524288 + n.val
  omega

theorem entry_lab (c : Dev nD) (n : Fin 524288) :
    Vb1 (F := Ideal) m ρ c main_v1 (ix2 (0 : Fin 1) n) = lab (m ((c.tc : Thread nD τ).loc main_arg1)) n := by
  refine (congrFun (entry_labels m ρ c) (ix2 (0 : Fin 1) n)).trans ?_
  refine shapeCast_apply _ _ (ix2 (0 : Fin 1) n) (ix2 (rowOf n) (colOf n)) ?_
  rw [Shape.rowMajor_val_two, Shape.rowMajor_val_two]
  show n.val / 1024 * 1024 + n.val % 1024 = 0 * 524288 + n.val
  omega

theorem entry_x (c : Dev nD) :
    (fun (d : Fin 32) (n : Fin 524288) => Vb1 (F := Ideal) m ρ c main_v0 (ix2 d n)) = pt (m ((c.tc : Thread nD τ).loc main_arg0)) :=
  funext fun d => funext fun n => entry_pt m ρ c d n
theorem entry_l (c : Dev nD) :
    (fun (n : Fin 524288) => Vb1 (F := Ideal) m ρ c main_v1 (ix2 (0 : Fin 1) n)) = lab (m ((c.tc : Thread nD τ).loc main_arg1)) :=
  funext fun n => entry_lab m ρ c n

/-- An input window's array leaves its region as it entered: region 0 … -/
theorem Wb2_in (c : Dev nD) (w : Fin cfg0.W) (hin : (cfg0.win w).isOut = false) :
    Wb2 (F := Ideal) m ρ c (Proc.devRef .tc (Pipeline.arrRef spec0 w)) = Wb1 (F := Ideal) m ρ c (Proc.devRef .tc (Pipeline.arrRef spec0 w)) :=
  (Wb2_arr m ρ c w).trans (((dat0 (Vb1 m ρ) c).arrAt_in w hin _).trans (A_eq0 (Vb1 m ρ) c w))
/-- … and region 1. -/
theorem Wb3_in (c : Dev nD) (w : Fin cfg1.W) (hin : (cfg1.win w).isOut = false) :
    Wb3 (F := Ideal) m ρ c (Proc.devRef .tc (Pipeline.arrRef spec1 w)) = Wb2 (F := Ideal) m ρ c (Proc.devRef .tc (Pipeline.arrRef spec1 w)) :=
  (Wb3_arr m ρ c w).trans (((dat1 (Vb2 m ρ) c).arrAt_in w hin _).trans (A_eq1 (Vb2 m ρ) c w))

/-- Region 1 is entered with the same points and labels as region 0. -/
theorem mid_x (c : Dev nD) :
    (fun (d : Fin 32) (n : Fin 524288) => Vb2 (F := Ideal) m ρ c main_v0 (ix2 d n)) = pt (m ((c.tc : Thread nD τ).loc main_arg0)) :=
  funext fun d => funext fun n => (congrFun (Wb2_in m ρ c 0 rfl) (ix2 d n)).trans (entry_pt m ρ c d n)
theorem mid_l (c : Dev nD) :
    (fun (n : Fin 524288) => Vb2 (F := Ideal) m ρ c main_v1 (ix2 (0 : Fin 1) n)) = lab (m ((c.tc : Thread nD τ).loc main_arg1)) :=
  funext fun n => (congrFun (Wb2_in m ρ c 1 rfl) (ix2 (0 : Fin 1) n)).trans (entry_lab m ρ c n)

/-- The specification's quantities at the points and labels region 0 is entered with are those at the arguments' … -/
theorem sums_at_entry (c : Dev nD) (cc : Fin 2) (d : Fin 32) (k : Fin 16) :
    sumsPC (fun (d : Fin 32) (n : Fin 524288) => Vb1 (F := Ideal) m ρ c main_v0 (ix2 d n))
        (fun (n : Fin 524288) => Vb1 (F := Ideal) m ρ c main_v1 (ix2 (0 : Fin 1) n)) cc d k
      = sumsPC (pt (m ((c.tc : Thread nD τ).loc main_arg0))) (lab (m ((c.tc : Thread nD τ).loc main_arg1))) cc d k := by
  rw [entry_x m ρ c, entry_l m ρ c]
theorem cnts_at_entry (c : Dev nD) (cc : Fin 2) (k : Fin 16) :
    cntsPC (fun (n : Fin 524288) => Vb1 (F := Ideal) m ρ c main_v1 (ix2 (0 : Fin 1) n)) cc k
      = cntsPC (lab (m ((c.tc : Thread nD τ).loc main_arg1))) cc k := by
  rw [entry_l m ρ c]
/-- … and so are those at the points and labels region 1 is entered with. -/
theorem sums_at_mid (c : Dev nD) (cc : Fin 2) (d : Fin 32) (k : Fin 16) :
    sumsPC (fun (d : Fin 32) (n : Fin 524288) => Vb2 (F := Ideal) m ρ c main_v0 (ix2 d n))
        (fun (n : Fin 524288) => Vb2 (F := Ideal) m ρ c main_v1 (ix2 (0 : Fin 1) n)) cc d k
      = sumsPC (pt (m ((c.tc : Thread nD τ).loc main_arg0))) (lab (m ((c.tc : Thread nD τ).loc main_arg1))) cc d k := by
  rw [mid_x m ρ c, mid_l m ρ c]
theorem cnts_at_mid (c : Dev nD) (cc : Fin 2) (k : Fin 16) :
    cntsPC (fun (n : Fin 524288) => Vb2 (F := Ideal) m ρ c main_v1 (ix2 (0 : Fin 1) n)) cc k
      = cntsPC (lab (m ((c.tc : Thread nD τ).loc main_arg1))) cc k := by
  rw [mid_l m ρ c]
theorem var_at_mid (c : Dev nD) (cc : Fin 2) :
    varPC (fun (d : Fin 32) (n : Fin 524288) => Vb2 (F := Ideal) m ρ c main_v0 (ix2 d n))
        (fun (n : Fin 524288) => Vb2 (F := Ideal) m ρ c main_v1 (ix2 (0 : Fin 1) n)) cc
      = varPC (pt (m ((c.tc : Thread nD τ).loc main_arg0))) (lab (m ((c.tc : Thread nD τ).loc main_arg1))) cc := by
  rw [mid_x m ρ c, mid_l m ρ c]

/-- Region 0 leaves the cores' partial sums … -/
theorem sums_mid (c : Dev nD) (cc : Fin 2) (d : Fin 32) (k : Fin 16) :
    Vb2 (F := Ideal) m ρ c main_v2_0 (ix3 cc d k)
      = sumsPC (pt (m ((c.tc : Thread nD τ).loc main_arg0))) (lab (m ((c.tc : Thread nD τ).loc main_arg1))) cc d k :=
  (congrFun (Wb2_arr m ρ c 2) (ix3 cc d k)).trans
    ((Cert.KernelIdeal.Val0.sums_arr (Vb1 (F := Ideal) m ρ) c cc d k).trans (sums_at_entry m ρ c cc d k))
/-- … and partial sizes. -/
theorem cnts_mid (c : Dev nD) (cc : Fin 2) (k : Fin 16) :
    Vb2 (F := Ideal) m ρ c main_v2_1 (ix3 cc (0 : Fin 1) k)
      = cntsPC (lab (m ((c.tc : Thread nD τ).loc main_arg1))) cc k :=
  (congrFun (Wb2_arr m ρ c 3) (ix3 cc (0 : Fin 1) k)).trans
    ((Cert.KernelIdeal.Val0.cnts_arr (Vb1 (F := Ideal) m ρ) c cc k).trans (cnts_at_entry m ρ c cc k))

/-- Region 1 reads them and does not change them. -/
theorem sums_end (c : Dev nD) (cc : Fin 2) (d : Fin 32) (k : Fin 16) :
    Wb3 (F := Ideal) m ρ c (Proc.devRef .tc main_v2_0) (ix3 cc d k)
      = sumsPC (pt (m ((c.tc : Thread nD τ).loc main_arg0))) (lab (m ((c.tc : Thread nD τ).loc main_arg1))) cc d k :=
  (congrFun (Wb3_in m ρ c 2 rfl) (ix3 cc d k)).trans (sums_mid m ρ c cc d k)
theorem cnts_end (c : Dev nD) (cc : Fin 2) (k : Fin 16) :
    Wb3 (F := Ideal) m ρ c (Proc.devRef .tc main_v2_1) (ix3 cc (0 : Fin 1) k)
      = cntsPC (lab (m ((c.tc : Thread nD τ).loc main_arg1))) cc k :=
  (congrFun (Wb3_in m ρ c 3 rfl) (ix3 cc (0 : Fin 1) k)).trans (cnts_mid m ρ c cc k)

/-- Region 1 leaves the cores' partial hinge sums. -/
theorem var_end (c : Dev nD) (cc : Fin 2) :
    Wb3 (F := Ideal) m ρ c (Proc.devRef .tc main_v3) (ix3 cc (0 : Fin 1) (0 : Fin 1))
      = varPC (pt (m ((c.tc : Thread nD τ).loc main_arg0))) (lab (m ((c.tc : Thread nD τ).loc main_arg1))) cc :=
  (congrFun (Wb3_arr m ρ c 4) (ix3 cc (0 : Fin 1) (0 : Fin 1))).trans
    ((Cert.KernelIdeal.Val1.var_arr (Vb2 (F := Ideal) m ρ) c
        (fun cc d k => (sums_mid m ρ c cc d k).trans (sums_at_mid m ρ c cc d k).symm)
        (fun cc k => (cnts_mid m ρ c cc k).trans (cnts_at_mid m ρ c cc k).symm) cc).trans
      (var_at_mid m ρ c cc))

/-! ## The kernel program's result -/

/-- The kernel's centre table, clusters by coordinates: what @main ends with in the transposed table's buffer. -/
def ctrT (c : Dev nD) : FVec Ideal S16x32 .f32 := Wb8 (F := Ideal) m ρ c (Proc.devRef .tc main_v12)
/-- The kernel's variance term: what @main ends with in that scalar's buffer. -/
def vtK (c : Dev nD) : FVec Ideal S_ .f32 := Wb8 (F := Ideal) m ρ c (Proc.devRef .tc main_v5)

/-- The contents once the centre table is complete. -/
abbrev Wcut (c : Dev nD) : Valuation τ sig (Elt Ideal) := StableHlo.after hostOps2a (Wb3 (F := Ideal) m ρ c)

theorem Wb4_cut (c : Dev nD) : Wb4 (F := Ideal) m ρ c = StableHlo.after hostOps2b (Wcut m ρ c) := by
  show StableHlo.after hostOps2 (Wb3 m ρ c) = _
  rw [hostOps2_cut, after_append]

/-- Nothing after the cut writes the centre table or the variance term. -/
theorem ctrT_cut (c : Dev nD) : ctrT m ρ c = Wcut m ρ c (Proc.devRef .tc main_v12) :=
  (Wb8_of m ρ c main_v12 (by decide)).trans <| (Wb7_of m ρ c main_v12 (by decide)).trans <|
  (Wb6_of m ρ c main_v12 (by decide)).trans <| (Wb5_of m ρ c main_v12 (by decide)).trans <|
  (congrFun (Wb4_cut m ρ c) _).trans (keeps_ctr _)
theorem vtK_cut (c : Dev nD) : vtK m ρ c = Wcut m ρ c (Proc.devRef .tc main_v5) :=
  (Wb8_of m ρ c main_v5 (by decide)).trans <| (Wb7_of m ρ c main_v5 (by decide)).trans <|
  (Wb6_of m ρ c main_v5 (by decide)).trans <| (Wb5_of m ρ c main_v5 (by decide)).trans <|
  (congrFun (Wb4_cut m ρ c) _).trans (keeps_vt _)

/-- @main's result is the shared tail of the kernel's centre table and variance term. -/
theorem result_eq (c : Dev nD) :
    Wb8 (F := Ideal) m ρ c (Proc.devRef .tc main_v44) = Cert.Hand.tail (ctrT m ρ c) (vtK m ρ c) := by
  rw [ctrT_cut, vtK_cut]
  show StableHlo.after hostOps2_4 (StableHlo.after hostOps2_3 (StableHlo.after hostOps2_2 (StableHlo.after hostOps2_1
    (Wb4 (F := Ideal) m ρ c)))) (Proc.devRef .tc main_v44) = _
  rw [Wb4_cut]
  exact tail_run (Wcut m ρ c)

/-- Entry (cluster `k`, coordinate `d`) of the kernel's centre table is the specification's. -/
theorem ctrT_apply (c : Dev nD) (k : Fin 16) (d : Fin 32) :
    ctrT m ρ c (ix2 k d)
      = ctrK (pt (m ((c.tc : Thread nD τ).loc main_arg0))) (lab (m ((c.tc : Thread nD τ).loc main_arg1))) d k := by
  refine (congrFun (ctrT_cut m ρ c) (ix2 k d)).trans ?_
  refine (congrFun (cut_ctr (Wb3 (F := Ideal) m ρ c)) (ix2 k d)).trans ?_
  refine (ctrOf_apply _ _ k d).trans ?_
  simp only [sums_end m ρ c, cnts_end m ρ c]
  rfl

/-- The kernel's variance term is the specification's summed hinge over the literal 16.0. -/
theorem vtK_eq (c : Dev nD) :
    vtK m ρ c = fun _ => Ideal.div (varSumK (pt (m ((c.tc : Thread nD τ).loc main_arg0))) (lab (m ((c.tc : Thread nD τ).loc main_arg1))))
      (Ideal.ofBits .f32 0x41800000#32) := by
  funext i
  refine (congrFun (vtK_cut m ρ c) i).trans ?_
  refine (congrFun (cut_vt (Wb3 (F := Ideal) m ρ c)) i).trans ?_
  refine (vtOf_apply _ i).trans ?_
  simp only [var_end m ρ c]
  rfl
end Run

end Cert.KernelIdeal.Value1

end
-- ==== Proof.RefScatter.lean ====
/-
  The reference's two scatter-adds and its row gather, read at an index.

  The reference forms the cluster sizes by adding a one at each point's label into sixteen zeros, and the cluster
  sums by adding each point's row of 32 coordinates into the row of a 16 x 32 table of zeros its label names; an
  update whose label, read as a signed number, is outside 0 … 15 lands nowhere.  So entry k of the first is
  0 + the number of points whose label is the word of k, and entry (k, d) of the second is 0 + the sum of coordinate d
  over those points.  The gather of rows of a 16 x 32 table at the labels reads, for point n, the row at n's label
  read signed and clamped into 0 … 15.
-/
import proofs.«429783_j3401614098830_3_alg».proof.Proof.RefRead
import proofs.«429783_j3401614098830_3_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
open Cert.Hand.Spec
open scoped BigOperators

/-- The dimension numbers of the size scatter: sixteen cells, one index word and one update per point. -/
abbrev D1 := scatter_S16_S524288x1_S524288_n_0_0_1
/-- The dimension numbers of the sum scatter: a 16 x 32 table, one index word and one row of 32 updates per point. -/
abbrev D2 := scatter_S16x32_S524288x1_S524288x32_1_0_0_1
/-- The dimension numbers of the row gather: a 16 x 32 table, one index word per point, rows of 32. -/
abbrev G := gather_S16x32_S524288x1_S524288x32_1_0_n_n_0_1_132

/-! ## Words -/

/-- The word of a number k < 16, read signed, is k. -/
theorem toInt_ofNat_small (k : Fin 16) : (BitVec.ofNat 32 k.val).toInt = (k.val : Int) := by
  have hk := k.isLt
  have hn : (BitVec.ofNat 32 k.val).toNat = k.val := by rw [BitVec.toNat_ofNat]; omega
  rw [BitVec.toInt_eq_toNat_of_lt (by rw [hn]; omega), hn]

/-- A 32-bit word read signed is the number k < 16 exactly when it is the word of k. -/
theorem toInt_eq_iff (x : BitVec 32) (k : Fin 16) : x.toInt = (k.val : Int) ↔ x = BitVec.ofNat 32 k.val := by
  constructor
  · intro h
    exact BitVec.eq_of_toInt_eq (h.trans (toInt_ofNat_small k).symm)
  · rintro rfl
    exact toInt_ofNat_small k

/-! ## The count scatter, read at a cluster -/

theorem D1_start (j : S524288.Idx) (idx : IVec S524288x1 32) : D1.start j idx 0 = (idx (ix2 (j 0) (0 : Fin 1))).toInt := by
  unfold ScatterDims.start
  rw [dif_pos (show (0 : Fin 1) ∈ D1.scatterDimsToOperandDims from List.mem_singleton.mpr rfl)]
  refine congrArg (fun q => (idx q).toInt) ?_
  funext b
  match b with
  | ⟨0, _⟩ => rfl
  | ⟨1, _⟩ => rfl

theorem D1_window (j : S524288.Idx) : D1.window j 0 = 0 := by
  unfold ScatterDims.window
  rw [dif_neg (by decide)]

/-- Update n lands on cluster k exactly when its index word is the word of k. -/
theorem D1_lands (idx : IVec S524288x1 32) (n : Fin 524288) (k : Fin 16) :
    D1.resultIdx? (ix1 n) idx = some (ix1 k) ↔ idx (ix2 n (0 : Fin 1)) = BitVec.ofNat 32 k.val := by
  rw [← toInt_eq_iff]
  have hk := k.isLt
  have hsw : ∀ a : Fin 1, D1.start (ix1 n) idx a + (D1.window (ix1 n) a : Int) = (idx (ix2 n (0 : Fin 1))).toInt := by
    intro a
    obtain rfl : a = 0 := Subsingleton.elim _ _
    rw [D1_start, D1_window]
    exact Int.add_zero _
  unfold ScatterDims.resultIdx?
  split
  · rename_i h
    have h0 : 0 ≤ (idx (ix2 n (0 : Fin 1))).toInt ∧ (idx (ix2 n (0 : Fin 1))).toInt < 16 := by
      have := h 0; rw [hsw] at this; exact this
    rw [Option.some.injEq]
    constructor
    · intro hf
      have h1 : (D1.start (ix1 n) idx 0 + (D1.window (ix1 n) 0 : Int)).toNat = k.val := congrArg (fun f => (f 0).val) hf
      rw [hsw] at h1
      omega
    · intro hv
      funext a
      refine Fin.ext ?_
      show (D1.start (ix1 n) idx a + (D1.window (ix1 n) a : Int)).toNat = (ix1 k a).val
      obtain rfl : a = 0 := Subsingleton.elim _ _
      rw [hsw]
      show (idx (ix2 n (0 : Fin 1))).toInt.toNat = k.val
      omega
  · rename_i h
    constructor
    · intro hf; exact absurd hf (by simp)
    · intro hv
      exfalso; apply h
      intro a
      rw [hsw]
      obtain rfl : a = 0 := Subsingleton.elim _ _
      show 0 ≤ (idx (ix2 n (0 : Fin 1))).toInt ∧ (idx (ix2 n (0 : Fin 1))).toInt < 16
      omega

/-! ## The sum scatter, read at (cluster, coordinate) -/

theorem D2_start0 (n : Fin 524288) (d : Fin 32) (idx : IVec S524288x1 32) :
    D2.start (ix2 n d) idx 0 = (idx (ix2 n (0 : Fin 1))).toInt := by
  unfold ScatterDims.start
  rw [dif_pos (show (0 : Fin 2) ∈ D2.scatterDimsToOperandDims from List.mem_singleton.mpr rfl)]
  refine congrArg (fun q => (idx q).toInt) ?_
  funext b
  match b with
  | ⟨0, _⟩ => rfl
  | ⟨1, _⟩ => rfl

theorem D2_start1 (n : Fin 524288) (d : Fin 32) (idx : IVec S524288x1 32) : D2.start (ix2 n d) idx 1 = 0 := by
  unfold ScatterDims.start
  rw [dif_neg (by decide)]

theorem D2_window0 (n : Fin 524288) (d : Fin 32) : D2.window (ix2 n d) 0 = 0 := by
  unfold ScatterDims.window
  rw [dif_neg (by decide)]

theorem D2_window1 (n : Fin 524288) (d : Fin 32) : D2.window (ix2 n d) 1 = d.val := by
  unfold ScatterDims.window
  rw [dif_pos (by decide)]
  rfl

/-- Update (n, d') lands on (k, d) exactly when n's index word is the word of k and d' is d. -/
theorem D2_lands (idx : IVec S524288x1 32) (n : Fin 524288) (d' : Fin 32) (k : Fin 16) (d : Fin 32) :
    D2.resultIdx? (ix2 n d') idx = some (ix2 k d) ↔ idx (ix2 n (0 : Fin 1)) = BitVec.ofNat 32 k.val ∧ d' = d := by
  rw [← toInt_eq_iff]
  have hk := k.isLt
  have hd := d.isLt
  have hd' := d'.isLt
  have hsw0 : D2.start (ix2 n d') idx 0 + (D2.window (ix2 n d') 0 : Int) = (idx (ix2 n (0 : Fin 1))).toInt := by
    rw [D2_start0, D2_window0]; exact Int.add_zero _
  have hsw1 : D2.start (ix2 n d') idx 1 + (D2.window (ix2 n d') 1 : Int) = (d'.val : Int) := by
    rw [D2_start1, D2_window1]; exact Int.zero_add _
  unfold ScatterDims.resultIdx?
  split
  · rename_i h
    have h0 : 0 ≤ (idx (ix2 n (0 : Fin 1))).toInt ∧ (idx (ix2 n (0 : Fin 1))).toInt < 16 := by
      have := h 0; rw [hsw0] at this; exact this
    rw [Option.some.injEq]
    constructor
    · intro hf
      have e0 : (D2.start (ix2 n d') idx 0 + (D2.window (ix2 n d') 0 : Int)).toNat = k.val :=
        congrArg (fun f => (f 0).val) hf
      have e1 : (D2.start (ix2 n d') idx 1 + (D2.window (ix2 n d') 1 : Int)).toNat = d.val :=
        congrArg (fun f => (f 1).val) hf
      rw [hsw0] at e0; rw [hsw1] at e1
      exact ⟨by omega, Fin.ext (by omega)⟩
    · rintro ⟨hv, rfl⟩
      funext a
      refine Fin.ext ?_
      show (D2.start (ix2 n d') idx a + (D2.window (ix2 n d') a : Int)).toNat = (ix2 k d' a).val
      revert a
      rw [Fin.forall_fin_two]
      constructor
      · rw [hsw0]; show (idx (ix2 n (0 : Fin 1))).toInt.toNat = k.val; omega
      · rw [hsw1]; show ((d'.val : Int)).toNat = d'.val; omega
  · rename_i h
    constructor
    · intro hf; exact absurd hf (by simp)
    · rintro ⟨hv, rfl⟩
      exfalso; apply h
      rw [Fin.forall_fin_two]
      constructor
      · rw [hsw0]
        show 0 ≤ (idx (ix2 n (0 : Fin 1))).toInt ∧ (idx (ix2 n (0 : Fin 1))).toInt < 16
        omega
      · rw [hsw1]
        show 0 ≤ (d'.val : Int) ∧ (d'.val : Int) < 32
        omega

/-! ## The row gather, read at (point, coordinate) -/

/-- Row n of the gather is the table's row at n's index word, read signed and clamped into 0 … 15. -/
theorem gather_row {α : Type} (x : S16x32.Idx → α) (idx : IVec S524288x1 32) (n : Fin 524288) (d : Fin 32) :
    Host.gather G x idx (ix2 n d)
      = x (ix2 (⟨min (idx (ix2 n (0 : Fin 1))).toInt.toNat 15, by omega⟩ : Fin 16) d) := by
  unfold Host.gather
  refine congrArg x ?_
  funext a
  refine Fin.ext ?_
  show G.start (ix2 n d) idx a + G.batchCoord (ix2 n d) a + G.offCoord (ix2 n d) a = _
  rw [GatherDims.batchCoord_eq_zero _ _ _ List.not_mem_nil]
  revert a
  rw [Fin.forall_fin_two]
  constructor
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 n d) ⟨List.idxOf (0 : Fin 2) G.startIndexMap,
        List.idxOf_lt_length_iff.2 (List.mem_singleton.mpr rfl)⟩ = ix2 n (0 : Fin 1) := by
      funext b
      match b with
      | ⟨0, _⟩ => rfl
      | ⟨1, _⟩ => rfl
    rw [hsi]
    rfl
  · have hs : G.start (ix2 n d) idx 1 = 0 := by
      unfold GatherDims.start
      rw [dif_neg (by decide)]
    have ho : G.offCoord (ix2 n d) 1 = d.val := by
      unfold GatherDims.offCoord
      rw [dif_pos (by decide)]
      rfl
    rw [hs, ho]
    show 0 + 0 + d.val = d.val
    omega

/-! ## Constants, and sums over a rank-1 index set -/

/-- The f32 word of one. -/
theorem ofBits_one_f32 : Ideal.ofBits .f32 0x3F800000#32 = 1 := by
  simp [Ideal.ofBits, Ideal.ieee, -EReal.coe_mul]; norm_num

/-- A rank-1 index set is its coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The arguments read through the reshapes -/

abbrev A0 := (⟨S32x512x1024, .f32⟩ : BufTy).Contents (Elt Ideal)
abbrev A1 := (⟨S512x1024, .i32⟩ : BufTy).Contents (Elt Ideal)

/-- The flattened labels at n. -/
theorem lab_flat (a1 : A1) (n : Fin 524288) : val_main_v2 (F := Ideal) a1 (ix1 n) = lab a1 n := by
  rw [val_main_v2_apply]
  unfold lab
  refine congrArg a1 ?_
  funext b
  match b with
  | ⟨0, _⟩ => rfl
  | ⟨1, _⟩ => rfl

/-- The count scatter's index word of n is n's label. -/
theorem lab_read5 (a1 : A1) (n : Fin 524288) : val_main_v5 (F := Ideal) a1 (ix2 n (0 : Fin 1)) = lab a1 n := by
  rw [val_main_v5_apply, ← lab_flat]
  refine congrArg (val_main_v2 (F := Ideal) a1) ?_
  funext b
  match b with
  | ⟨0, _⟩ => rfl

/-- The sum scatter's index word of n is n's label. -/
theorem lab_read8 (a1 : A1) (n : Fin 524288) : val_main_v8 (F := Ideal) a1 (ix2 n (0 : Fin 1)) = lab a1 n := by
  rw [val_main_v8_apply, ← lab_flat]
  refine congrArg (val_main_v2 (F := Ideal) a1) ?_
  funext b
  match b with
  | ⟨0, _⟩ => rfl

/-- The transposed flattened data at (n, d) is coordinate d of point n. -/
theorem pt_read (a0 : A0) (n : Fin 524288) (d : Fin 32) : val_main_v1 (F := Ideal) a0 (ix2 n d) = pt a0 d n := by
  rw [val_main_v1_apply, val_main_v0_apply]
  unfold pt
  refine congrArg a0 ?_
  have hn := n.isLt
  have hd := d.isLt
  funext b
  match b with
  | ⟨0, _⟩ => exact Fin.ext (by show (d.val * 524288 + n.val) / 524288 = d.val; omega)
  | ⟨1, _⟩ => exact Fin.ext (by show (d.val * 524288 + n.val) / 1024 % 512 = n.val / 1024; omega)
  | ⟨2, _⟩ => exact Fin.ext (by show (d.val * 524288 + n.val) % 1024 = n.val % 1024; omega)

/-! ## The two scatters are the cluster sizes and the cluster sums -/

theorem cnt_apply (a1 : A1) (k : Fin 16) : val_main_v6 (F := Ideal) a1 (ix1 k) = cntR (lab a1) k := by
  unfold val_main_v6 Host.scatterAdd
  rw [Ideal.hostScatterAdd_def]
  unfold Ideal.hostScatterAdd cntR
  rw [val_main_v4_apply, val_main_cst_0_apply, Ideal.ofBits_def, Ideal.ofBits_zero_f32, zero_add,
    Finset.sum_filter, sum_idx1]
  refine Finset.sum_congr rfl fun n _ => ?_
  rw [val_main_v3_apply, val_main_cst_apply, Ideal.ofBits_def, ofBits_one_f32]
  refine if_congr ?_ rfl rfl
  rw [D1_lands, lab_read5]

theorem sum_apply (a0 : A0) (a1 : A1) (k : Fin 16) (d : Fin 32) :
    val_main_v9 (F := Ideal) a0 a1 (ix2 k d) = sumR (pt a0) (lab a1) k d := by
  unfold val_main_v9 Host.scatterAdd
  rw [Ideal.hostScatterAdd_def]
  unfold Ideal.hostScatterAdd sumR
  rw [val_main_v7_apply, val_main_cst_1_apply, Ideal.ofBits_def, Ideal.ofBits_zero_f32, zero_add,
    Finset.sum_filter, sum_idx2]
  refine Finset.sum_congr rfl fun n _ => ?_
  have hstep : ∀ d' : Fin 32,
      (if D2.resultIdx? (ix2 n d') (val_main_v8 (F := Ideal) a1) = some (ix2 k d) then val_main_v1 (F := Ideal) a0 (ix2 n d') else 0)
        = if d' = d then (if lab a1 n = BitVec.ofNat 32 k.val then pt a0 d n else 0) else 0 := by
    intro d'
    have hP := D2_lands (val_main_v8 (F := Ideal) a1) n d' k d
    rw [lab_read8] at hP
    by_cases hd : d' = d
    · subst hd
      rw [if_pos rfl, ← pt_read]
      exact if_congr (hP.trans (and_iff_left rfl)) rfl rfl
    · rw [if_neg hd, if_neg (fun h => hd (hP.mp h).2)]
  rw [Finset.sum_congr rfl fun d' _ => hstep d', Finset.sum_ite_eq' Finset.univ d]
  rw [if_pos (Finset.mem_univ _)]

end Cert.ReferenceIdeal.RefValue
end
-- ==== Proof.RefValue.lean ====
/-
  The reference's result as the shared tail of its centre table and its variance term, and those two values in the
  vocabulary of the specification.

  The centre table is the cluster sums over the cluster sizes: entry (k, d) = sumR k d / cntR k.  For a label in
  range the wrap-around select (label < 0 ? label + 16 : label) is the label itself and the clamp of the row gather
  does not bind, so the centre gathered for point n is row clusterOf n of the table; the per-point chain
  subtract, square, sum over the 32 coordinates, square root, minus one half, maximum with zero, square
  is the squared hinge of the specification, its sum over the points is varSumR, and the variance term divides
  that sum by the literal 16.  Everything the reference computes after these two values is `Cert.Hand.tail` of them.
-/
import proofs.«429783_j3401614098830_3_alg».proof.Proof.RefRead
import proofs.«429783_j3401614098830_3_alg».proof.Proof.RefScatter
import proofs.«429783_j3401614098830_3_alg».proof.Proof.Tail
import proofs.«429783_j3401614098830_3_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Idealize.ShloMosaic Idealize.ShloMosaic.TcCoe Idealize.SL.Sem Idealize.ShloMosaic.ValueIdx Cert.ReferenceIdeal Cert.ReferenceIdeal.Gen Cert.ReferenceIdeal.Read
open Cert.Hand.Spec
open scoped BigOperators

/-! ## The centre table -/

/-- The reference's centre table: the cluster sums over the cluster sizes spread along the rows. -/
def ctrArr (a0 : A0) (a1 : A1) : FVec Ideal S16x32 .f32 := val_main_v12 (F := Ideal) a0 a1

/-- Entry (k, d) of the centre table is the sum of coordinate d over cluster k divided by the cluster's size. -/
theorem ctrArr_apply (a0 : A0) (a1 : A1) (k : Fin 16) (d : Fin 32) :
    ctrArr a0 a1 (ix2 k d) = ctrR (pt a0) (lab a1) k d := by
  unfold ctrArr ctrR
  rw [val_main_v12_apply, Ideal.hostDivf_def, sum_apply, val_main_v11_apply, val_main_v10_apply]
  have hi : idx_main_v10 (idx_main_v11 (ix2 k d)) = ix1 k := by
    funext b
    match b with
    | ⟨0, _⟩ => rfl
  rw [hi, cnt_apply]

/-! ## The labels as gather indices -/

/-- A label in range is not signed-negative, so the wrap-around select leaves it as it is. -/
theorem sel_read (a1 : A1) (hr : InRange (lab a1)) (n : Fin 524288) :
    val_main_v18 (F := Ideal) a1 (ix2 n (0 : Fin 1)) = lab a1 n := by
  have hlt : (lab a1 n).toNat < 16 := hr n
  have hi : idx_main_v18 (ix2 n (0 : Fin 1)) = ix1 n := by
    funext b
    match b with
    | ⟨0, _⟩ => rfl
  have hz : IntOp.cmpi .slt (lab a1 n) 0#32 = 0#1 := by
    apply eq_zero_of_ne_one
    rw [Idealize.ShloMosaic.StableHlo.Predicate.slt_iff_toNat (by omega) (by decide)]
    exact Nat.not_lt_zero _
  rw [val_main_v18_apply, hi, val_main_v17_apply, val_main_v14_apply, val_main_v13_apply, val_main_c_apply,
    lab_flat, hz, select_zero]

/-- Row n of the gathered centres is the centre of the cluster n's label names. -/
theorem own_apply (a0 : A0) (a1 : A1) (hr : InRange (lab a1)) (n : Fin 524288) (d : Fin 32) :
    val_main_v19 (F := Ideal) a0 a1 (ix2 n d) = ctrArr a0 a1 (ix2 (clusterOf (lab a1) n) d) := by
  have hlt : (lab a1 n).toNat < 16 := hr n
  unfold val_main_v19 ctrArr
  rw [gather_row]
  refine congrArg (fun q : Fin 16 => val_main_v12 (F := Ideal) a0 a1 (ix2 q d)) (Fin.ext ?_)
  show min (val_main_v18 (F := Ideal) a1 (ix2 n (0 : Fin 1))).toInt.toNat 15 = (lab a1 n).toNat % 16
  rw [sel_read a1 hr, Idealize.ShloMosaic.StableHlo.Predicate.toInt_eq_toNat_of_lt (by omega), Int.toNat_natCast]
  omega

/-! ## The variance term -/

/-- The squared hinge of point n, as the reference computes it. -/
theorem hinge_apply (a0 : A0) (a1 : A1) (hr : InRange (lab a1)) (n : Fin 524288) :
    val_main_v28 (F := Ideal) a0 a1 (ix1 n)
      = hinge (pt a0) (fun d => ctrR (pt a0) (lab a1) (clusterOf (lab a1) n) d) n := by
  have hsq : val_main_v22 (F := Ideal) a0 a1 (ix1 n)
      = ∑ d : Fin 32, (ctrR (pt a0) (lab a1) (clusterOf (lab a1) n) d - pt a0 d n)
          * (ctrR (pt a0) (lab a1) (clusterOf (lab a1) n) d - pt a0 d n) := by
    rw [val_main_v22_apply, val_main_cst_3_apply, Ideal.ofBits_def, Ideal.ofBits_zero_f32, zero_add]
    refine Finset.sum_congr rfl fun d _ => ?_
    have hi : idx_main_v22 (ix1 n) d = ix2 n d := by
      funext b
      match b with
      | ⟨0, _⟩ => rfl
      | ⟨1, _⟩ => rfl
    rw [hi, val_main_v21_apply, Ideal.mulf_def, val_main_v20_apply, Ideal.subf_def, own_apply a0 a1 hr,
      ctrArr_apply, pt_read]
  have hmx : val_main_v27 (F := Ideal) a0 a1 (ix1 n)
      = max (Ideal.sqrt (∑ d : Fin 32, (ctrR (pt a0) (lab a1) (clusterOf (lab a1) n) d - pt a0 d n)
          * (ctrR (pt a0) (lab a1) (clusterOf (lab a1) n) d - pt a0 d n)) - Ideal.ofBits .f32 0x3F000000#32) 0 := by
    rw [val_main_v27_apply, Ideal.maximumf_def, val_main_v26_apply, val_main_cst_5_apply, Ideal.ofBits_def,
      Ideal.ofBits_zero_f32, val_main_v25_apply, Ideal.subf_def, val_main_v24_apply, val_main_cst_4_apply,
      Ideal.ofBits_def, val_main_v23_apply, Ideal.hostUnary_sqrt_def, hsq]
  rw [val_main_v28_apply, Ideal.mulf_def, hmx]
  rfl

/-- The reference's variance term: the summed squared hinges over the literal 16. -/
def varTerm (a0 : A0) (a1 : A1) : FVec Ideal S_ .f32 := val_main_v30 (F := Ideal) a0 a1

theorem varTerm_eq (a0 : A0) (a1 : A1) (hr : InRange (lab a1)) :
    varTerm a0 a1 = fun _ => Ideal.div (varSumR (pt a0) (lab a1)) (Ideal.ofBits .f32 0x41800000#32) := by
  funext i
  unfold varTerm varSumR
  rw [val_main_v30_apply, Ideal.hostDivf_def, val_main_cst_7_apply, Ideal.ofBits_def, val_main_v29_apply,
    val_main_cst_6_apply, Ideal.ofBits_def, Ideal.ofBits_zero_f32, zero_add, sum_idx1]
  exact congrArg (fun s => Ideal.div s (Ideal.ofBits .f32 0x41800000#32))
    (Finset.sum_congr rfl fun n _ => hinge_apply a0 a1 hr n)

/-! ## The result is the shared tail of the centre table and the variance term -/

set_option maxRecDepth 16384 in
/-- Past its centre table and its variance term the reference applies exactly the operations of `Cert.Hand.tail`. -/
theorem res_eq (m : (ℓ : Loc nD τ sig) → Buf (Elt Ideal) ℓ) (c : Dev nD) :
    Value.res_out0 (F := Ideal) m c
      = Cert.Hand.tail (ctrArr (m ((c.tc : Thread nD τ).loc main_arg0)) (m ((c.tc : Thread nD τ).loc main_arg1)))
          (varTerm (m ((c.tc : Thread nD τ).loc main_arg0)) (m ((c.tc : Thread nD τ).loc main_arg1))) := by
  refine (val_main_v62_eq m c).trans ?_
  unfold ctrArr varTerm Cert.Hand.tail
  unfold val_main_v62 val_main_v61 val_main_cst_21 val_main_v60 val_main_v59 val_main_cst_20 val_main_v58 val_main_cst_19 val_main_v57 val_main_cst_18 val_main_v56 val_main_cst_17 val_main_v55 val_main_v54 val_main_cst_16 val_main_v53 val_main_v52 val_main_cst_15 val_main_v51 val_main_cst_14 val_main_v50 val_main_call1_v1 val_main_call1_v0 val_main_cst_13 val_main_v49 val_main_v48 val_main_v47 val_main_cst_12 val_main_v46 val_main_v45 val_main_cst_11 val_main_v44 val_main_v43 val_main_call0_v1 val_main_call0_v0 val_main_cst_10 val_main_v42 val_main_v41 val_main_v40 val_main_c_9 val_main_v39 val_main_v38 val_main_v37 val_main_cst_8 val_main_v36 val_main_v35 val_main_v34 val_main_v33 val_main_v32 val_main_v31
  rfl

end Cert.ReferenceIdeal.RefValue
end
-- ==== Proof.Claims.lean ====
/-
  The certificate's conjuncts, assembled from what the other modules establish.

  Both idealized programs run and leave their two arguments unchanged.  For the equality of results: the kernel's
  result is the shared closing function of its centre table and its variance term; the reference's result is the
  same function of its own centre table and variance term.  Under the precondition every label names a cluster
  and every cluster has a point, so the two centre tables agree entry by entry (blocked one-hot sums against flat
  sums over the cluster, and a size of at least one makes the guard idle), and the two variance terms agree (equal
  summed hinges over the same divisor).  Equal arguments of one function give equal results.
-/
import proofs.«429783_j3401614098830_3_alg».proof.Defs
import proofs.«429783_j3401614098830_3_alg».proof.Proof.Gen.KernelIdeal
import proofs.«429783_j3401614098830_3_alg».proof.Proof.Gen.ReferenceIdeal
import proofs.«429783_j3401614098830_3_alg».proof.Proof.Gen.Pre_finite_inputs
import proofs.«429783_j3401614098830_3_alg».proof.Proof.RefRead
import proofs.«429783_j3401614098830_3_alg».proof.Proof.Spec
import proofs.«429783_j3401614098830_3_alg».proof.Proof.Bridge
import proofs.«429783_j3401614098830_3_alg».proof.Proof.Tail
import proofs.«429783_j3401614098830_3_alg».proof.Proof.PreFacts
import proofs.«429783_j3401614098830_3_alg».proof.Proof.KiRun
import proofs.«429783_j3401614098830_3_alg».proof.Proof.KiValue
import proofs.«429783_j3401614098830_3_alg».proof.Proof.RefValue

noncomputable section

namespace Cert.Proof.Claims

open Idealize.ShloMosaic Idealize.ShloMosaic.TcCoe Idealize.SL.Sem Idealize.ShloMosaic.ValueIdx

/-- The idealized kernel runs and leaves its two arguments as it found them. -/
theorem frame_ki : Cert.frame_KernelIdeal := fun m ρ _ => Cert.KernelIdeal.Hand.frame_args (F := Ideal) m ρ

/-- The idealized reference runs and leaves its two arguments as it found them. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the same result: the closing
    function at the kernel's centre table and variance term, which the reference's own pair equals. -/
theorem algebraic : Cert.algebraic_KernelIdeal_ReferenceIdeal := by
  intro m ρ m' ρ' hpre hagree
  refine ⟨fun c => Cert.Hand.tail (Cert.KernelIdeal.Value1.ctrT m ρ c) (Cert.KernelIdeal.Value1.vtK m ρ c), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v44 (by decide))).trans (Cert.KernelIdeal.Value1.result_eq m ρ c)
    · exact (h c _ (Cert.KernelIdeal.Hand.mem_uc Cert.KernelIdeal.main_arg0 (by decide))).trans (Cert.KernelIdeal.Hand.Wb8_main_arg0 m ρ c)
    · exact (h c _ (Cert.KernelIdeal.Hand.mem_uc Cert.KernelIdeal.main_arg1 (by decide))).trans (Cert.KernelIdeal.Hand.Wb8_main_arg1 m ρ c)
  · refine (θ_run Cert.ReferenceIdeal.defs _ _).mono (fun r h c => ⟨(h c).1.trans ?_, (h c).2⟩)
      (Cert.ReferenceIdeal.Value.run (F := Ideal) m' ρ')
    have hr := Cert.Hand.PreFacts.inRange_of_pre _ _ (hpre c)
    have hp := Cert.Hand.PreFacts.allPresent_of_pre _ _ (hpre c)
    refine (Cert.ReferenceIdeal.RefValue.res_eq m' c).trans ?_
    rw [(hagree c).1, (hagree c).2]
    -- the centre tables agree entry by entry: both are the per-cluster means, in the two arrangements
    have e1 : Cert.ReferenceIdeal.RefValue.ctrArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = Cert.KernelIdeal.Value1.ctrT m ρ c := by
      funext i
      obtain ⟨k, d, rfl⟩ : ∃ k d, i = ix2 k d := ⟨i 0, i 1, eq_ix2 i⟩
      rw [Cert.ReferenceIdeal.RefValue.ctrArr_apply, Cert.KernelIdeal.Value1.ctrT_apply, Cert.Hand.Spec.ctr_eq _ _ hr hp]
    -- the variance terms agree: the summed hinges are equal, and both are divided by the same sixteen
    have e2 : Cert.ReferenceIdeal.RefValue.varTerm (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = Cert.KernelIdeal.Value1.vtK m ρ c := by
      rw [Cert.ReferenceIdeal.RefValue.varTerm_eq _ _ hr, Cert.KernelIdeal.Value1.vtK_eq, Cert.Hand.Spec.varSum_eq _ _ hr hp]
    rw [e1, e2]

end Cert.Proof.Claims

end
-- ==== Proof.lean ====
/-
  A discriminative clustering loss over N = 524288 points of dimension 32 with labels in sixteen clusters: the
  kernel's result and the reference's are the same extended real whenever every label names a cluster and every
  cluster has a point.

  Both programs form the centre table (per cluster, the sum of its points over its size) and then apply one and the
  same chain of host operations to it (the pairwise hinge of the centres and their mean norm) beside the variance
  term (the mean over clusters of the summed squared hinge of each point's distance to its own centre).  They differ in
  how the centre table and the summed hinge are reached: the kernel adds one-hot products block by block (2 cores x 8
  steps of 32768 lanes) in a first region, guards the cluster size below by one, and in a second region selects each
  point's centre by a one-hot product with a table it keeps in scratch memory; the reference scatters the points into
  their clusters, divides by the plain size and gathers the centre by index.  On the extended reals a product with a
  one-hot entry is the entry's selection (x * 0 = 0 and x * 1 = x for every x), sums may be regrouped freely, and a
  non-empty cluster's size is at least one, so the guard does not bind: the two centre tables and the two summed hinges
  coincide (Bridge), and with them the results.  No finiteness of the data is used.

  The frames: each kernel program runs its two regions point by point; a region's accumulators are carried in their
  staging buffers between the points of one core and written back at the core's last point, and the second region's
  centre table is carried in its scratch buffer, named by the region's invariant from the second point on.  The same
  text, read at the word-level instance and at the extended reals, gives both kernel frames; the reference's frame is
  its run with the result dropped.  The idealization rewrote no operation, so it preserves the program trivially.
-/
import proofs.«429783_j3401614098830_3_alg».proof.Defs
import proofs.«429783_j3401614098830_3_alg».proof.Proof.Gen.Kernel
import proofs.«429783_j3401614098830_3_alg».proof.Proof.Gen.Kernel.Skeleton
import proofs.«429783_j3401614098830_3_alg».proof.Proof.Gen.Kernel.Launch
import proofs.«429783_j3401614098830_3_alg».proof.Proof.Gen.Kernel.Regions
import proofs.«429783_j3401614098830_3_alg».proof.Proof.Gen.Kernel.Points
import proofs.«429783_j3401614098830_3_alg».proof.Proof.Gen.KernelIdeal
import proofs.«429783_j3401614098830_3_alg».proof.Proof.Gen.KernelIdeal.Skeleton
import proofs.«429783_j3401614098830_3_alg».proof.Proof.Gen.KernelIdeal.Launch
import proofs.«429783_j3401614098830_3_alg».proof.Proof.Gen.KernelIdeal.Regions
import proofs.«429783_j3401614098830_3_alg».proof.Proof.Gen.KernelIdeal.Points
import proofs.«429783_j3401614098830_3_alg».proof.Proof.Gen.ReferenceIdeal
import proofs.«429783_j3401614098830_3_alg».proof.Proof.Gen.Pre_finite_inputs
import proofs.«429783_j3401614098830_3_alg».proof.Proof.KbRun
import proofs.«429783_j3401614098830_3_alg».proof.Proof.Claims
import Idealize.ShloMosaic.Adequacy
import Idealize.ShloMosaic.Init

noncomputable section

namespace Cert.Proof

open Idealize.ShloMosaic Idealize.SL.Sem Cert.Kernel

/-- The five conjuncts: the word-level kernel's frame (the run of its two regions, the arguments read back off the
    last boundary), the idealized kernel's frame (the same run at the extended reals), the reference's frame, the
    idealization's (empty) ledger, and the equality of the two results. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame_args (F := Bits) m ρ,
  Cert.Proof.Claims.frame_ki,
  Cert.Proof.Claims.frame_ri,
  trivial,
  Cert.Proof.Claims.algebraic⟩

end Cert.Proof

end
